-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S7x256 : Shape := ⟨2, ![7, 256]⟩
abbrev S256 : Shape := ⟨1, ![256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S128x256 : Shape := ⟨2, ![128, 256]⟩
abbrev S256x4 : Shape := ⟨2, ![256, 4]⟩
abbrev S4 : Shape := ⟨1, ![4]⟩
abbrev S_ : Shape := ⟨0, ![]⟩
abbrev S1x1600000 : Shape := ⟨2, ![1, 1600000]⟩
abbrev S1600000 : Shape := ⟨1, ![1600000]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x256 : S_.BroadcastsInDim S7x256 (![] : Fin 0 → Fin S7x256.rank)
  reducesTo_S7x256_S_d0_1 : S7x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_arg15 : FVec F S4 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_v75 : IVec S1600000 32 := shapeCast S1600000 main_v74 shapeCasts_S1x1600000_S1600000
  let main_c_28 : IVec S_ 32 := constantI S_ 32 4294867296#32
  let main_v76 : IVec S1600000 32 := broadcastInDim S1600000 ![] bcast_S_S1600000 main_c_28
  let main_v77 : IVec S1600000 1 := cmpi .sge main_v75 main_v76
  let main_v78 : IVec S1x1600000 32 := (extractStridedSlice S1x1600000 ![0, 0] · slices_S2x1600000_S1x1600000_0_0) main_arg1
  let main_v79 : IVec S1600000 32 := shapeCast S1600000 main_v78 shapeCasts_S1x1600000_S1600000
  let main_c_29 : IVec S_ 32 := constantI S_ 32 100000#32
  let main_v80 : IVec S1600000 32 := broadcastInDim S1600000 ![] bcast_S_S1600000 main_c_29
  let main_v81 : IVec S1600000 1 := cmpi .slt main_v79 main_v80
  let main_v82 : IVec S1600000 1 := andi main_v77 main_v81
  let main_c_30 : IVec S_ 1 := constantI S_ 1 1#1
  let main_v83 : IVec S_ 1 := (fun x v => Host.reduce IntOp.andi x v reducesTo_S1600000_S_d0 h_S_) main_v82 main_c_30
  let main_v84 : IVec S_ 1 := andi main_v73 main_v83
  main_v84

def fn_part3 {F : FTy → Type} [FloatOps F] (main_arg1 : IVec S2x1600000 32) (main_arg12 : FVec F S2x256x256 .f32) (main_arg13 : FVec F S2x256 .f32) (main_arg14 : FVec F S256x4 .f32) (main_arg15 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S2x256x256 .f32 := Host.absf main_arg12
  let main_cst_20 : FVec F S_ .f32 := constant S_ .f32 0x7F800000#32
  let main_v55 : FVec F S2x256x256 .f32 := broadcastInDim S2x256x256 ![] bcast_S_S2x256x256 main_cst_20
  let main_v56 : IVec S2x256x256 1 := cmpf .olt main_v54 main_v55
  let main_c_21 : IVec S_ 1 := constantI S_ 1 1#1
  let main_v57 : IVec S_ 1 := (fun x v => Host.reduce IntOp.andi x v reducesTo_S2x256x256_S_d0_1_2 h_S_) main_v56 main_c_21
  let main_v58 : IVec S_ 1 := andi main_v53 main_v57
  let main_v59 : FVec F S2x256 .f32 := Host.absf main_arg13
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S256x4 .f32 := Host.absf main_arg14
  let main_cst_24 : FVec F S_ .f32 := constant S_ .f32 0x7F800000#32
  let main_v65 : FVec F S256x4 .f32 := broadcastInDim S256x4 ![] bcast_S_S256x4 main_cst_24
  let main_v66 : IVec S256x4 1 := cmpf .olt main_v64 main_v65
  let main_c_25 : IVec S_ 1 := constantI S_ 1 1#1
  let main_v67 : IVec S_ 1 := (fun x v => Host.reduce IntOp.andi x v reducesTo_S256x4_S_d0_1 h_S_) main_v66 main_c_25
  fn_part4 (F := F) main_arg1 main_arg15 main_v63 main_v67

def fn_part2 {F : FTy → Type} [FloatOps F] (main_arg1 : IVec S2x1600000 32) (main_arg8 : FVec F S4x128x128 .f32) (main_arg9 : FVec F S4x128 .f32) (main_arg10 : FVec F S128x256 .f32) (main_arg11 : FVec F S256 .f32) (main_arg12 : FVec F S2x256x256 .f32) (main_arg13 : FVec F S2x256 .f32) (main_arg14 : FVec F S256x4 .f32) (main_arg15 : FVec F S4 .f32) (main_v33 : IVec S_ 1) : IVec S_ 1 :=
  let main_v34 : FVec F S4x128x128 .f32 := Host.absf main_arg8
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_arg15 main_v48 main_v49 main_v50

def fn_part1 {F : FTy → Type} [FloatOps F] (main_arg1 : IVec S2x1600000 32) (main_arg5 : FVec F S2x256 .f32) (main_arg6 : FVec F S256x128 .f32) (main_arg7 : FVec F S128 .f32) (main_arg8 : FVec F S4x128x128 .f32) (main_arg9 : FVec F S4x128 .f32) (main_arg10 : FVec F S128x256 .f32) (main_arg11 : FVec F S256 .f32) (main_arg12 : FVec F S2x256x256 .f32) (main_arg13 : FVec F S2x256 .f32) (main_arg14 : FVec F S256x4 .f32) (main_arg15 : FVec F S4 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S100000x7 .f32) (main_arg1 : IVec S2x1600000 32) (main_arg2 : FVec F S7x256 .f32) (main_arg3 : FVec F S256 .f32) (main_arg4 : FVec F S2x256x256 .f32) (main_arg5 : FVec F S2x256 .f32) (main_arg6 : FVec F S256x128 .f32) (main_arg7 : FVec F S128 .f32) (main_arg8 : FVec F S4x128x128 .f32) (main_arg9 : FVec F S4x128 .f32) (main_arg10 : FVec F S128x256 .f32) (main_arg11 : FVec F S256 .f32) (main_arg12 : FVec F S2x256x256 .f32) (main_arg13 : FVec F S2x256 .f32) (main_arg14 : FVec F S256x4 .f32) (main_arg15 : FVec F S4 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x256 .f32 := Host.absf main_arg2
  let main_cst_0 : FVec F S_ .f32 := constant S_ .f32 0x7F800000#32
  let main_v5 : FVec F S7x256 .f32 := broadcastInDim S7x256 ![] bcast_S_S7x256 main_cst_0
  let main_v6 : IVec S7x256 1 := cmpf .olt main_v4 main_v5
  let main_c_1 : IVec S_ 1 := constantI S_ 1 1#1
  let main_v7 : IVec S_ 1 := (fun x v => Host.reduce IntOp.andi x v reducesTo_S7x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S100000x7 : Shape := ⟨2, ![100000, 7]⟩
abbrev S2x1600000 : Shape := ⟨2, ![2, 1600000]⟩
abbrev S7x256 : Shape := ⟨2, ![7, 256]⟩
abbrev S256 : Shape := ⟨1, ![256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S128x256 : Shape := ⟨2, ![128, 256]⟩
abbrev S256x4 : Shape := ⟨2, ![256, 4]⟩
abbrev S4 : Shape := ⟨1, ![4]⟩
abbrev S1x1600000 : Shape := ⟨2, ![1, 1600000]⟩
abbrev S1600000 : Shape := ⟨1, ![1600000]⟩
abbrev S100000x128 : Shape := ⟨2, ![100000, 128]⟩
abbrev S2000x7 : Shape := ⟨2, ![2000, 7]⟩
abbrev S2000x128 : Shape := ⟨2, ![2000, 128]⟩
abbrev S2000x256 : Shape := ⟨2, ![2000, 256]⟩
abbrev S1x256 : Shape := ⟨2, ![1, 256]⟩
abbrev S1x256x256 : Shape := ⟨3, ![1, 256, 256]⟩
abbrev S256x256 : Shape := ⟨2, ![256, 256]⟩
abbrev S1x128 : Shape := ⟨2, ![1, 128]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x4 : Shape := ⟨2, ![100000, 4]⟩
abbrev S2000x4 : Shape := ⟨2, ![2000, 4]⟩
abbrev S1x4 : Shape := ⟨2, ![1, 4]⟩

abbrev nBuf : Space → Nat
  | .hbm => 154
  | .vmem => 60
  | .smem => 0
  | _ => 0

abbrev hbmTy0_0 (i : Nat) : BufTy := match i % 128 with
  | 0 => ⟨S100000x7, .f32⟩
  | 1 => ⟨S2x1600000, .i32⟩
  | 2 => ⟨S7x256, .f32⟩
  | 3 => ⟨S256, .f32⟩
  | 4 => ⟨S2x256x256, .f32⟩
  | 5 => ⟨S2x256, .f32⟩
  | 6 => ⟨S256x128, .f32⟩
  | 7 => ⟨S128, .f32⟩
  | 8 => ⟨S4x128x128, .f32⟩
  | 9 => ⟨S4x128, .f32⟩
  | 10 => ⟨S128x256, .f32⟩
  | 11 => ⟨S256, .f32⟩
  | 12 => ⟨S2x256x256, .f32⟩
  | 13 => ⟨S2x256, .f32⟩
  | 14 => ⟨S256x4, .f32⟩
  | 15 => ⟨S4, .f32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S1x128x128, .f32⟩
  | 22 => ⟨S128x128, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1, .i32⟩
  | 33 => ⟨S_, .i32⟩
  | 34 => ⟨S1600000x1, .i32⟩
  | 35 => ⟨S1600000x1, .i1⟩
  | 36 => ⟨S1x1, .i32⟩
  | 37 => ⟨S1600000x1, .i32⟩
  | 38 => ⟨S1600000x1, .i1⟩
  | 39 => ⟨S1600000x1, .i1⟩
  | 40 => ⟨S_, .i1⟩
  | 41 => ⟨S1600000, .i1⟩
  | 42 => ⟨S1600000x128, .f32⟩
  | 43 => ⟨S1600000x128, .i1⟩
  | 44 => ⟨S_, .f32⟩
  | 45 => ⟨S1600000x128, .f32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S1x128, .f32⟩
  | 52 => ⟨S128, .f32⟩
  | 53 => ⟨S100000x128, .f32⟩
  | 54 => ⟨S1x128x128, .f32⟩
  | 55 => ⟨S128x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1, .i32⟩
  | 66 => ⟨S_, .i32⟩
  | 67 => ⟨S1600000x1, .i32⟩
  | 68 => ⟨S1600000x1, .i1⟩
  | 69 => ⟨S1x1, .i32⟩
  | 70 => ⟨S1600000x1, .i32⟩
  | 71 => ⟨S1600000x1, .i1⟩
  | 72 => ⟨S1600000x1, .i1⟩
  | 73 => ⟨S_, .i1⟩
  | 74 => ⟨S1600000, .i1⟩
  | 75 => ⟨S1600000x128, .f32⟩
  | 76 => ⟨S1600000x128, .i1⟩
  | 77 => ⟨S_, .f32⟩
  | 78 => ⟨S1600000x128, .f32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S1x128, .f32⟩
  | 85 => ⟨S128, .f32⟩
  | 86 => ⟨S100000x128, .f32⟩
  | 87 => ⟨S1x128x128, .f32⟩
  | 88 => ⟨S128x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1, .i32⟩
  | 99 => ⟨S_, .i32⟩
  | 100 => ⟨S1600000x1, .i32⟩
  | 101 => ⟨S1600000x1, .i1⟩
  | 102 => ⟨S1x1, .i32⟩
  | 103 => ⟨S1600000x1, .i32⟩
  | 104 => ⟨S1600000x1, .i1⟩
  | 105 => ⟨S1600000x1, .i1⟩
  | 106 => ⟨S_, .i1⟩
  | 107 => ⟨S1600000, .i1⟩
  | 108 => ⟨S1600000x128, .f32⟩
  | 109 => ⟨S1600000x128, .i1⟩
  | 110 => ⟨S_, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S1x128, .f32⟩
  | 118 => ⟨S128, .f32⟩
  | 119 => ⟨S100000x128, .f32⟩
  | 120 => ⟨S1x128x128, .f32⟩
  | 121 => ⟨S128x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x7, .f32⟩

abbrev hbmTy0_1 (i : Nat) : BufTy := match i % 128 with
  | 0 => ⟨S1600000, .i32⟩
  | 1 => ⟨S1600000, .i32⟩
  | 2 => ⟨S1600000x1, .i32⟩
  | 3 => ⟨S1, .i32⟩
  | 4 => ⟨S_, .i32⟩
  | 5 => ⟨S1600000x1, .i32⟩
  | 6 => ⟨S1600000x1, .i1⟩
  | 7 => ⟨S1x1, .i32⟩
  | 8 => ⟨S1600000x1, .i32⟩
  | 9 => ⟨S1600000x1, .i1⟩
  | 10 => ⟨S1600000x1, .i1⟩
  | 11 => ⟨S_, .i1⟩
  | 12 => ⟨S1600000, .i1⟩
  | 13 => ⟨S1600000x128, .f32⟩
  | 14 => ⟨S1600000x128, .i1⟩
  | 15 => ⟨S_, .f32⟩
  | 16 => ⟨S1600000x128, .f32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S1x128, .f32⟩
  | 23 => ⟨S128, .f32⟩
  | 24 => ⟨S100000x128, .f32⟩
  | 25 => ⟨S100000x4, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S2000x7, .f32⟩
  | .local _ .vmem, ⟨1, _⟩ => ⟨S2000x7, .f32⟩
  | .local _ .vmem, ⟨2, _⟩ => ⟨S7x256, .f32⟩
  | .local _ .vmem, ⟨3, _⟩ => ⟨S256, .f32⟩
  | .local _ .vmem, ⟨4, _⟩ => ⟨S2x256x256, .f32⟩
  | .local _ .vmem, ⟨5, _⟩ => ⟨S2x256, .f32⟩
  | .local _ .vmem, ⟨6, _⟩ => ⟨S256x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x256, .f32⟩
  | .local _ .vmem, ⟨53, _⟩ => ⟨S256, .f32⟩
  | .local _ .vmem, ⟨54, _⟩ => ⟨S2x256x256, .f32⟩
  | .local _ .vmem, ⟨55, _⟩ => ⟨S2x256, .f32⟩
  | .local _ .vmem, ⟨56, _⟩ => ⟨S256x4, .f32⟩
  | .local _ .vmem, ⟨57, _⟩ => ⟨S4, .f32⟩
  | .local _ .vmem, ⟨58, _⟩ => ⟨S2000x4, .f32⟩
  | .local _ .vmem, ⟨59, _⟩ => ⟨S2000x4, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v8 : Ref sig .tc := ⟨.hbm, 46, rfl⟩
abbrev main_cst : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v18 : Ref sig .tc := ⟨.hbm, 79, rfl⟩
abbrev main_cst_0 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v28 : Ref sig .tc := ⟨.hbm, 112, rfl⟩
abbrev main_cst_1 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v38 : Ref sig .tc := ⟨.hbm, 145, rfl⟩
abbrev main_cst_2 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg4_0 : Ref sig .tc := ⟨.vmem, 55, rfl⟩
abbrev cc9_stg5_0 : Ref sig .tc := ⟨.vmem, 56, rfl⟩
abbrev cc9_stg6_0 : Ref sig .tc := ⟨.vmem, 57, rfl⟩
abbrev cc9_stg7_0 : Ref sig .tc := ⟨.vmem, 58, rfl⟩
abbrev cc9_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem3_0 : DmaSem sig := 54
abbrev cc9_sem4_0 : DmaSem sig := 55
abbrev cc9_sem5_0 : DmaSem sig := 56
abbrev cc9_sem6_0 : DmaSem sig := 57
abbrev cc9_sem7_0 : DmaSem sig := 58
abbrev cc9_sem7_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2x256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S2x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x4 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S4 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S2000x4 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x7_S2000x7_0_0 : ∀ a, (![0, 0] : Fin 2 → Nat) a + S2000x7.size a ≤ S2000x7.size a
  h_S2000x7 : 0 < S2000x7.numel
  bitsLt_bf16_f32 : FTy.bits .bf16 < FTy.bits .f32
  inb_S7x256_S7x256_0_0 : ∀ a, (![0, 0] : Fin 2 → Nat) a + S7x256.size a ≤ S7x256.size a
  h_S7x256 : 0 < S7x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S2x256_S1x256_0_0 : ∀ a, (![0, 0] : Fin 2 → Nat) a + S1x256.size a ≤ S2x256.size a
  h_S1x256 : 0 < S1x256.numel
  shapeCasts_S1x256_S256 : S1x256.ShapeCasts S256
  inb_S2x256x256_S1x256x256_1_0_0 : ∀ a, (![1, 0, 0] : Fin 3 → Nat) a + S1x256x256.size a ≤ S2x256x256.size a
  inb_S2x256_S1x256_1_0 : ∀ a, (![1, 0] : Fin 2 → Nat) a + S1x256.size a ≤ S2x256.size a
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S4x128x128_S1x128x128_0_0_0 : S4x128x128.Slices ![0, 0, 0] S1x128x128
  shapeCasts_S1x128x128_S128x128 : S1x128x128.ShapeCasts S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S128 : S128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S128x256_S128x256_0_0 : ∀ a, (![0, 0] : Fin 2 → Nat) a + S128x256.size a ≤ S128x256.size a
  h_S128x256 : 0 < S128x256.numel
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  dot_S2000x7_S7x256_S2000x256_1_0_0_1_n_n_wf : DotDims.WF S2000x7 S7x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x4_S2000x4_1_0_0_1_n_n_wf : DotDims.WF S2000x256 S256x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S100000x7.size a
  hwx0_0 : ∀ i : grid0.Coords, EltTy.bits .f32 = 32 ∨ (Rect.block (s := S100000x7) S2000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x256.size a ≤ S7x256.size a
  hwx0_1 : ∀ i : grid0.Coords, EltTy.bits .f32 = 32 ∨ (Rect.block (s := S7x256) S7x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256x256.size a ≤ S2x256x256.size a
  hwx0_3 : ∀ i : grid0.Coords, EltTy.bits .f32 = 32 ∨ (Rect.block (s := S2x256x256) S2x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S100000x128.size a
  hwx7_2 : ∀ i : grid7.Coords, EltTy.bits .f32 = 32 ∨ (Rect.block (s := S100000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128.size a ≤ S128.size a
  hwx8_1 : ∀ i : grid8.Coords, EltTy.bits .f32 = 32 ∨ (Rect.block (s := S128) S128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S100000x128.size a
  hwx8_2 : ∀ i : grid8.Coords, EltTy.bits .f32 = 32 ∨ (Rect.block (s := S100000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x256.size a ≤ S128x256.size a
  hwx9_1 : ∀ i : grid9.Coords, EltTy.bits .f32 = 32 ∨ (Rect.block (s := S128x256) S128x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256.size a ≤ S256.size a
  hwx9_2 : ∀ i : grid9.Coords, EltTy.bits .f32 = 32 ∨ (Rect.block (s := S256) S256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2x256x256.size a ≤ S2x256x256.size a
  hwx9_3 : ∀ i : grid9.Coords, EltTy.bits .f32 = 32 ∨ (Rect.block (s := S2x256x256) S2x256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S2x256.size a ≤ S2x256.size a
  hwx9_4 : ∀ i : grid9.Coords, EltTy.bits .f32 = 32 ∨ (Rect.block (s := S2x256) S2x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x4.size a ≤ S256x4.size a
  hwx9_5 : ∀ i : grid9.Coords, EltTy.bits .f32 = 32 ∨ (Rect.block (s := S256x4) S256x4.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S4.size a ≤ S4.size a
  hwx9_6 : ∀ i : grid9.Coords, EltTy.bits .f32 = 32 ∨ (Rect.block (s := S4) S4.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x4.size a ≤ S100000x4.size a
  hwx9_7 : ∀ i : grid9.Coords, EltTy.bits .f32 = 32 ∨ (Rect.block (s := S100000x4) S2000x4.size (cc9_transform_7 i) (hinb9_7 i)).WholeWords (EltTy.packing .f32)

variable [Facts₀]

def dot_S2000x7_S7x256_S2000x256_1_0_0_1_n_n : DotDims S2000x7 S7x256 S2000x256 where
  lhsContracting := [1]
  rhsContracting := [0]
  lhsNonContracting := [0]
  rhsNonContracting := [1]
  lhsBatch := []
  rhsBatch := []
  wf := dot_S2000x7_S7x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x4_S2000x4_1_0_0_1_n_n : DotDims S2000x256 S256x4 S2000x4 where
  lhsContracting := [1]
  rhsContracting := [0]
  lhsNonContracting := [0]
  rhsNonContracting := [1]
  lhsBatch := []
  rhsBatch := []
  wf := dot_S2000x256_S256x4_S2000x4_1_0_0_1_n_n_wf

abbrev win0_0 : Pipeline.Window sig grid0 :=
  Pipeline.Window.ofSpec (Memref.whole main_arg0) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v14) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v21) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v24) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v24) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v31) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v34) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v34) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v36) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v37) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v41) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v43) S128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v44) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v44) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S128x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg11) S256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg12) S2x256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg13) S2x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg14) S256x4.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_arg15) S4.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v45) S2000x4.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S7x256 : Shape := ⟨2, ![7, 256]⟩
abbrev S256 : Shape := ⟨1, ![256]⟩
abbrev S2x256x256 : Shape := ⟨3, ![2, 256, 256]⟩
abbrev S2x256 : Shape := ⟨2, ![2, 256]⟩
abbrev S256x128 : Shape := ⟨2, ![256, 128]⟩
abbrev S128 : Shape := ⟨1, ![128]⟩
abbrev S4x128x128 : Shape := ⟨3, ![4, 128, 128]⟩
abbrev S4x128 : Shape := ⟨2, ![4, 128]⟩
abbrev S128x256 : Shape := ⟨2, ![128, 256]⟩
abbrev S256x4 : Shape := ⟨2, ![256, 4]⟩
abbrev S4 : Shape := ⟨1, ![4]⟩
abbrev S1x1600000 : Shape := ⟨2, ![1, 1600000]⟩
abbrev S1600000 : Shape := ⟨1, ![1600000]⟩
abbrev S100000x256 : Shape := ⟨2, ![100000, 256]⟩
abbrev S1x256 : Shape := ⟨2, ![1, 256]⟩
abbrev S_ : Shape := ⟨0, ![]⟩
abbrev S1x256x256 : Shape := ⟨3, ![1, 256, 256]⟩
abbrev S256x256 : Shape := ⟨2, ![256, 256]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1600000x1 : Shape := ⟨2, ![1600000, 1]⟩
abbrev S1600000x128 : Shape := ⟨2, ![1600000, 128]⟩
abbrev S100000x4 : Shape := ⟨2, ![100000, 4]⟩
abbrev S1x4 : Shape := ⟨2, ![1, 4]⟩

abbrev nBuf : Space → Nat
  | .hbm => 182
  | .vmem => 0
  | .smem => 0
  | _ => 0

abbrev hbmTy0_0 (i : Nat) : BufTy := match i % 128 with
  | 0 => ⟨S100000x7, .f32⟩
  | 1 => ⟨S2x1600000, .i32⟩
  | 2 => ⟨S7x256, .f32⟩
  | 3 => ⟨S256, .f32⟩
  | 4 => ⟨S2x256x256, .f32⟩
  | 5 => ⟨S2x256, .f32⟩
  | 6 => ⟨S256x128, .f32⟩
  | 7 => ⟨S128, .f32⟩
  | 8 => ⟨S4x128x128, .f32⟩
  | 9 => ⟨S4x128, .f32⟩
  | 10 => ⟨S128x256, .f32⟩
  | 11 => ⟨S256, .f32⟩
  | 12 => ⟨S2x256x256, .f32⟩
  | 13 => ⟨S2x256, .f32⟩
  | 14 => ⟨S256x4, .f32⟩
  | 15 => ⟨S4, .f32⟩
  | 16 => ⟨S1x1600000, .i32⟩
  | 17 => ⟨S1600000, .i32⟩
  | 18 => ⟨S1x1600000, .i32⟩
  | 19 => ⟨S1600000, .i32⟩
  | 20 => ⟨S100000x256, .f32⟩
  | 21 => ⟨S1x256, .f32⟩
  | 22 => ⟨S100000x256, .f32⟩
  | 23 => ⟨S100000x256, .f32⟩
  | 24 => ⟨S_, .f32⟩
  | 25 => ⟨S100000x256, .f32⟩
  | 26 => ⟨S100000x256, .f32⟩
  | 27 => ⟨S1x256x256, .f32⟩
  | 28 => ⟨S256x256, .f32⟩
  | 29 => ⟨S100000x256, .f32⟩
  | 30 => ⟨S1x256, .f32⟩
  | 31 => ⟨S256, .f32⟩
  | 32 => ⟨S1x256, .f32⟩
  | 33 => ⟨S100000x256, .f32⟩
  | 34 => ⟨S100000x256, .f32⟩
  | 35 => ⟨S_, .f32⟩
  | 36 => ⟨S100000x256, .f32⟩
  | 37 => ⟨S100000x256, .f32⟩
  | 38 => ⟨S1x256x256, .f32⟩
  | 39 => ⟨S256x256, .f32⟩
  | 40 => ⟨S100000x256, .f32⟩
  | 41 => ⟨S1x256, .f32⟩
  | 42 => ⟨S256, .f32⟩
  | 43 => ⟨S1x256, .f32⟩
  | 44 => ⟨S100000x256, .f32⟩
  | 45 => ⟨S100000x256, .f32⟩
  | 46 => ⟨S_, .f32⟩
  | 47 => ⟨S100000x256, .f32⟩
  | 48 => ⟨S100000x256, .f32⟩
  | 49 => ⟨S100000x128, .f32⟩
  | 50 => ⟨S1x128, .f32⟩
  | 51 => ⟨S100000x128, .f32⟩
  | 52 => ⟨S100000x128, .f32⟩
  | 53 => ⟨S1x128x128, .f32⟩
  | 54 => ⟨S128x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x128x128, .f32⟩
  | 78 => ⟨S128x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S1x128x128, .f32⟩
  | 126 => ⟨S128x128, .f32⟩
  | 127 => ⟨S100000x128, .f32⟩
  | _ => ⟨S100000x7, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x256, .f32⟩
  | 22 => ⟨S1x256, .f32⟩
  | 23 => ⟨S100000x256, .f32⟩
  | 24 => ⟨S100000x256, .f32⟩
  | 25 => ⟨S_, .f32⟩
  | 26 => ⟨S100000x256, .f32⟩
  | 27 => ⟨S100000x256, .f32⟩
  | 28 => ⟨S1x256x256, .f32⟩
  | 29 => ⟨S256x256, .f32⟩
  | 30 => ⟨S100000x256, .f32⟩
  | 31 => ⟨S1x256, .f32⟩
  | 32 => ⟨S256, .f32⟩
  | 33 => ⟨S1x256, .f32⟩
  | 34 => ⟨S100000x256, .f32⟩
  | 35 => ⟨S100000x256, .f32⟩
  | 36 => ⟨S_, .f32⟩
  | 37 => ⟨S100000x256, .f32⟩
  | 38 => ⟨S100000x256, .f32⟩
  | 39 => ⟨S1x256x256, .f32⟩
  | 40 => ⟨S256x256, .f32⟩
  | 41 => ⟨S100000x256, .f32⟩
  | 42 => ⟨S1x256, .f32⟩
  | 43 => ⟨S256, .f32⟩
  | 44 => ⟨S1x256, .f32⟩
  | 45 => ⟨S100000x256, .f32⟩
  | 46 => ⟨S100000x256, .f32⟩
  | 47 => ⟨S_, .f32⟩
  | 48 => ⟨S100000x256, .f32⟩
  | 49 => ⟨S100000x256, .f32⟩
  | 50 => ⟨S100000x4, .f32⟩
  | 51 => ⟨S1x4, .f32⟩
  | 52 => ⟨S100000x4, .f32⟩
  | 53 => ⟨S100000x4, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_cst : Ref sig .tc := ⟨.hbm, 46, rfl⟩
abbrev main_call2_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c : Ref sig .tc := ⟨.hbm, 56, rfl⟩
abbrev main_v34 : Ref sig .tc := ⟨.hbm, 57, rfl⟩
abbrev main_v35 : Ref sig .tc := ⟨.hbm, 58, rfl⟩
abbrev main_c_0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call3_cst : Ref sig .tc := ⟨.hbm, 74, rfl⟩
abbrev main_call3_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_1 : Ref sig .tc := ⟨.hbm, 80, rfl⟩
abbrev main_v53 : Ref sig .tc := ⟨.hbm, 81, rfl⟩
abbrev main_v54 : Ref sig .tc := ⟨.hbm, 82, rfl⟩
abbrev main_c_2 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_3 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call4_cst : Ref sig .tc := ⟨.hbm, 98, rfl⟩
abbrev main_call4_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_4 : Ref sig .tc := ⟨.hbm, 104, rfl⟩
abbrev main_v72 : Ref sig .tc := ⟨.hbm, 105, rfl⟩
abbrev main_v73 : Ref sig .tc := ⟨.hbm, 106, rfl⟩
abbrev main_c_5 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_6 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call5_cst : Ref sig .tc := ⟨.hbm, 122, rfl⟩
abbrev main_call5_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_7 : Ref sig .tc := ⟨.hbm, 128, rfl⟩
abbrev main_v91 : Ref sig .tc := ⟨.hbm, 129, rfl⟩
abbrev main_v92 : Ref sig .tc := ⟨.hbm, 130, rfl⟩
abbrev main_c_8 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_9 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call6_cst : Ref sig .tc := ⟨.hbm, 146, rfl⟩
abbrev main_call6_v0 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call7_cst : Ref sig .tc := ⟨.hbm, 153, rfl⟩
abbrev main_call7_v0 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call8_cst : Ref sig .tc := ⟨.hbm, 164, rfl⟩
abbrev main_call8_v0 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_call9_cst : Ref sig .tc := ⟨.hbm, 175, rfl⟩
abbrev main_call9_v0 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  dot_S100000x7_S7x256_S100000x256_1_0_0_1_n_n_wf : DotDims.WF S100000x7 S7x256 S100000x256 [1] [0] [0] [1] [] []
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x4_S100000x4_1_0_0_1_n_n_wf : DotDims.WF S100000x256 S256x4 S100000x4 [1] [0] [0] [1] [] []

variable [Facts₀]

def dot_S100000x7_S7x256_S100000x256_1_0_0_1_n_n : DotDims S100000x7 S7x256 S100000x256 where
  lhsContracting := [1]
  rhsContracting := [0]
  lhsNonContracting := [0]
  rhsNonContracting := [1]
  lhsBatch := []
  rhsBatch := []
  wf := dot_S100000x7_S7x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x4_S100000x4_1_0_0_1_n_n : DotDims S100000x256 S256x4 S100000x4 where
  lhsContracting := [1]
  rhsContracting := [0]
  lhsNonContracting := [0]
  rhsNonContracting := [1]
  lhsBatch := []
  rhsBatch := []
  wf := dot_S100000x256_S256x4_S100000x4_1_0_0_1_n_n_wf

class Facts : Prop extends Facts₀ where

variable [Facts]
-- ==== Proof.RefSpec.lean ====
/-
  The reference network, stage by stage, as functions of whole arrays (generic in the float instance):
  an encoder of four dense layers with a positive-part after the first three, four graph layers
  (project every node's features, send each edge's source row to its destination and add, add a bias, positive part),
  and a decoder shaped like the encoder.  Each stage is spelt with the reference program's own host operations, so the
  reference's composed result is this composition by unfolding (`whole_eq` in the module that imports the reference's run).
-/
import proofs.«424308_j12910671692012_1_alg».proof.ReferenceIdeal
import Idealize.ShloMosaic.PureOps.Ideal

noncomputable section

namespace Cert.Hand.Ref

open Idealize.ShloMosaic Idealize.ShloMosaic.TcCoe Idealize.SL.Sem
open Cert.ReferenceIdeal Cert.ReferenceIdeal.Facts₀ Cert.ReferenceIdeal.Facts

variable {F : FTy → Type} [FloatOps F] [Cert.ReferenceIdeal.Facts]

/-- The positive part, on 256 columns: the maximum with zero. -/
def relu256 (x : FVec F S100000x256 .f32) : FVec F S100000x256 .f32 :=
  maximumf x (broadcastInDim S100000x256 ![] bcast_S_S100000x256 (constant S_ .f32 0x00000000#32))
/-- The positive part, on 128 columns. -/
def relu128 (x : FVec F S100000x128 .f32) : FVec F S100000x128 .f32 :=
  maximumf x (broadcastInDim S100000x128 ![] bcast_S_S100000x128 (constant S_ .f32 0x00000000#32))

/-- A dense layer on all rows at once: the rows times the weights, plus the bias on every row. -/
def lin7x256 (x : FVec F S100000x7 .f32) (W : FVec F S7x256 .f32) (b : FVec F S256 .f32) : FVec F S100000x256 .f32 :=
  addf (Host.dotGeneral dot_S100000x7_S7x256_S100000x256_1_0_0_1_n_n none x W) (broadcastInDim S100000x256 ![0, 1] bcast_S1x256_S100000x256_0_1 (broadcastInDim S1x256 ![1] bcast_S256_S1x256_1 b))
/-- A dense layer on all rows at once: the rows times the weights, plus the bias on every row. -/
def lin256x256 (x : FVec F S100000x256 .f32) (W : FVec F S256x256 .f32) (b : FVec F S256 .f32) : FVec F S100000x256 .f32 :=
  addf (Host.dotGeneral dot_S100000x256_S256x256_S100000x256_1_0_0_1_n_n none x W) (broadcastInDim S100000x256 ![0, 1] bcast_S1x256_S100000x256_0_1 (broadcastInDim S1x256 ![1] bcast_S256_S1x256_1 b))
/-- A dense layer on all rows at once: the rows times the weights, plus the bias on every row. -/
def lin256x128 (x : FVec F S100000x256 .f32) (W : FVec F S256x128 .f32) (b : FVec F S128 .f32) : FVec F S100000x128 .f32 :=
  addf (Host.dotGeneral dot_S100000x256_S256x128_S100000x128_1_0_0_1_n_n none x W) (broadcastInDim S100000x128 ![0, 1] bcast_S1x128_S100000x128_0_1 (broadcastInDim S1x128 ![1] bcast_S128_S1x128_1 b))
/-- A dense layer on all rows at once: the rows times the weights, plus the bias on every row. -/
def lin128x256 (x : FVec F S100000x128 .f32) (W : FVec F S128x256 .f32) (b : FVec F S256 .f32) : FVec F S100000x256 .f32 :=
  addf (Host.dotGeneral dot_S100000x128_S128x256_S100000x256_1_0_0_1_n_n none x W) (broadcastInDim S100000x256 ![0, 1] bcast_S1x256_S100000x256_0_1 (broadcastInDim S1x256 ![1] bcast_S256_S1x256_1 b))
/-- A dense layer on all rows at once: the rows times the weights, plus the bias on every row. -/
def lin256x4 (x : FVec F S100000x256 .f32) (W : FVec F S256x4 .f32) (b : FVec F S4 .f32) : FVec F S100000x4 .f32 :=
  addf (Host.dotGeneral dot_S100000x256_S256x4_S100000x4_1_0_0_1_n_n none x W) (broadcastInDim S100000x4 ![0, 1] bcast_S1x4_S100000x4_0_1 (broadcastInDim S1x4 ![1] bcast_S4_S1x4_1 b))

/-- Every node's features times one graph layer's weights. -/
def mm128 (h : FVec F S100000x128 .f32) (W : FVec F S128x128 .f32) : FVec F S100000x128 .f32 :=
  Host.dotGeneral dot_S100000x128_S128x128_S100000x128_1_0_0_1_n_n none h W

/-- Hidden layer `i`'s weights out of the stacked pair. -/
def wh0 (W : FVec F S2x256x256 .f32) : FVec F S256x256 .f32 := shapeCast _ (extractStridedSlice S1x256x256 ![0, 0, 0] W slices_S2x256x256_S1x256x256_0_0_0) shapeCasts_S1x256x256_S256x256
def wh1 (W : FVec F S2x256x256 .f32) : FVec F S256x256 .f32 := shapeCast _ (extractStridedSlice S1x256x256 ![1, 0, 0] W slices_S2x256x256_S1x256x256_1_0_0) shapeCasts_S1x256x256_S256x256
/-- Hidden layer `i`'s bias out of the stacked pair. -/
def bh0 (b : FVec F S2x256 .f32) : FVec F S256 .f32 := shapeCast _ (extractStridedSlice S1x256 ![0, 0] b slices_S2x256_S1x256_0_0) shapeCasts_S1x256_S256
def bh1 (b : FVec F S2x256 .f32) : FVec F S256 .f32 := shapeCast _ (extractStridedSlice S1x256 ![1, 0] b slices_S2x256_S1x256_1_0) shapeCasts_S1x256_S256
/-- Graph layer `i`'s weights and bias out of the stacked four. -/
def gw0 (W : FVec F S4x128x128 .f32) : FVec F S128x128 .f32 := shapeCast _ (extractStridedSlice S1x128x128 ![0, 0, 0] W slices_S4x128x128_S1x128x128_0_0_0) shapeCasts_S1x128x128_S128x128
def gw1 (W : FVec F S4x128x128 .f32) : FVec F S128x128 .f32 := shapeCast _ (extractStridedSlice S1x128x128 ![1, 0, 0] W slices_S4x128x128_S1x128x128_1_0_0) shapeCasts_S1x128x128_S128x128
def gw2 (W : FVec F S4x128x128 .f32) : FVec F S128x128 .f32 := shapeCast _ (extractStridedSlice S1x128x128 ![2, 0, 0] W slices_S4x128x128_S1x128x128_2_0_0) shapeCasts_S1x128x128_S128x128
def gw3 (W : FVec F S4x128x128 .f32) : FVec F S128x128 .f32 := shapeCast _ (extractStridedSlice S1x128x128 ![3, 0, 0] W slices_S4x128x128_S1x128x128_3_0_0) shapeCasts_S1x128x128_S128x128
def gb0 (b : FVec F S4x128 .f32) : FVec F S128 .f32 := shapeCast _ (extractStridedSlice S1x128 ![0, 0] b slices_S4x128_S1x128_0_0) shapeCasts_S1x128_S128
def gb1 (b : FVec F S4x128 .f32) : FVec F S128 .f32 := shapeCast _ (extractStridedSlice S1x128 ![1, 0] b slices_S4x128_S1x128_1_0) shapeCasts_S1x128_S128
def gb2 (b : FVec F S4x128 .f32) : FVec F S128 .f32 := shapeCast _ (extractStridedSlice S1x128 ![2, 0] b slices_S4x128_S1x128_2_0) shapeCasts_S1x128_S128
def gb3 (b : FVec F S4x128 .f32) : FVec F S128 .f32 := shapeCast _ (extractStridedSlice S1x128 ![3, 0] b slices_S4x128_S1x128_3_0) shapeCasts_S1x128_S128

/-- The edges' source nodes (row 0 of the edge list) and destination nodes (row 1). -/
def src (e : IVec S2x1600000 32) : IVec S1600000 32 := shapeCast _ (extractStridedSlice S1x1600000 ![0, 0] e slices_S2x1600000_S1x1600000_0_0) shapeCasts_S1x1600000_S1600000
def dst (e : IVec S2x1600000 32) : IVec S1600000 32 := shapeCast _ (extractStridedSlice S1x1600000 ![1, 0] e slices_S2x1600000_S1x1600000_1_0) shapeCasts_S1x1600000_S1600000
/-- A negative index counts from the end: `s + 100000` where `s < 0`. -/
def wrap (s : IVec S1600000 32) : IVec S1600000 32 := select (cmpi .slt s (broadcastInDim S1600000 ![] bcast_S_S1600000 (constantI S_ 32 0#32))) (addi s (broadcastInDim S1600000 ![] bcast_S_S1600000 (constantI S_ 32 100000#32))) s

/-- Each edge's message: its (wrapped) source node's row. -/
def msgs (hw : FVec F S100000x128 .f32) (s : IVec S1600000 32) : FVec F S1600000x128 .f32 :=
  Host.gather gather_S100000x128_S1600000x1_S1600000x128_1_0_n_n_0_1_1128 hw (broadcastInDim S1600000x1 ![0] bcast_S1600000_S1600000x1_0 (wrap s))
/-- Every node's sum of the messages that arrive at it. -/
def agg (d : IVec S1600000 32) (msg : FVec F S1600000x128 .f32) : FVec F S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) msg
/-- Add the bias to every row, then the positive part. -/
def biasRelu (a : FVec F S100000x128 .f32) (b : FVec F S128 .f32) : FVec F S100000x128 .f32 :=
  relu128 (addf a (broadcastInDim S100000x128 ![0, 1] bcast_S1x128_S100000x128_0_1 (broadcastInDim S1x128 ![1] bcast_S128_S1x128_1 b)))

/-- The encoder: 7 → 256 → 256 → 256 → 128. -/
def enc (x : FVec F S100000x7 .f32) (W0 : FVec F S7x256 .f32) (b0 : FVec F S256 .f32) (Wh : FVec F S2x256x256 .f32) (bh : FVec F S2x256 .f32)
    (Wl : FVec F S256x128 .f32) (bl : FVec F S128 .f32) : FVec F S100000x128 .f32 :=
  lin256x128 (relu256 (lin256x256 (relu256 (lin256x256 (relu256 (lin7x256 x W0 b0)) (wh0 Wh) (bh0 bh))) (wh1 Wh) (bh1 bh))) Wl bl
/-- The decoder: 128 → 256 → 256 → 256 → 4. -/
def dec (h : FVec F S100000x128 .f32) (W0 : FVec F S128x256 .f32) (b0 : FVec F S256 .f32) (Wh : FVec F S2x256x256 .f32) (bh : FVec F S2x256 .f32)
    (Wl : FVec F S256x4 .f32) (bl : FVec F S4 .f32) : FVec F S100000x4 .f32 :=
  lin256x4 (relu256 (lin256x256 (relu256 (lin256x256 (relu256 (lin128x256 h W0 b0)) (wh0 Wh) (bh0 bh))) (wh1 Wh) (bh1 bh))) Wl bl
/-- One graph layer. -/
def layer (h : FVec F S100000x128 .f32) (W : FVec F S128x128 .f32) (b : FVec F S128 .f32) (e : IVec S2x1600000 32) : FVec F S100000x128 .f32 :=
  biasRelu (agg (dst e) (msgs (mm128 h W) (src e))) b

/-- The whole network. -/
def whole (a0 : FVec F S100000x7 .f32) (a1 : IVec S2x1600000 32) (a2 : FVec F S7x256 .f32) (a3 : FVec F S256 .f32) (a4 : FVec F S2x256x256 .f32)
    (a5 : FVec F S2x256 .f32) (a6 : FVec F S256x128 .f32) (a7 : FVec F S128 .f32) (a8 : FVec F S4x128x128 .f32) (a9 : FVec F S4x128 .f32)
    (a10 : FVec F S128x256 .f32) (a11 : FVec F S256 .f32) (a12 : FVec F S2x256x256 .f32) (a13 : FVec F S2x256 .f32) (a14 : FVec F S256x4 .f32)
    (a15 : FVec F S4 .f32) : FVec F S100000x4 .f32 :=
  dec (layer (layer (layer (layer (enc a0 a2 a3 a4 a5 a6 a7) (gw0 a8) (gb0 a9) a1) (gw1 a8) (gb1 a9) a1) (gw2 a8) (gb2 a9) a1) (gw3 a8) (gb3 a9) a1)
    a10 a11 a12 a13 a14 a15

end Cert.Hand.Ref

end
-- ==== Proof.RefWhole.lean ====
/- The reference's composed result is the network of RefSpec, stage by stage: both are the same host operations. -/
import proofs.«424308_j12910671692012_1_alg».proof.Proof.Gen.ReferenceIdeal.Run
import proofs.«424308_j12910671692012_1_alg».proof.Proof.RefSpec

set_option maxRecDepth 16384

noncomputable section

namespace Cert.Hand.Ref

open Idealize.ShloMosaic Idealize.ShloMosaic.TcCoe Idealize.SL.Sem
open Cert.ReferenceIdeal Cert.ReferenceIdeal.Gen

variable {F : FTy → Type} [FloatOps F]

theorem whole_eq (m : (ℓ : Loc nD τ sig) → Buf (Elt F) ℓ) (c : Dev nD) :
    Cert.ReferenceIdeal.Value.res_main_v133 m c =
      whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) := by
  unfold Cert.ReferenceIdeal.Value.res_main_v133 whole dec enc layer biasRelu agg msgs mm128 lin7x256 lin256x256 lin256x128 lin128x256 lin256x4
    relu256 relu128 wh0 wh1 bh0 bh1 gw0 gw1 gw2 gw3 gb0 gb1 gb2 gb3 src dst wrap
  rfl

end Cert.Hand.Ref

end
-- ==== Proof.Take.lean ====
/- The kernel gathers each edge's source row through a guarded take: a negative index counts from the end, the row is fetched,
   and an index still outside 0 … 99999 has its row filled with a not-a-number pattern.  For source indices from -100000 up to
   99999 the guard never fires, and the guarded take is the reference's plain gather at the same wrapped index.  The
   precondition's last conjunct says the source indices are in that range. -/
import proofs.«424308_j12910671692012_1_alg».proof.Defs
import proofs.«424308_j12910671692012_1_alg».proof.Proof.Gen.KernelIdeal
import proofs.«424308_j12910671692012_1_alg».proof.Proof.Gen.ReferenceIdeal
import proofs.«424308_j12910671692012_1_alg».proof.Proof.Gen.Pre_finite_inputs
import proofs.«424308_j12910671692012_1_alg».proof.Proof.RefSpec
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

namespace Cert.Hand.Take

open Idealize.ShloMosaic Idealize.ShloMosaic.TcCoe Idealize.SL.Sem
open Cert.KernelIdeal Cert.KernelIdeal.Facts₀ Cert.KernelIdeal.Facts

variable {F : FTy → Type} [FloatOps F]

/-- The source indices are usable row numbers, counting from either end. -/
def InRange (s : IVec S1600000 32) : Prop := ∀ e : S1600000.Idx, (-100000 : Int) ≤ (s e).toInt ∧ (s e).toInt < 100000

/-- The kernel's wrapped index: `s + 100000` where `s < 0`. -/
def kidx (s : IVec S1600000 32) : IVec S1600000 32 :=
  select (cmpi .slt s (broadcastInDim S1600000 ![] bcast_S_S1600000 (constantI S_ 32 0#32))) (addi s (broadcastInDim S1600000 ![] bcast_S_S1600000 (constantI S_ 32 100000#32))) s

/-- The kernel's guarded take of rows of `hw` at the indices `s`. -/
def take (hw : FVec F S100000x128 .f32) (s : IVec S1600000 32) : FVec F S1600000x128 .f32 :=
  select (broadcastInDim S1600000x128 ![0] bcast_S1600000_S1600000x128_0
      (Host.reduce IntOp.andi
        (andi (cmpi .sge (broadcastInDim S1600000x1 ![0] bcast_S1600000_S1600000x1_0 (kidx s)) (broadcastInDim S1600000x1 ![] bcast_S_S1600000x1 (constantI S_ 32 0#32)))
              (cmpi .sle (broadcastInDim S1600000x1 ![0] bcast_S1600000_S1600000x1_0 (kidx s)) (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 hw (broadcastInDim S1600000x1 ![0] bcast_S1600000_S1600000x1_0 (kidx s)))
    (broadcastInDim S1600000x128 ![] bcast_S_S1600000x128 (constant S_ .f32 0x7FC00000#32))

/-- A word from -100000 up to 99999, wrapped (100000 added where it is negative), lies in 0 … 99999. -/
theorem wrap_word (x : BitVec 32) (h1 : (-100000 : Int) ≤ x.toInt) (h2 : x.toInt < 100000) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  rw [IntOp.andi_eq_one, IntOp.cmpi_sge, IntOp.cmpi_sle]
  have h0 : (0#32 : BitVec 32).toInt = 0 := by decide
  have h9 : (99999#32 : BitVec 32).toInt = 99999 := by decide
  rw [h0, h9]
  unfold Scalar.select
  by_cases hneg : x.toInt < 0
  · have hc : IntOp.cmpi .slt x 0#32 = 1 := IntOp.cmpi_slt.2 (by rw [h0]; exact hneg)
    rw [if_pos hc]
    have ha : (IntOp.addi x 100000#32).toInt = x.toInt + 100000 := by
      unfold IntOp.addi
      rw [BitVec.toInt_add]
      have : (100000#32 : BitVec 32).toInt = 100000 := by decide
      rw [this]
      have := BitVec.toInt_lt (x := x); have := BitVec.le_toInt (x := x)
      simp only [Int.bmod]
      omega
    rw [ha]; omega
  · have hc : ¬ IntOp.cmpi .slt x 0#32 = 1 := fun h => hneg (by have := IntOp.cmpi_slt.1 h; rwa [h0] at this)
    rw [if_neg hc]; omega

/-- A left fold by `and` from 1 over a list of 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- The kernel's wrapped index is the reference's. -/
theorem kidx_eq_wrap (s : IVec S1600000 32) : kidx s = Cert.Hand.Ref.wrap s := rfl

/-- With the indices in range the guard passes every row, and the guarded take is the plain gather at the wrapped indices. -/
theorem take_eq_msgs (hw : FVec F S100000x128 .f32) (s : IVec S1600000 32) (hs : InRange s) :
    take hw s = Cert.Hand.Ref.msgs hw s := by
  have key : ∀ k : S1600000.Idx, IntOp.andi (IntOp.cmpi .sge (kidx s k) 0#32) (IntOp.cmpi .sle (kidx s k) 99999#32) = 1#1 :=
    fun k => wrap_word (s k) (hs k).1 (hs k).2
  funext i
  unfold take
  rw [ValueIdx.select_apply]
  have hm : broadcastInDim S1600000x128 ![0] bcast_S1600000_S1600000x128_0
      (Host.reduce IntOp.andi
        (andi (cmpi .sge (broadcastInDim S1600000x1 ![0] bcast_S1600000_S1600000x1_0 (kidx s)) (broadcastInDim S1600000x1 ![] bcast_S_S1600000x1 (constantI S_ 32 0#32)))
              (cmpi .sle (broadcastInDim S1600000x1 ![0] bcast_S1600000_S1600000x1_0 (kidx s)) (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_) i = 1#1 := by
    unfold broadcastInDim
    rw [Host.reduce_eq_foldl]
    exact foldl_andi_ones _ _ fun n _ => key _
  rw [hm]
  unfold Scalar.select
  rw [if_pos (show (1#1 : BitVec 1) = 1 from rfl)]
  rfl

/-- The precondition's last conjunct, read: every source index lies in -100000 … 99999. -/
theorem src_inRange (m : (ℓ : Loc nD τ sig) → Buf (Elt Ideal) ℓ) (hpre : Cert.Pre_KernelIdeal m) (c : Dev nD) :
    InRange (Cert.Hand.Ref.src (m ((c.tc : Thread nD τ).loc main_arg1))) := by
  haveI : Subsingleton (Cert.Pre_finite_inputs.S_).Idx := ⟨fun a b => funext fun d => d.elim0⟩
  have e := congrFun (hpre c) ValueIdx.ix0
  have e2 := (IntOp.andi_eq_one.1 e).2
  intro k
  have e3 := Host.reduce_andi_all _ _ _ _ _ e2 k
  obtain ⟨hge, hlt⟩ := IntOp.andi_eq_one.1 e3
  have hlo : ((4294867296#32 : BitVec 32)).toInt = -100000 := by decide
  have hhi : ((100000#32 : BitVec 32)).toInt = 100000 := by decide
  have hge' := IntOp.cmpi_sge.1 hge
  have hlt' := IntOp.cmpi_slt.1 hlt
  exact ⟨hlo ▸ hge', hhi ▸ hlt'⟩

end Cert.Hand.Take

end
-- ==== Proof.FoldBase.lean ====
/- The contents of the buffers at every boundary between the program's host stretches and its ten regions are a fold from
   the launch memory.  This module follows the buffers that are read long after they were made: the stacked graph-layer
   weights and biases, the decoder's weights and biases, and the edges' source and destination nodes.  No region has one
   of them among its arrays and no host operation after the first stretch writes one, so each keeps, at every boundary,
   what it held after the first stretch. -/
import proofs.«424308_j12910671692012_1_alg».proof.Proof.Gen.KernelIdeal.Frame
import proofs.«424308_j12910671692012_1_alg».proof.Proof.Gen.ReferenceIdeal
import proofs.«424308_j12910671692012_1_alg».proof.Proof.RefSpec
import Idealize.ShloMosaic.Lib.StableHlo.Run
import Idealize.ShloMosaic.Lib.Pipeline.Value

set_option maxRecDepth 16384

noncomputable section

namespace Cert.Hand.Fold

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The buffers that no region writes and that no host operation writes after the first stretch: the stacked graph-layer
    weights and biases, the decoder's weights and biases, and the edges' source and destination nodes. -/
def quiet : List (Ref sig .tc) :=
  [main_arg8, main_arg9, main_arg10, main_arg11, main_arg12, main_arg13, main_arg14, main_arg15, main_v1, main_v3]

/-- Two valuations agree on the quiet buffers. -/
def Keeps (X Y : Valuation τ sig (Elt Ideal)) : Prop := ∀ b ∈ quiet, X (Proc.devRef .tc b) = Y (Proc.devRef .tc b)

theorem Keeps.trans {X Y Z : Valuation τ sig (Elt Ideal)} (h1 : Keeps X Y) (h2 : Keeps Y Z) : Keeps X Z :=
  fun b hb => (h1 b hb).trans (h2 b hb)

/-! ## A host stretch writes none of the quiet buffers -/

theorem h1_keeps (X : Valuation τ sig (Elt Ideal)) : Keeps (StableHlo.after hostOps1 X) X := by
  intro b hb
  simp only [quiet, List.mem_cons, List.mem_nil_iff, or_false] at hb
  rcases hb with rfl | rfl | rfl | rfl | rfl | rfl | rfl | rfl | rfl | rfl <;>
    after_results
set_option maxRecDepth 65536 in
set_option maxHeartbeats 4000000 in
theorem h2_keeps (X : Valuation τ sig (Elt Ideal)) : Keeps (StableHlo.after hostOps2 X) X := by
  intro b hb
  simp only [quiet, List.mem_cons, List.mem_nil_iff, or_false] at hb
  rcases hb with rfl | rfl | rfl | rfl | rfl | rfl | rfl | rfl | rfl | rfl <;>
    after_results
theorem h2_1_keeps (X : Valuation τ sig (Elt Ideal)) : Keeps (StableHlo.after hostOps2_1 X) X := by
  intro b hb
  simp only [quiet, List.mem_cons, List.mem_nil_iff, or_false] at hb
  rcases hb with rfl | rfl | rfl | rfl | rfl | rfl | rfl | rfl | rfl | rfl <;>
    after_results
theorem h3_keeps (X : Valuation τ sig (Elt Ideal)) : Keeps (StableHlo.after hostOps3 X) X := by
  intro b hb
  simp only [quiet, List.mem_cons, List.mem_nil_iff, or_false] at hb
  rcases hb with rfl | rfl | rfl | rfl | rfl | rfl | rfl | rfl | rfl | rfl <;>
    after_results
set_option maxRecDepth 65536 in
set_option maxHeartbeats 4000000 in
theorem h4_keeps (X : Valuation τ sig (Elt Ideal)) : Keeps (StableHlo.after hostOps4 X) X := by
  intro b hb
  simp only [quiet, List.mem_cons, List.mem_nil_iff, or_false] at hb
  rcases hb with rfl | rfl | rfl | rfl | rfl | rfl | rfl | rfl | rfl | rfl <;>
    after_results
theorem h4_1_keeps (X : Valuation τ sig (Elt Ideal)) : Keeps (StableHlo.after hostOps4_1 X) X := by
  intro b hb
  simp only [quiet, List.mem_cons, List.mem_nil_iff, or_false] at hb
  rcases hb with rfl | rfl | rfl | rfl | rfl | rfl | rfl | rfl | rfl | rfl <;>
    after_results
theorem h5_keeps (X : Valuation τ sig (Elt Ideal)) : Keeps (StableHlo.after hostOps5 X) X := by
  intro b hb
  simp only [quiet, List.mem_cons, List.mem_nil_iff, or_false] at hb
  rcases hb with rfl | rfl | rfl | rfl | rfl | rfl | rfl | rfl | rfl | rfl <;>
    after_results
set_option maxRecDepth 65536 in
set_option maxHeartbeats 4000000 in
theorem h6_keeps (X : Valuation τ sig (Elt Ideal)) : Keeps (StableHlo.after hostOps6 X) X := by
  intro b hb
  simp only [quiet, List.mem_cons, List.mem_nil_iff, or_false] at hb
  rcases hb with rfl | rfl | rfl | rfl | rfl | rfl | rfl | rfl | rfl | rfl <;>
    after_results
theorem h6_1_keeps (X : Valuation τ sig (Elt Ideal)) : Keeps (StableHlo.after hostOps6_1 X) X := by
  intro b hb
  simp only [quiet, List.mem_cons, List.mem_nil_iff, or_false] at hb
  rcases hb with rfl | rfl | rfl | rfl | rfl | rfl | rfl | rfl | rfl | rfl <;>
    after_results
theorem h7_keeps (X : Valuation τ sig (Elt Ideal)) : Keeps (StableHlo.after hostOps7 X) X := by
  intro b hb
  simp only [quiet, List.mem_cons, List.mem_nil_iff, or_false] at hb
  rcases hb with rfl | rfl | rfl | rfl | rfl | rfl | rfl | rfl | rfl | rfl <;>
    after_results
set_option maxRecDepth 65536 in
set_option maxHeartbeats 4000000 in
theorem h8_keeps (X : Valuation τ sig (Elt Ideal)) : Keeps (StableHlo.after hostOps8 X) X := by
  intro b hb
  simp only [quiet, List.mem_cons, List.mem_nil_iff, or_false] at hb
  rcases hb with rfl | rfl | rfl | rfl | rfl | rfl | rfl | rfl | rfl | rfl <;>
    after_results
theorem h8_1_keeps (X : Valuation τ sig (Elt Ideal)) : Keeps (StableHlo.after hostOps8_1 X) X := by
  intro b hb
  simp only [quiet, List.mem_cons, List.mem_nil_iff, or_false] at hb
  rcases hb with rfl | rfl | rfl | rfl | rfl | rfl | rfl | rfl | rfl | rfl <;>
    after_results

/-! ## One boundary to the next -/

theorem step2 (c : Dev nD) : Keeps (W2 m ρ c) (W1 m ρ c) := by
  intro b hb
  simp only [quiet, List.mem_cons, List.mem_nil_iff, or_false] at hb
  rcases hb with rfl | rfl | rfl | rfl | rfl | rfl | rfl | rfl | rfl | rfl <;>
    exact W2_of_ne m ρ c _ (by decide)
theorem step3 (c : Dev nD) : Keeps (W3 m ρ c) (W2 m ρ c) := h1_keeps (W2 m ρ c)
theorem step4 (c : Dev nD) : Keeps (W4 m ρ c) (W3 m ρ c) := by
  intro b hb
  simp only [quiet, List.mem_cons, List.mem_nil_iff, or_false] at hb
  rcases hb with rfl | rfl | rfl | rfl | rfl | rfl | rfl | rfl | rfl | rfl <;>
    exact W4_of_ne m ρ c _ (by decide)
theorem step5 (c : Dev nD) : Keeps (W5 m ρ c) (W4 m ρ c) := h2_keeps (W4 m ρ c)
theorem step6 (c : Dev nD) : Keeps (W6 m ρ c) (W5 m ρ c) := h2_1_keeps (W5 m ρ c)
theorem step7 (c : Dev nD) : Keeps (W7 m ρ c) (W6 m ρ c) := by
  intro b hb
  simp only [quiet, List.mem_cons, List.mem_nil_iff, or_false] at hb
  rcases hb with rfl | rfl | rfl | rfl | rfl | rfl | rfl | rfl | rfl | rfl <;>
    exact W7_of_ne m ρ c _ (by decide)
theorem step8 (c : Dev nD) : Keeps (W8 m ρ c) (W7 m ρ c) := h3_keeps (W7 m ρ c)
theorem step9 (c : Dev nD) : Keeps (W9 m ρ c) (W8 m ρ c) := by
  intro b hb
  simp only [quiet, List.mem_cons, List.mem_nil_iff, or_false] at hb
  rcases hb with rfl | rfl | rfl | rfl | rfl | rfl | rfl | rfl | rfl | rfl <;>
    exact W9_of_ne m ρ c _ (by decide)
theorem step10 (c : Dev nD) : Keeps (W10 m ρ c) (W9 m ρ c) := h4_keeps (W9 m ρ c)
theorem step11 (c : Dev nD) : Keeps (W11 m ρ c) (W10 m ρ c) := h4_1_keeps (W10 m ρ c)
theorem step12 (c : Dev nD) : Keeps (W12 m ρ c) (W11 m ρ c) := by
  intro b hb
  simp only [quiet, List.mem_cons, List.mem_nil_iff, or_false] at hb
  rcases hb with rfl | rfl | rfl | rfl | rfl | rfl | rfl | rfl | rfl | rfl <;>
    exact W12_of_ne m ρ c _ (by decide)
theorem step13 (c : Dev nD) : Keeps (W13 m ρ c) (W12 m ρ c) := h5_keeps (W12 m ρ c)
theorem step14 (c : Dev nD) : Keeps (W14 m ρ c) (W13 m ρ c) := by
  intro b hb
  simp only [quiet, List.mem_cons, List.mem_nil_iff, or_false] at hb
  rcases hb with rfl | rfl | rfl | rfl | rfl | rfl | rfl | rfl | rfl | rfl <;>
    exact W14_of_ne m ρ c _ (by decide)
theorem step15 (c : Dev nD) : Keeps (W15 m ρ c) (W14 m ρ c) := h6_keeps (W14 m ρ c)
theorem step16 (c : Dev nD) : Keeps (W16 m ρ c) (W15 m ρ c) := h6_1_keeps (W15 m ρ c)
theorem step17 (c : Dev nD) : Keeps (W17 m ρ c) (W16 m ρ c) := by
  intro b hb
  simp only [quiet, List.mem_cons, List.mem_nil_iff, or_false] at hb
  rcases hb with rfl | rfl | rfl | rfl | rfl | rfl | rfl | rfl | rfl | rfl <;>
    exact W17_of_ne m ρ c _ (by decide)
theorem step18 (c : Dev nD) : Keeps (W18 m ρ c) (W17 m ρ c) := h7_keeps (W17 m ρ c)
theorem step19 (c : Dev nD) : Keeps (W19 m ρ c) (W18 m ρ c) := by
  intro b hb
  simp only [quiet, List.mem_cons, List.mem_nil_iff, or_false] at hb
  rcases hb with rfl | rfl | rfl | rfl | rfl | rfl | rfl | rfl | rfl | rfl <;>
    exact W19_of_ne m ρ c _ (by decide)
theorem step20 (c : Dev nD) : Keeps (W20 m ρ c) (W19 m ρ c) := h8_keeps (W19 m ρ c)
theorem step21 (c : Dev nD) : Keeps (W21 m ρ c) (W20 m ρ c) := h8_1_keeps (W20 m ρ c)
theorem step22 (c : Dev nD) : Keeps (W22 m ρ c) (W21 m ρ c) := by
  intro b hb
  simp only [quiet, List.mem_cons, List.mem_nil_iff, or_false] at hb
  rcases hb with rfl | rfl | rfl | rfl | rfl | rfl | rfl | rfl | rfl | rfl <;>
    exact W22_of_ne m ρ c _ (by decide)

/-! ## Every boundary back to the first stretch's exit -/

theorem keep2 (c : Dev nD) : Keeps (W2 m ρ c) (W1 m ρ c) := step2 m ρ c
theorem keep3 (c : Dev nD) : Keeps (W3 m ρ c) (W1 m ρ c) := (step3 m ρ c).trans (keep2 m ρ c)
theorem keep4 (c : Dev nD) : Keeps (W4 m ρ c) (W1 m ρ c) := (step4 m ρ c).trans (keep3 m ρ c)
theorem keep5 (c : Dev nD) : Keeps (W5 m ρ c) (W1 m ρ c) := (step5 m ρ c).trans (keep4 m ρ c)
theorem keep6 (c : Dev nD) : Keeps (W6 m ρ c) (W1 m ρ c) := (step6 m ρ c).trans (keep5 m ρ c)
theorem keep7 (c : Dev nD) : Keeps (W7 m ρ c) (W1 m ρ c) := (step7 m ρ c).trans (keep6 m ρ c)
theorem keep8 (c : Dev nD) : Keeps (W8 m ρ c) (W1 m ρ c) := (step8 m ρ c).trans (keep7 m ρ c)
theorem keep9 (c : Dev nD) : Keeps (W9 m ρ c) (W1 m ρ c) := (step9 m ρ c).trans (keep8 m ρ c)
theorem keep10 (c : Dev nD) : Keeps (W10 m ρ c) (W1 m ρ c) := (step10 m ρ c).trans (keep9 m ρ c)
theorem keep11 (c : Dev nD) : Keeps (W11 m ρ c) (W1 m ρ c) := (step11 m ρ c).trans (keep10 m ρ c)
theorem keep12 (c : Dev nD) : Keeps (W12 m ρ c) (W1 m ρ c) := (step12 m ρ c).trans (keep11 m ρ c)
theorem keep13 (c : Dev nD) : Keeps (W13 m ρ c) (W1 m ρ c) := (step13 m ρ c).trans (keep12 m ρ c)
theorem keep14 (c : Dev nD) : Keeps (W14 m ρ c) (W1 m ρ c) := (step14 m ρ c).trans (keep13 m ρ c)
theorem keep15 (c : Dev nD) : Keeps (W15 m ρ c) (W1 m ρ c) := (step15 m ρ c).trans (keep14 m ρ c)
theorem keep16 (c : Dev nD) : Keeps (W16 m ρ c) (W1 m ρ c) := (step16 m ρ c).trans (keep15 m ρ c)
theorem keep17 (c : Dev nD) : Keeps (W17 m ρ c) (W1 m ρ c) := (step17 m ρ c).trans (keep16 m ρ c)
theorem keep18 (c : Dev nD) : Keeps (W18 m ρ c) (W1 m ρ c) := (step18 m ρ c).trans (keep17 m ρ c)
theorem keep19 (c : Dev nD) : Keeps (W19 m ρ c) (W1 m ρ c) := (step19 m ρ c).trans (keep18 m ρ c)
theorem keep20 (c : Dev nD) : Keeps (W20 m ρ c) (W1 m ρ c) := (step20 m ρ c).trans (keep19 m ρ c)
theorem keep21 (c : Dev nD) : Keeps (W21 m ρ c) (W1 m ρ c) := (step21 m ρ c).trans (keep20 m ρ c)
theorem keep22 (c : Dev nD) : Keeps (W22 m ρ c) (W1 m ρ c) := (step22 m ρ c).trans (keep21 m ρ c)

/-! ## What the first stretch leaves: the edge list's two rows, every argument untouched -/

theorem h0_src (X : Valuation τ sig (Elt Ideal)) : StableHlo.after hostOps0 X (Proc.devRef .tc main_v1) = Cert.Hand.Ref.src (X (Proc.devRef .tc main_arg1)) := by
  after_results
  rfl
theorem h0_dst (X : Valuation τ sig (Elt Ideal)) : StableHlo.after hostOps0 X (Proc.devRef .tc main_v3) = Cert.Hand.Ref.dst (X (Proc.devRef .tc main_arg1)) := by
  after_results
  rfl
theorem h0_arg0 (X : Valuation τ sig (Elt Ideal)) : StableHlo.after hostOps0 X (Proc.devRef .tc main_arg0) = X (Proc.devRef .tc main_arg0) := by after_results
theorem h0_arg2 (X : Valuation τ sig (Elt Ideal)) : StableHlo.after hostOps0 X (Proc.devRef .tc main_arg2) = X (Proc.devRef .tc main_arg2) := by after_results
theorem h0_arg3 (X : Valuation τ sig (Elt Ideal)) : StableHlo.after hostOps0 X (Proc.devRef .tc main_arg3) = X (Proc.devRef .tc main_arg3) := by after_results
theorem h0_arg4 (X : Valuation τ sig (Elt Ideal)) : StableHlo.after hostOps0 X (Proc.devRef .tc main_arg4) = X (Proc.devRef .tc main_arg4) := by after_results
theorem h0_arg5 (X : Valuation τ sig (Elt Ideal)) : StableHlo.after hostOps0 X (Proc.devRef .tc main_arg5) = X (Proc.devRef .tc main_arg5) := by after_results
theorem h0_arg6 (X : Valuation τ sig (Elt Ideal)) : StableHlo.after hostOps0 X (Proc.devRef .tc main_arg6) = X (Proc.devRef .tc main_arg6) := by after_results
theorem h0_arg7 (X : Valuation τ sig (Elt Ideal)) : StableHlo.after hostOps0 X (Proc.devRef .tc main_arg7) = X (Proc.devRef .tc main_arg7) := by after_results
theorem h0_arg8 (X : Valuation τ sig (Elt Ideal)) : StableHlo.after hostOps0 X (Proc.devRef .tc main_arg8) = X (Proc.devRef .tc main_arg8) := by after_results
theorem h0_arg9 (X : Valuation τ sig (Elt Ideal)) : StableHlo.after hostOps0 X (Proc.devRef .tc main_arg9) = X (Proc.devRef .tc main_arg9) := by after_results
theorem h0_arg10 (X : Valuation τ sig (Elt Ideal)) : StableHlo.after hostOps0 X (Proc.devRef .tc main_arg10) = X (Proc.devRef .tc main_arg10) := by after_results
theorem h0_arg11 (X : Valuation τ sig (Elt Ideal)) : StableHlo.after hostOps0 X (Proc.devRef .tc main_arg11) = X (Proc.devRef .tc main_arg11) := by after_results
theorem h0_arg12 (X : Valuation τ sig (Elt Ideal)) : StableHlo.after hostOps0 X (Proc.devRef .tc main_arg12) = X (Proc.devRef .tc main_arg12) := by after_results
theorem h0_arg13 (X : Valuation τ sig (Elt Ideal)) : StableHlo.after hostOps0 X (Proc.devRef .tc main_arg13) = X (Proc.devRef .tc main_arg13) := by after_results
theorem h0_arg14 (X : Valuation τ sig (Elt Ideal)) : StableHlo.after hostOps0 X (Proc.devRef .tc main_arg14) = X (Proc.devRef .tc main_arg14) := by after_results
theorem h0_arg15 (X : Valuation τ sig (Elt Ideal)) : StableHlo.after hostOps0 X (Proc.devRef .tc main_arg15) = X (Proc.devRef .tc main_arg15) := by after_results

end Cert.Hand.Fold

end
-- ==== Proof.Region1.lean ====
/- The projection region of a graph layer: every block of 2000 rows times the 128 × 128 weights is that block of rows of
   the whole product, so after its 50 grid points the output array holds all nodes' features times the weights. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K1
open Idealize.ShloMosaic Idealize.ShloMosaic.TcCoe Idealize.SL.Sem
open Idealize.ShloMosaic.Pipeline (Dat)
open Cert.KernelIdeal Cert.KernelIdeal.Gen

/- the region's entry contents: any valuation of the TensorCore's buffers -/
variable (V : (c : Dev nD) → (b : Ref sig .tc) → Buf (Elt Ideal) ((c : Thread nD τ).loc b))

/-! ## A block of rows times the weights, at an index

Entry (p, q) of a 2000 × 128 block times the 128 × 128 weights is the sum over k of the block's (p, k) times the
weights' (k, q): the rounding to half width before the product is the identity on ideal values, and the
product starts from the zero accumulator. -/

/- the operand indices of the block product: the row of the output index on the left, its column on the right -/
theorem blk_lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk_lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem blk_rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem blk_rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/- entry (row of j, k) of a block of rows; entry (k, column of j) of the weights -/
abbrev blkL (j : S2000x128.Idx) (k : Fin 128) : S2000x128.Idx := fun a => match a with
  | ⟨0, _⟩ => ⟨(j 0).val, (j 0).isLt⟩
  | ⟨1, _⟩ => ⟨k.val, k.isLt⟩
abbrev blkR (j : S2000x128.Idx) (k : Fin 128) : S128x128.Idx := fun a => match a with
  | ⟨0, _⟩ => ⟨k.val, k.isLt⟩
  | ⟨1, _⟩ => ⟨(j 1).val, (j 1).isLt⟩

/-- The body's arithmetic at an index: the sum of the 128 products along the row and the column. -/
theorem pay_apply (x0 : Vec Ideal S2000x128 .f32) (x1 : Vec Ideal S128x128 .f32) (j : S2000x128.Idx) :
    k1_pay1 (F := Ideal) x0 x1 j = ∑ k : Fin 128, x0 (blkL j k) * x1 (blkR j k) := by
  unfold k1_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blkL j k := funext fun a => Fin.ext (by
    match a with
    | ⟨0, _⟩ => exact blk_lhs_0 _ _
    | ⟨1, _⟩ => exact (blk_lhs_1 _ _).trans hk)
  have er : dot_S2000x128_S128x128_S2000x128_1_0_0_1_n_n.rhsIdx j ((ValueIdx.contrEquiv1 dot_S2000x128_S128x128_S2000x128_1_0_0_1_n_n 128 rfl rfl).symm k) = blkR j k := funext fun a => Fin.ext (by
    match a with
    | ⟨0, _⟩ => exact (blk_rhs_0 _ _).trans hk
    | ⟨1, _⟩ => exact blk_rhs_1 _ _)
  rw [el, er, shapeCast_self, shapeCast_self]
  rfl

/-! ## The whole product at an index -/

theorem arr_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem arr_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arr_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arr_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/- entry (row of i, k) of all the rows; entry (k, column of i) of the weights -/
abbrev arrL (i : S100000x128.Idx) (k : Fin 128) : S100000x128.Idx := fun a => match a with
  | ⟨0, _⟩ => ⟨(i 0).val, (i 0).isLt⟩
  | ⟨1, _⟩ => ⟨k.val, k.isLt⟩
abbrev arrR (i : S100000x128.Idx) (k : Fin 128) : S128x128.Idx := fun a => match a with
  | ⟨0, _⟩ => ⟨k.val, k.isLt⟩
  | ⟨1, _⟩ => ⟨(i 1).val, (i 1).isLt⟩

/-- All the rows times the weights, at an index: the same sum along the row and the column. -/
theorem mm_apply (h : FVec Ideal S100000x128 .f32) (W : FVec Ideal S128x128 .f32) (i : S100000x128.Idx) :
    Cert.Hand.Ref.mm128 (F := Ideal) h W i = ∑ k : Fin 128, h (arrL i k) * W (arrR i k) := by
  unfold Cert.Hand.Ref.mm128
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrL i k := funext fun a => Fin.ext (by
    match a with
    | ⟨0, _⟩ => exact arr_lhs_0 _ _
    | ⟨1, _⟩ => exact (arr_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrR i k := funext fun a => Fin.ext (by
    match a with
    | ⟨0, _⟩ => exact (arr_rhs_0 _ _).trans hk
    | ⟨1, _⟩ => exact arr_rhs_1 _ _)
  rw [el, er]

/-- A block's product at an index of the block is the whole product at an index of the array, as soon as the block's
    row there is the array's row and the weights' column is the same column. -/
theorem blk_mm (X : FVec Ideal S100000x128 .f32) (W : FVec Ideal S128x128 .f32) (x0 : Vec Ideal S2000x128 .f32) (x1 : Vec Ideal S128x128 .f32)
    (y : S2000x128.Idx) (i : S100000x128.Idx) (hx0 : ∀ k : Fin 128, x0 (blkL y k) = X (arrL i k)) (hx1 : ∀ k : Fin 128, x1 (blkR y k) = W (arrR i k)) :
    k1_pay1 (F := Ideal) x0 x1 y = Cert.Hand.Ref.mm128 (F := Ideal) X W i := by
  refine (pay_apply x0 x1 y).trans ?_
  refine Eq.trans ?_ (mm_apply X W i).symm
  exact Finset.sum_congr rfl fun k _ => by rw [hx0 k, hx1 k]

/-! ## From the blocks to the array

Point t of the grid reads rows 2000 t … 2000 t + 1999 and all the weights, and writes the same rows of the output; row r
of the output is in the block of point r / 2000. -/

theorem hz : (![0, 0] : Fin 2 → Nat) = fun _ => 0 := funext fun a => by fin_cases a <;> rfl

/-- The block indices, decided over the grid: the rows' block and the output's block are the point's, the weights'
    block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed_eq (c : Dev nD) (t : Fin cfg1.N) :
    (dat1 V c).flushed 2 t = ((cfg1.win 2).blk t).view.read (Elt Ideal) (Cert.Hand.Ref.mm128 (F := Ideal) (V c main_v4) (V c main_v6)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5⟩ := idx_facts t
  funext y
  show k1_pay1 (F := Ideal) (iblk1 V c 0 t) (iblk1 V c 1 t) y
    = Cert.Hand.Ref.mm128 (F := Ideal) (V c main_v4) (V c main_v6) (((cfg1.win 2).blk t).view.emb y)
  refine blk_mm _ _ _ _ y _ (fun k => ?_) (fun k => ?_)
  · have h0 : ((cfg1.win 0).blk t).view.emb (blkL y k) = arrL (((cfg1.win 2).blk t).view.emb y) k := by
      funext a; apply Fin.ext
      match a with
      | ⟨0, _⟩ => show win1_0.index t (0 : Fin 2) * 2000 + 1 * (y 0).val = win1_2.index t (0 : Fin 2) * 2000 + 1 * (y 0).val; omega
      | ⟨1, _⟩ => show win1_0.index t (1 : Fin 2) * 128 + 1 * k.val = k.val; omega
    exact congrArg (V c main_v4) h0
  · have h1 : ((cfg1.win 1).blk t).view.emb (blkR y k) = arrR (((cfg1.win 2).blk t).view.emb y) k := by
      funext a; apply Fin.ext
      match a with
      | ⟨0, _⟩ => show win1_1.index t (0 : Fin 2) * 128 + 1 * k.val = k.val; omega
      | ⟨1, _⟩ => show win1_1.index t (1 : Fin 2) * 128 + 1 * (y 1).val = win1_2.index t (1 : Fin 2) * 128 + 1 * (y 1).val; omega
    exact congrArg (V c main_v6) h1

/-- An index of the output is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole (Pipeline.arrRef spec1 2)).slice (win1_2.rect t)).set ↔ _
  rw [View.set_slice_whole, Rect.mem_set_unit]
  exact Iff.rfl

/-- Every row of the output is in the block of some point: row r in that of point r / 2000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 2000 < 50 := by omega
  obtain ⟨t, ht⟩ : ∃ t : Fin cfg1.N, t.val = (i 0).val / 2000 := ⟨⟨(i 0).val / 2000, hlt⟩, rfl⟩
  refine ⟨t, flush1_2 t, ?_⟩
  rw [mem_blk]
  obtain ⟨e0, e1, e2, e3, e4, e5⟩ := idx_facts t
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the 50 points the output array is all the rows times the weights. -/
theorem final1 (c : Dev nD) : (dat1 V c).arrAt 2 cfg1.N = Cert.Hand.Ref.mm128 (F := Ideal) (V c main_v4) (V c main_v6) :=
  (dat1 V c).arrAt_eq_of_cover 2 _ (fun t _ => flushed_eq V c t) cover

end Cert.Hand.K1

end
-- ==== Proof.Region2.lean ====
/- The bias region of a graph layer: every block of 2000 rows plus the bias row, positive part, is that block of rows of the
   whole array's, so after its 50 grid points the output array holds the biased, rectified sums of all nodes. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K2
open Idealize.ShloMosaic Idealize.ShloMosaic.TcCoe Idealize.SL.Sem
open Idealize.ShloMosaic.Pipeline (Dat)
open Cert.KernelIdeal Cert.KernelIdeal.Gen

/-! ## The two sides at an index -/

theorem hzMat : (![0, 0] : Fin 2 → Nat) = fun _ => 0 := funext fun a => match a with | ⟨0, _⟩ => rfl | ⟨1, _⟩ => rfl
theorem hzVec : (![0] : Fin 1 → Nat) = fun _ => 0 := funext fun a => match a with | ⟨0, _⟩ => rfl

/-- The body's arithmetic at row `p`, column `q` of a block: the block's entry plus the bias row's entry at `q`
    (the row is reshaped to one row and repeated down the block), then the maximum with zero. -/
theorem pay_apply (x0 : Vec Ideal S2000x128 .f32) (x1 : Vec Ideal S128 .f32) (p : Fin 2000) (q : Fin 128) :
    k2_pay1 (F := Ideal) x0 x1 (ValueIdx.ix2 p q)
      = FloatOps.maximumf (FloatOps.addf (x0 (ValueIdx.ix2 p q)) (x1 (ValueIdx.ix1 q))) (Ideal.ofBits .f32 0x00000000#32) := by
  unfold k2_pay1
  have e1 : shapeCast S2000x128 x0 shapeCasts_S2000x128_S2000x128 = x0 := shapeCast_self _ _
  have e2 : broadcastTo S2000x128 (shapeCast S1x128 (shapeCast S128 x1 shapeCasts_S128_S128) shapeCasts_S128_S1x128)
      broadcasts_S1x128_S2000x128 (ValueIdx.ix2 p q) = x1 (ValueIdx.ix1 q) := by
    rw [shapeCast_self]
    refine (broadcastTo_apply _ broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact shapeCast_apply x1 shapeCasts_S128_S1x128 (ValueIdx.ix2 (0 : Fin 1) q) (ValueIdx.ix1 q)
      (by rewrite [Shape.rowMajor_val_two, Shape.rowMajor_val_one]; show q.val = 0 * 128 + q.val; omega)
  show FloatOps.maximumf (FloatOps.addf (shapeCast S2000x128 x0 shapeCasts_S2000x128_S2000x128 (ValueIdx.ix2 p q))
      (broadcastTo S2000x128 (shapeCast S1x128 (shapeCast S128 x1 shapeCasts_S128_S128) shapeCasts_S128_S1x128)
        broadcasts_S1x128_S2000x128 (ValueIdx.ix2 p q))) (Ideal.ofBits .f32 0x00000000#32) = _
  rw [e1, e2]

/-- The reference's stage at row `r`, column `q`: the same sum and maximum, its bias repeated by two broadcasts
    and its zero a broadcast constant. -/
theorem ref_apply (a : FVec Ideal S100000x128 .f32) (b : FVec Ideal S128 .f32) (r : Fin 100000) (q : Fin 128) :
    Cert.Hand.Ref.biasRelu (F := Ideal) a b (ValueIdx.ix2 r q)
      = FloatOps.maximumf (FloatOps.addf (a (ValueIdx.ix2 r q)) (b (ValueIdx.ix1 q))) (Ideal.ofBits .f32 0x00000000#32) := by
  unfold Cert.Hand.Ref.biasRelu Cert.Hand.Ref.relu128
  have e2 : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q) = b (ValueIdx.ix1 q) := by
    refine (broadcastInDim_apply _ Cert.ReferenceIdeal.Facts₀.bcast_S1x128_S100000x128_0_1 _ (ValueIdx.ix2 r q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact broadcastInDim_apply _ Cert.ReferenceIdeal.Facts₀.bcast_S128_S1x128_1 b (ValueIdx.ix2 (0 : Fin 1) q) (ValueIdx.ix1 q) (fun a => match a with
      | ⟨0, _⟩ => by show q.val = if (128 : Nat) = 1 then 0 else q.val; rw [if_neg (by decide)])
  show FloatOps.maximumf (FloatOps.addf (a (ValueIdx.ix2 r q)) (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q))) (Ideal.ofBits .f32 0x00000000#32) = _
  rw [e2]

/-! ## From blocks to the array -/

/- the region's entry contents: any valuation of the TensorCore's buffers -/
variable (V : (c : Dev nD) → (b : Ref sig .tc) → Buf (Elt Ideal) ((c : Thread nD τ).loc b))

/-- The printed index maps, decided over the grid: the row-tiled windows sit at block `(t, 0)`, the bias row's
    window at block `0` (its block is the whole row). -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- WHAT POINT `t` WRITES BACK is block `t` of the reference's stage of the arrays as the region finds them. -/
theorem flushed_eq (c : Dev nD) (t : Fin cfg2.N) :
    (dat2 V c).flushed 2 t = ((cfg2.win 2).blk t).view.read (Elt Ideal) (Cert.Hand.Ref.biasRelu (F := Ideal) (V c main_v11) (V c main_v13)) := by
  show (cfg2.win 2).cut (grid2.coords t) ((dat2 V c).after 2 t) = _
  rw [after2_2]
  unfold out2_2
  rw [View.canon_unit_zero hzMat]
  simp only [View.ld_unit_zero (S := S2000x128) hzMat, View.ld_unit_zero (S := S128) hzVec]
  obtain ⟨e0, e1, e2, e3, e4⟩ := idx_facts t
  have ht : t.val < 50 := lt_of_lt_of_eq t.isLt N_2
  funext j
  obtain ⟨p, q, rfl⟩ : ∃ (p : Fin 2000) (q : Fin 128), j = ValueIdx.ix2 p q := ⟨j 0, j 1, ValueIdx.eq_ix2 j⟩
  have hrow : t.val * 2000 + p.val < 100000 := by have hp : p.val < 2000 := p.isLt; omega
  have h0 : ((cfg2.win 0).blk t).view.emb (ValueIdx.ix2 p q) = ValueIdx.ix2 (⟨t.val * 2000 + p.val, hrow⟩ : Fin 100000) q := by
    funext a; apply Fin.ext
    match a with
    | ⟨0, _⟩ => show win2_0.index t (0 : Fin 2) * 2000 + 1 * p.val = t.val * 2000 + p.val; omega
    | ⟨1, _⟩ => show win2_0.index t (1 : Fin 2) * 128 + 1 * q.val = q.val; omega
  have h1 : ((cfg2.win 1).blk t).view.emb (ValueIdx.ix1 q) = ValueIdx.ix1 q := by
    funext a; apply Fin.ext
    match a with
    | ⟨0, _⟩ => show win2_1.index t (0 : Fin 1) * 128 + 1 * q.val = q.val; omega
  have h2 : ((cfg2.win 2).blk t).view.emb (ValueIdx.ix2 p q) = ValueIdx.ix2 (⟨t.val * 2000 + p.val, hrow⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  refine (pay_apply (iblk2 V c 0 t) (iblk2 V c 1 t) p q).trans ?_
  show FloatOps.maximumf (FloatOps.addf (V c main_v11 (((cfg2.win 0).blk t).view.emb (ValueIdx.ix2 p q)))
        (V c main_v13 (((cfg2.win 1).blk t).view.emb (ValueIdx.ix1 q)))) (Ideal.ofBits .f32 0x00000000#32)
      = Cert.Hand.Ref.biasRelu (F := Ideal) (V c main_v11) (V c main_v13) (((cfg2.win 2).blk t).view.emb (ValueIdx.ix2 p q))
  rw [h0, h1, h2]
  exact (ref_apply _ _ _ _).symm

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v14).slice (win2_2.rect t)).set ↔ _
  rw [View.set_slice_whole, Rect.mem_set_unit]
  exact Iff.rfl

/-- Every row is in the block of the point its number divided by 2000 names. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨e0, e1, e2, e3, e4⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

theorem final2 (c : Dev nD) : (dat2 V c).arrAt 2 cfg2.N = Cert.Hand.Ref.biasRelu (F := Ideal) (V c main_v11) (V c main_v13) :=
  (dat2 V c).arrAt_eq_of_cover 2 _ (fun t _ => flushed_eq V c t) cover

end Cert.Hand.K2

end
-- ==== Proof.FoldLayer0.lean ====
/- One graph layer, read off the fold of buffer contents: from the node features the layer finds, the projection region
   leaves their product with the layer's weights, the host gathers each edge's source row (a guarded take that, for
   source indices in range, is the plain gather), adds the rows into their destination nodes, and the bias region adds
   the layer's bias and takes the positive part: the reference's layer of the same features. -/
import proofs.«424308_j12910671692012_1_alg».proof.Proof.Gen.KernelIdeal.Frame
import proofs.«424308_j12910671692012_1_alg».proof.Proof.Gen.ReferenceIdeal
import proofs.«424308_j12910671692012_1_alg».proof.Proof.RefSpec
import proofs.«424308_j12910671692012_1_alg».proof.Proof.FoldBase
import proofs.«424308_j12910671692012_1_alg».proof.Proof.Region1
import proofs.«424308_j12910671692012_1_alg».proof.Proof.Region2
import proofs.«424308_j12910671692012_1_alg».proof.Proof.Take
import Idealize.ShloMosaic.Lib.StableHlo.Run
import Idealize.ShloMosaic.Lib.Pipeline.Value

set_option maxRecDepth 16384

noncomputable section

namespace Cert.Hand.Fold.L0

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

open Cert.Hand

/-- The layer's first host stretch slices its weights out of the stacked four … -/
theorem gw_of (X : Valuation τ sig (Elt Ideal)) : StableHlo.after hostOps1 X (Proc.devRef .tc main_v6) = Ref.gw0 (F := Ideal) (X (Proc.devRef .tc main_arg8)) := by
  after_results
  rfl
/-- … and leaves the layer's input features alone. -/
theorem hin_of (X : Valuation τ sig (Elt Ideal)) : StableHlo.after hostOps1 X (Proc.devRef .tc main_v4) = X (Proc.devRef .tc main_v4) := by
  after_results

/-- A line of host operations run after another is the two lines run in order. -/
theorem after_append {nD : Nat} {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => exact ih _

/-- Contents carried to a buffer's own type and back are the contents. -/
theorem ofBuf_toBuf {sig : RefSig} {T : BufTy} {Val : EltTy → Type} (x : StableHlo.TRef sig T) (v : T.Contents Val) :
    x.ofBuf (x.toBuf v) = v := by
  unfold StableHlo.TRef.ofBuf StableHlo.TRef.toBuf
  simp

set_option maxHeartbeats 4000000 in
/-- The take's first eight operations wrap the source indices and lay them out as a column … -/
theorem take_idx (X : Valuation τ sig (Elt Ideal)) :
    StableHlo.after (hostOps2.take 8) X (Proc.devRef .tc main_call0_v5) = broadcastInDim S1600000x1 ![0] Facts₀.bcast_S1600000_S1600000x1_0 (Take.kidx (X (Proc.devRef .tc main_v1))) := by
  simp only [hostOps2, List.take_succ_cons, List.take_zero]
  after_results
  rfl
set_option maxHeartbeats 4000000 in
/-- … leaving the projected features alone. -/
theorem take_hw (X : Valuation τ sig (Elt Ideal)) : StableHlo.after (hostOps2.take 8) X (Proc.devRef .tc main_v7) = X (Proc.devRef .tc main_v7) := by
  simp only [hostOps2, List.take_succ_cons, List.take_zero]
  after_results
set_option maxHeartbeats 4000000 in
/-- The next fourteen test the wrapped column against 0 … 99999, row by row, and repeat the verdict across the columns:
    where every wrapped index passes, the verdict is good everywhere. -/
theorem take_mask (Y : Valuation τ sig (Elt Ideal))
    (hK : ∀ k : S1600000x1.Idx, IntOp.andi (IntOp.cmpi .sge ((Y (Proc.devRef .tc main_call0_v5) : IVec S1600000x1 32) k) 0#32)
        (IntOp.cmpi .sle ((Y (Proc.devRef .tc main_call0_v5) : IVec S1600000x1 32) k) 99999#32) = 1#1)
    (i : S1600000x128.Idx) :
    (StableHlo.after ((hostOps2.drop 8).take 14) Y (Proc.devRef .tc main_call0_v14) : IVec S1600000x128 1) i = 1#1 := by
  simp only [hostOps2, List.drop_succ_cons, List.drop_zero, List.take_succ_cons, List.take_zero]
  after_results
  simp only [ofBuf_toBuf]
  refine (congrFun (cast_eq _ _) i).trans ?_
  unfold broadcastInDim
  rw [Host.reduce_eq_foldl]
  exact Take.foldl_andi_ones _ _ fun n _ => hK _
set_option maxHeartbeats 4000000 in
/-- … gather the rows at the wrapped column … -/
theorem take_rows (Y : Valuation τ sig (Elt Ideal)) :
    StableHlo.after ((hostOps2.drop 8).take 14) Y (Proc.devRef .tc main_call0_v13) = Host.gather gather_S100000x128_S1600000x1_S1600000x128_1_0_n_n_0_1_1128 (Y (Proc.devRef .tc main_v7)) (Y (Proc.devRef .tc main_call0_v5)) := by
  simp only [hostOps2, List.drop_succ_cons, List.drop_zero, List.take_succ_cons, List.take_zero]
  after_results
  rfl
/-- The last keeps a gathered row where its verdict is good and the fill elsewhere. -/
theorem take_last (Z : Valuation τ sig (Elt Ideal)) :
    StableHlo.after ((hostOps2.drop 8).drop 14) Z (Proc.devRef .tc main_v8) = select (Z (Proc.devRef .tc main_call0_v14)) (Z (Proc.devRef .tc main_call0_v13)) (Z (Proc.devRef .tc main_call0_v15)) := by
  simp only [hostOps2, List.drop_succ_cons, List.drop_zero, List.take_succ_cons, List.take_zero]
  after_results
  rfl
/-- The second host stretch gathers each edge's source row through a guard that, for source indices in range, passes
    every row: what it leaves is the plain gather at the wrapped indices. -/
theorem msg_of (X : Valuation τ sig (Elt Ideal)) (hs : Take.InRange (X (Proc.devRef .tc main_v1))) :
    StableHlo.after hostOps2 X (Proc.devRef .tc main_v8) = Ref.msgs (F := Ideal) (X (Proc.devRef .tc main_v7)) (X (Proc.devRef .tc main_v1)) := by
  rw [← List.take_append_drop 8 (hostOps2 (F := Ideal)), after_append (nD := nD),
    ← List.take_append_drop 14 ((hostOps2 (F := Ideal)).drop 8), after_append (nD := nD), take_last]
  funext i
  rw [ValueIdx.select_apply, take_mask _ (fun k => by rw [take_idx]; exact Take.wrap_word _ (hs _).1 (hs _).2) i]
  unfold Scalar.select
  rw [if_pos (show (1#1 : BitVec 1) = 1 from rfl), take_rows, take_idx, take_hw]
  rfl

/-- The third host stretch adds every edge's message into its destination node's row, from zero … -/
theorem agg_of (X : Valuation τ sig (Elt Ideal)) : StableHlo.after hostOps2_1 X (Proc.devRef .tc main_v11) = Ref.agg (F := Ideal) (X (Proc.devRef .tc main_v3)) (X (Proc.devRef .tc main_v8)) := by
  after_results
  rfl
/-- … and slices the layer's bias out of the stacked four. -/
theorem gb_of (X : Valuation τ sig (Elt Ideal)) : StableHlo.after hostOps2_1 X (Proc.devRef .tc main_v13) = Ref.gb0 (F := Ideal) (X (Proc.devRef .tc main_arg9)) := by
  after_results
  rfl
/-- The projection region leaves every node's features times the weights. -/
theorem hw_at (c : Dev nD) : W4 m ρ c (Proc.devRef .tc main_v7) = Ref.mm128 (F := Ideal) (W3 m ρ c (Proc.devRef .tc main_v4)) (W3 m ρ c (Proc.devRef .tc main_v6)) :=
  (W4_arr m ρ c 2).trans (K1.final1 (V3 m ρ) c)
/-- The bias region leaves the biased sums' positive part. -/
theorem hout_at (c : Dev nD) : W7 m ρ c (Proc.devRef .tc main_v14) = Ref.biasRelu (F := Ideal) (W6 m ρ c (Proc.devRef .tc main_v11)) (W6 m ρ c (Proc.devRef .tc main_v13)) :=
  (W7_arr m ρ c 2).trans (K2.final2 (V6 m ρ) c)

/-- The layer: with the source indices in range, from features `h` in the layer's input buffer to the reference's
    layer of `h` in its output buffer. -/
theorem layer0 (c : Dev nD) (hs : Take.InRange (Ref.src (m ((c.tc : Thread nD τ).loc main_arg1))))
    (h : FVec Ideal Cert.ReferenceIdeal.S100000x128 .f32) (hin : W2 m ρ c (Proc.devRef .tc main_v4) = h) :
    W7 m ρ c (Proc.devRef .tc main_v14) = Ref.layer (F := Ideal) h (Ref.gw0 (m ((c.tc : Thread nD τ).loc main_arg8))) (Ref.gb0 (m ((c.tc : Thread nD τ).loc main_arg9))) (m ((c.tc : Thread nD τ).loc main_arg1)) := by
  have e8 : W2 m ρ c (Proc.devRef .tc main_arg8) = (m ((c.tc : Thread nD τ).loc main_arg8)) :=
    (keep2 m ρ c main_arg8 (by simp [quiet])).trans (h0_arg8 (W0 m ρ c))
  have e9 : W5 m ρ c (Proc.devRef .tc main_arg9) = (m ((c.tc : Thread nD τ).loc main_arg9)) :=
    (keep5 m ρ c main_arg9 (by simp [quiet])).trans (h0_arg9 (W0 m ρ c))
  have es : W4 m ρ c (Proc.devRef .tc main_v1) = Ref.src (m ((c.tc : Thread nD τ).loc main_arg1)) :=
    (keep4 m ρ c main_v1 (by simp [quiet])).trans (h0_src (W0 m ρ c))
  have ed : W5 m ρ c (Proc.devRef .tc main_v3) = Ref.dst (m ((c.tc : Thread nD τ).loc main_arg1)) :=
    (keep5 m ρ c main_v3 (by simp [quiet])).trans (h0_dst (W0 m ρ c))
  have e1 : W3 m ρ c (Proc.devRef .tc main_v6) = Ref.gw0 (F := Ideal) (m ((c.tc : Thread nD τ).loc main_arg8)) := (gw_of (W2 m ρ c)).trans (congrArg _ e8)
  have e2 : W3 m ρ c (Proc.devRef .tc main_v4) = h := (hin_of (W2 m ρ c)).trans hin
  have e3 : W4 m ρ c (Proc.devRef .tc main_v7) = Ref.mm128 (F := Ideal) h (Ref.gw0 (m ((c.tc : Thread nD τ).loc main_arg8))) := by
    rw [hw_at, e1, e2]
  have e4 : W5 m ρ c (Proc.devRef .tc main_v8) = Ref.msgs (F := Ideal) (Ref.mm128 h (Ref.gw0 (m ((c.tc : Thread nD τ).loc main_arg8)))) (Ref.src (m ((c.tc : Thread nD τ).loc main_arg1))) := by
    rw [show W5 m ρ c (Proc.devRef .tc main_v8) = _ from msg_of (W4 m ρ c) (by rw [es]; exact hs), e3, es]
  have e5 : W6 m ρ c (Proc.devRef .tc main_v11) = Ref.agg (F := Ideal) (Ref.dst (m ((c.tc : Thread nD τ).loc main_arg1))) (Ref.msgs (Ref.mm128 h (Ref.gw0 (m ((c.tc : Thread nD τ).loc main_arg8)))) (Ref.src (m ((c.tc : Thread nD τ).loc main_arg1)))) := by
    rw [show W6 m ρ c (Proc.devRef .tc main_v11) = _ from agg_of (W5 m ρ c), ed, e4]
  have e6 : W6 m ρ c (Proc.devRef .tc main_v13) = Ref.gb0 (F := Ideal) (m ((c.tc : Thread nD τ).loc main_arg9)) := (gb_of (W5 m ρ c)).trans (congrArg _ e9)
  rw [hout_at, e5, e6]
  rfl

end Cert.Hand.Fold.L0

end
-- ==== Proof.Region3.lean ====
/- The projection region of a graph layer: every block of 2000 rows times the 128 × 128 weights is that block of rows of
   the whole product, so after its 50 grid points the output array holds all nodes' features times the weights. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K3
open Idealize.ShloMosaic Idealize.ShloMosaic.TcCoe Idealize.SL.Sem
open Idealize.ShloMosaic.Pipeline (Dat)
open Cert.KernelIdeal Cert.KernelIdeal.Gen

/- the region's entry contents: any valuation of the TensorCore's buffers -/
variable (V : (c : Dev nD) → (b : Ref sig .tc) → Buf (Elt Ideal) ((c : Thread nD τ).loc b))

/-! ## A block of rows times the weights, at an index

Entry (p, q) of a 2000 × 128 block times the 128 × 128 weights is the sum over k of the block's (p, k) times the
weights' (k, q): the rounding to half width before the product is the identity on ideal values, and the
product starts from the zero accumulator. -/

/- the operand indices of the block product: the row of the output index on the left, its column on the right -/
theorem blk_lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk_lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem blk_rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem blk_rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/- entry (row of j, k) of a block of rows; entry (k, column of j) of the weights -/
abbrev blkL (j : S2000x128.Idx) (k : Fin 128) : S2000x128.Idx := fun a => match a with
  | ⟨0, _⟩ => ⟨(j 0).val, (j 0).isLt⟩
  | ⟨1, _⟩ => ⟨k.val, k.isLt⟩
abbrev blkR (j : S2000x128.Idx) (k : Fin 128) : S128x128.Idx := fun a => match a with
  | ⟨0, _⟩ => ⟨k.val, k.isLt⟩
  | ⟨1, _⟩ => ⟨(j 1).val, (j 1).isLt⟩

/-- The body's arithmetic at an index: the sum of the 128 products along the row and the column. -/
theorem pay_apply (x0 : Vec Ideal S2000x128 .f32) (x1 : Vec Ideal S128x128 .f32) (j : S2000x128.Idx) :
    k3_pay1 (F := Ideal) x0 x1 j = ∑ k : Fin 128, x0 (blkL j k) * x1 (blkR j k) := by
  unfold k3_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blkL j k := funext fun a => Fin.ext (by
    match a with
    | ⟨0, _⟩ => exact blk_lhs_0 _ _
    | ⟨1, _⟩ => exact (blk_lhs_1 _ _).trans hk)
  have er : dot_S2000x128_S128x128_S2000x128_1_0_0_1_n_n.rhsIdx j ((ValueIdx.contrEquiv1 dot_S2000x128_S128x128_S2000x128_1_0_0_1_n_n 128 rfl rfl).symm k) = blkR j k := funext fun a => Fin.ext (by
    match a with
    | ⟨0, _⟩ => exact (blk_rhs_0 _ _).trans hk
    | ⟨1, _⟩ => exact blk_rhs_1 _ _)
  rw [el, er, shapeCast_self, shapeCast_self]
  rfl

/-! ## The whole product at an index -/

theorem arr_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem arr_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arr_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arr_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/- entry (row of i, k) of all the rows; entry (k, column of i) of the weights -/
abbrev arrL (i : S100000x128.Idx) (k : Fin 128) : S100000x128.Idx := fun a => match a with
  | ⟨0, _⟩ => ⟨(i 0).val, (i 0).isLt⟩
  | ⟨1, _⟩ => ⟨k.val, k.isLt⟩
abbrev arrR (i : S100000x128.Idx) (k : Fin 128) : S128x128.Idx := fun a => match a with
  | ⟨0, _⟩ => ⟨k.val, k.isLt⟩
  | ⟨1, _⟩ => ⟨(i 1).val, (i 1).isLt⟩

/-- All the rows times the weights, at an index: the same sum along the row and the column. -/
theorem mm_apply (h : FVec Ideal S100000x128 .f32) (W : FVec Ideal S128x128 .f32) (i : S100000x128.Idx) :
    Cert.Hand.Ref.mm128 (F := Ideal) h W i = ∑ k : Fin 128, h (arrL i k) * W (arrR i k) := by
  unfold Cert.Hand.Ref.mm128
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrL i k := funext fun a => Fin.ext (by
    match a with
    | ⟨0, _⟩ => exact arr_lhs_0 _ _
    | ⟨1, _⟩ => exact (arr_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrR i k := funext fun a => Fin.ext (by
    match a with
    | ⟨0, _⟩ => exact (arr_rhs_0 _ _).trans hk
    | ⟨1, _⟩ => exact arr_rhs_1 _ _)
  rw [el, er]

/-- A block's product at an index of the block is the whole product at an index of the array, as soon as the block's
    row there is the array's row and the weights' column is the same column. -/
theorem blk_mm (X : FVec Ideal S100000x128 .f32) (W : FVec Ideal S128x128 .f32) (x0 : Vec Ideal S2000x128 .f32) (x1 : Vec Ideal S128x128 .f32)
    (y : S2000x128.Idx) (i : S100000x128.Idx) (hx0 : ∀ k : Fin 128, x0 (blkL y k) = X (arrL i k)) (hx1 : ∀ k : Fin 128, x1 (blkR y k) = W (arrR i k)) :
    k3_pay1 (F := Ideal) x0 x1 y = Cert.Hand.Ref.mm128 (F := Ideal) X W i := by
  refine (pay_apply x0 x1 y).trans ?_
  refine Eq.trans ?_ (mm_apply X W i).symm
  exact Finset.sum_congr rfl fun k _ => by rw [hx0 k, hx1 k]

/-! ## From the blocks to the array

Point t of the grid reads rows 2000 t … 2000 t + 1999 and all the weights, and writes the same rows of the output; row r
of the output is in the block of point r / 2000. -/

theorem hz : (![0, 0] : Fin 2 → Nat) = fun _ => 0 := funext fun a => by fin_cases a <;> rfl

/-- The block indices, decided over the grid: the rows' block and the output's block are the point's, the weights'
    block is the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem flushed_eq (c : Dev nD) (t : Fin cfg3.N) :
    (dat3 V c).flushed 2 t = ((cfg3.win 2).blk t).view.read (Elt Ideal) (Cert.Hand.Ref.mm128 (F := Ideal) (V c main_v14) (V c main_v16)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x128) hz]
  obtain ⟨e0, e1, e2, e3, e4, e5⟩ := idx_facts t
  funext y
  show k3_pay1 (F := Ideal) (iblk3 V c 0 t) (iblk3 V c 1 t) y
    = Cert.Hand.Ref.mm128 (F := Ideal) (V c main_v14) (V c main_v16) (((cfg3.win 2).blk t).view.emb y)
  refine blk_mm _ _ _ _ y _ (fun k => ?_) (fun k => ?_)
  · have h0 : ((cfg3.win 0).blk t).view.emb (blkL y k) = arrL (((cfg3.win 2).blk t).view.emb y) k := by
      funext a; apply Fin.ext
      match a with
      | ⟨0, _⟩ => show win3_0.index t (0 : Fin 2) * 2000 + 1 * (y 0).val = win3_2.index t (0 : Fin 2) * 2000 + 1 * (y 0).val; omega
      | ⟨1, _⟩ => show win3_0.index t (1 : Fin 2) * 128 + 1 * k.val = k.val; omega
    exact congrArg (V c main_v14) h0
  · have h1 : ((cfg3.win 1).blk t).view.emb (blkR y k) = arrR (((cfg3.win 2).blk t).view.emb y) k := by
      funext a; apply Fin.ext
      match a with
      | ⟨0, _⟩ => show win3_1.index t (0 : Fin 2) * 128 + 1 * k.val = k.val; omega
      | ⟨1, _⟩ => show win3_1.index t (1 : Fin 2) * 128 + 1 * (y 1).val = win3_2.index t (1 : Fin 2) * 128 + 1 * (y 1).val; omega
    exact congrArg (V c main_v16) h1

/-- An index of the output is in point t's block iff each coordinate is in the block's range on its axis. -/
theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole (Pipeline.arrRef spec3 2)).slice (win3_2.rect t)).set ↔ _
  rw [View.set_slice_whole, Rect.mem_set_unit]
  exact Iff.rfl

/-- Every row of the output is in the block of some point: row r in that of point r / 2000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 2000 < 50 := by omega
  obtain ⟨t, ht⟩ : ∃ t : Fin cfg3.N, t.val = (i 0).val / 2000 := ⟨⟨(i 0).val / 2000, hlt⟩, rfl⟩
  refine ⟨t, flush3_2 t, ?_⟩
  rw [mem_blk]
  obtain ⟨e0, e1, e2, e3, e4, e5⟩ := idx_facts t
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the 50 points the output array is all the rows times the weights. -/
theorem final3 (c : Dev nD) : (dat3 V c).arrAt 2 cfg3.N = Cert.Hand.Ref.mm128 (F := Ideal) (V c main_v14) (V c main_v16) :=
  (dat3 V c).arrAt_eq_of_cover 2 _ (fun t _ => flushed_eq V c t) cover

end Cert.Hand.K3

end
-- ==== Proof.Region4.lean ====
/- The bias region of a graph layer: every block of 2000 rows plus the bias row, positive part, is that block of rows of the
   whole array's, so after its 50 grid points the output array holds the biased, rectified sums of all nodes. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K4
open Idealize.ShloMosaic Idealize.ShloMosaic.TcCoe Idealize.SL.Sem
open Idealize.ShloMosaic.Pipeline (Dat)
open Cert.KernelIdeal Cert.KernelIdeal.Gen

/-! ## The two sides at an index -/

theorem hzMat : (![0, 0] : Fin 2 → Nat) = fun _ => 0 := funext fun a => match a with | ⟨0, _⟩ => rfl | ⟨1, _⟩ => rfl
theorem hzVec : (![0] : Fin 1 → Nat) = fun _ => 0 := funext fun a => match a with | ⟨0, _⟩ => rfl

/-- The body's arithmetic at row `p`, column `q` of a block: the block's entry plus the bias row's entry at `q`
    (the row is reshaped to one row and repeated down the block), then the maximum with zero. -/
theorem pay_apply (x0 : Vec Ideal S2000x128 .f32) (x1 : Vec Ideal S128 .f32) (p : Fin 2000) (q : Fin 128) :
    k4_pay1 (F := Ideal) x0 x1 (ValueIdx.ix2 p q)
      = FloatOps.maximumf (FloatOps.addf (x0 (ValueIdx.ix2 p q)) (x1 (ValueIdx.ix1 q))) (Ideal.ofBits .f32 0x00000000#32) := by
  unfold k4_pay1
  have e1 : shapeCast S2000x128 x0 shapeCasts_S2000x128_S2000x128 = x0 := shapeCast_self _ _
  have e2 : broadcastTo S2000x128 (shapeCast S1x128 (shapeCast S128 x1 shapeCasts_S128_S128) shapeCasts_S128_S1x128)
      broadcasts_S1x128_S2000x128 (ValueIdx.ix2 p q) = x1 (ValueIdx.ix1 q) := by
    rw [shapeCast_self]
    refine (broadcastTo_apply _ broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact shapeCast_apply x1 shapeCasts_S128_S1x128 (ValueIdx.ix2 (0 : Fin 1) q) (ValueIdx.ix1 q)
      (by rewrite [Shape.rowMajor_val_two, Shape.rowMajor_val_one]; show q.val = 0 * 128 + q.val; omega)
  show FloatOps.maximumf (FloatOps.addf (shapeCast S2000x128 x0 shapeCasts_S2000x128_S2000x128 (ValueIdx.ix2 p q))
      (broadcastTo S2000x128 (shapeCast S1x128 (shapeCast S128 x1 shapeCasts_S128_S128) shapeCasts_S128_S1x128)
        broadcasts_S1x128_S2000x128 (ValueIdx.ix2 p q))) (Ideal.ofBits .f32 0x00000000#32) = _
  rw [e1, e2]

/-- The reference's stage at row `r`, column `q`: the same sum and maximum, its bias repeated by two broadcasts
    and its zero a broadcast constant. -/
theorem ref_apply (a : FVec Ideal S100000x128 .f32) (b : FVec Ideal S128 .f32) (r : Fin 100000) (q : Fin 128) :
    Cert.Hand.Ref.biasRelu (F := Ideal) a b (ValueIdx.ix2 r q)
      = FloatOps.maximumf (FloatOps.addf (a (ValueIdx.ix2 r q)) (b (ValueIdx.ix1 q))) (Ideal.ofBits .f32 0x00000000#32) := by
  unfold Cert.Hand.Ref.biasRelu Cert.Hand.Ref.relu128
  have e2 : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q) = b (ValueIdx.ix1 q) := by
    refine (broadcastInDim_apply _ Cert.ReferenceIdeal.Facts₀.bcast_S1x128_S100000x128_0_1 _ (ValueIdx.ix2 r q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact broadcastInDim_apply _ Cert.ReferenceIdeal.Facts₀.bcast_S128_S1x128_1 b (ValueIdx.ix2 (0 : Fin 1) q) (ValueIdx.ix1 q) (fun a => match a with
      | ⟨0, _⟩ => by show q.val = if (128 : Nat) = 1 then 0 else q.val; rw [if_neg (by decide)])
  show FloatOps.maximumf (FloatOps.addf (a (ValueIdx.ix2 r q)) (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q))) (Ideal.ofBits .f32 0x00000000#32) = _
  rw [e2]

/-! ## From blocks to the array -/

/- the region's entry contents: any valuation of the TensorCore's buffers -/
variable (V : (c : Dev nD) → (b : Ref sig .tc) → Buf (Elt Ideal) ((c : Thread nD τ).loc b))

/-- The printed index maps, decided over the grid: the row-tiled windows sit at block `(t, 0)`, the bias row's
    window at block `0` (its block is the whole row). -/
theorem idx_facts : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

/-- WHAT POINT `t` WRITES BACK is block `t` of the reference's stage of the arrays as the region finds them. -/
theorem flushed_eq (c : Dev nD) (t : Fin cfg4.N) :
    (dat4 V c).flushed 2 t = ((cfg4.win 2).blk t).view.read (Elt Ideal) (Cert.Hand.Ref.biasRelu (F := Ideal) (V c main_v21) (V c main_v23)) := by
  show (cfg4.win 2).cut (grid4.coords t) ((dat4 V c).after 2 t) = _
  rw [after4_2]
  unfold out4_2
  rw [View.canon_unit_zero hzMat]
  simp only [View.ld_unit_zero (S := S2000x128) hzMat, View.ld_unit_zero (S := S128) hzVec]
  obtain ⟨e0, e1, e2, e3, e4⟩ := idx_facts t
  have ht : t.val < 50 := lt_of_lt_of_eq t.isLt N_4
  funext j
  obtain ⟨p, q, rfl⟩ : ∃ (p : Fin 2000) (q : Fin 128), j = ValueIdx.ix2 p q := ⟨j 0, j 1, ValueIdx.eq_ix2 j⟩
  have hrow : t.val * 2000 + p.val < 100000 := by have hp : p.val < 2000 := p.isLt; omega
  have h0 : ((cfg4.win 0).blk t).view.emb (ValueIdx.ix2 p q) = ValueIdx.ix2 (⟨t.val * 2000 + p.val, hrow⟩ : Fin 100000) q := by
    funext a; apply Fin.ext
    match a with
    | ⟨0, _⟩ => show win4_0.index t (0 : Fin 2) * 2000 + 1 * p.val = t.val * 2000 + p.val; omega
    | ⟨1, _⟩ => show win4_0.index t (1 : Fin 2) * 128 + 1 * q.val = q.val; omega
  have h1 : ((cfg4.win 1).blk t).view.emb (ValueIdx.ix1 q) = ValueIdx.ix1 q := by
    funext a; apply Fin.ext
    match a with
    | ⟨0, _⟩ => show win4_1.index t (0 : Fin 1) * 128 + 1 * q.val = q.val; omega
  have h2 : ((cfg4.win 2).blk t).view.emb (ValueIdx.ix2 p q) = ValueIdx.ix2 (⟨t.val * 2000 + p.val, hrow⟩ : Fin 100000) q := by
    funext a; apply Fin.ext
    match a with
    | ⟨0, _⟩ => show win4_2.index t (0 : Fin 2) * 2000 + 1 * p.val = t.val * 2000 + p.val; omega
    | ⟨1, _⟩ => show win4_2.index t (1 : Fin 2) * 128 + 1 * q.val = q.val; omega
  refine (pay_apply (iblk4 V c 0 t) (iblk4 V c 1 t) p q).trans ?_
  show FloatOps.maximumf (FloatOps.addf (V c main_v21 (((cfg4.win 0).blk t).view.emb (ValueIdx.ix2 p q)))
        (V c main_v23 (((cfg4.win 1).blk t).view.emb (ValueIdx.ix1 q)))) (Ideal.ofBits .f32 0x00000000#32)
      = Cert.Hand.Ref.biasRelu (F := Ideal) (V c main_v21) (V c main_v23) (((cfg4.win 2).blk t).view.emb (ValueIdx.ix2 p q))
  rw [h0, h1, h2]
  exact (ref_apply _ _ _ _).symm

/-- An index of the array is in point `t`'s block iff each coordinate is in the block's range on its axis. -/
theorem mem_blk (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v24).slice (win4_2.rect t)).set ↔ _
  rw [View.set_slice_whole, Rect.mem_set_unit]
  exact Iff.rfl

/-- Every row is in the block of the point its number divided by 2000 names. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨e0, e1, e2, e3, e4⟩ := idx_facts t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

theorem final4 (c : Dev nD) : (dat4 V c).arrAt 2 cfg4.N = Cert.Hand.Ref.biasRelu (F := Ideal) (V c main_v21) (V c main_v23) :=
  (dat4 V c).arrAt_eq_of_cover 2 _ (fun t _ => flushed_eq V c t) cover

end Cert.Hand.K4

end
-- ==== Proof.FoldLayer1.lean ====
/- One graph layer, read off the fold of buffer contents: from the node features the layer finds, the projection region
   leaves their product with the layer's weights, the host gathers each edge's source row (a guarded take that, for
   source indices in range, is the plain gather), adds the rows into their destination nodes, and the bias region adds
   the layer's bias and takes the positive part: the reference's layer of the same features. -/
import proofs.«424308_j12910671692012_1_alg».proof.Proof.Gen.KernelIdeal.Frame
import proofs.«424308_j12910671692012_1_alg».proof.Proof.Gen.ReferenceIdeal
import proofs.«424308_j12910671692012_1_alg».proof.Proof.RefSpec
import proofs.«424308_j12910671692012_1_alg».proof.Proof.FoldBase
import proofs.«424308_j12910671692012_1_alg».proof.Proof.Region3
import proofs.«424308_j12910671692012_1_alg».proof.Proof.Region4
import proofs.«424308_j12910671692012_1_alg».proof.Proof.Take
import Idealize.ShloMosaic.Lib.StableHlo.Run
import Idealize.ShloMosaic.Lib.Pipeline.Value

set_option maxRecDepth 16384

noncomputable section

namespace Cert.Hand.Fold.L1

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

open Cert.Hand

/-- The layer's first host stretch slices its weights out of the stacked four … -/
theorem gw_of (X : Valuation τ sig (Elt Ideal)) : StableHlo.after hostOps3 X (Proc.devRef .tc main_v16) = Ref.gw1 (F := Ideal) (X (Proc.devRef .tc main_arg8)) := by
  after_results
  rfl
/-- … and leaves the layer's input features alone. -/
theorem hin_of (X : Valuation τ sig (Elt Ideal)) : StableHlo.after hostOps3 X (Proc.devRef .tc main_v14) = X (Proc.devRef .tc main_v14) := by
  after_results

/-- A line of host operations run after another is the two lines run in order. -/
theorem after_append {nD : Nat} {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => exact ih _

/-- Contents carried to a buffer's own type and back are the contents. -/
theorem ofBuf_toBuf {sig : RefSig} {T : BufTy} {Val : EltTy → Type} (x : StableHlo.TRef sig T) (v : T.Contents Val) :
    x.ofBuf (x.toBuf v) = v := by
  unfold StableHlo.TRef.ofBuf StableHlo.TRef.toBuf
  simp

set_option maxHeartbeats 4000000 in
/-- The take's first eight operations wrap the source indices and lay them out as a column … -/
theorem take_idx (X : Valuation τ sig (Elt Ideal)) :
    StableHlo.after (hostOps4.take 8) X (Proc.devRef .tc main_call1_v5) = broadcastInDim S1600000x1 ![0] Facts₀.bcast_S1600000_S1600000x1_0 (Take.kidx (X (Proc.devRef .tc main_v1))) := by
  simp only [hostOps4, List.take_succ_cons, List.take_zero]
  after_results
  rfl
set_option maxHeartbeats 4000000 in
/-- … leaving the projected features alone. -/
theorem take_hw (X : Valuation τ sig (Elt Ideal)) : StableHlo.after (hostOps4.take 8) X (Proc.devRef .tc main_v17) = X (Proc.devRef .tc main_v17) := by
  simp only [hostOps4, List.take_succ_cons, List.take_zero]
  after_results
set_option maxHeartbeats 4000000 in
/-- The next fourteen test the wrapped column against 0 … 99999, row by row, and repeat the verdict across the columns:
    where every wrapped index passes, the verdict is good everywhere. -/
theorem take_mask (Y : Valuation τ sig (Elt Ideal))
    (hK : ∀ k : S1600000x1.Idx, IntOp.andi (IntOp.cmpi .sge ((Y (Proc.devRef .tc main_call1_v5) : IVec S1600000x1 32) k) 0#32)
        (IntOp.cmpi .sle ((Y (Proc.devRef .tc main_call1_v5) : IVec S1600000x1 32) k) 99999#32) = 1#1)
    (i : S1600000x128.Idx) :
    (StableHlo.after ((hostOps4.drop 8).take 14) Y (Proc.devRef .tc main_call1_v14) : IVec S1600000x128 1) i = 1#1 := by
  simp only [hostOps4, List.drop_succ_cons, List.drop_zero, List.take_succ_cons, List.take_zero]
  after_results
  simp only [ofBuf_toBuf]
  refine (congrFun (cast_eq _ _) i).trans ?_
  unfold broadcastInDim
  rw [Host.reduce_eq_foldl]
  exact Take.foldl_andi_ones _ _ fun n _ => hK _
set_option maxHeartbeats 4000000 in
/-- … gather the rows at the wrapped column … -/
theorem take_rows (Y : Valuation τ sig (Elt Ideal)) :
    StableHlo.after ((hostOps4.drop 8).take 14) Y (Proc.devRef .tc main_call1_v13) = Host.gather gather_S100000x128_S1600000x1_S1600000x128_1_0_n_n_0_1_1128 (Y (Proc.devRef .tc main_v17)) (Y (Proc.devRef .tc main_call1_v5)) := by
  simp only [hostOps4, List.drop_succ_cons, List.drop_zero, List.take_succ_cons, List.take_zero]
  after_results
  rfl
/-- The last keeps a gathered row where its verdict is good and the fill elsewhere. -/
theorem take_last (Z : Valuation τ sig (Elt Ideal)) :
    StableHlo.after ((hostOps4.drop 8).drop 14) Z (Proc.devRef .tc main_v18) = select (Z (Proc.devRef .tc main_call1_v14)) (Z (Proc.devRef .tc main_call1_v13)) (Z (Proc.devRef .tc main_call1_v15)) := by
  simp only [hostOps4, List.drop_succ_cons, List.drop_zero, List.take_succ_cons, List.take_zero]
  after_results
  rfl
/-- The second host stretch gathers each edge's source row through a guard that, for source indices in range, passes
    every row: what it leaves is the plain gather at the wrapped indices. -/
theorem msg_of (X : Valuation τ sig (Elt Ideal)) (hs : Take.InRange (X (Proc.devRef .tc main_v1))) :
    StableHlo.after hostOps4 X (Proc.devRef .tc main_v18) = Ref.msgs (F := Ideal) (X (Proc.devRef .tc main_v17)) (X (Proc.devRef .tc main_v1)) := by
  rw [← List.take_append_drop 8 (hostOps4 (F := Ideal)), after_append (nD := nD),
    ← List.take_append_drop 14 ((hostOps4 (F := Ideal)).drop 8), after_append (nD := nD), take_last]
  funext i
  rw [ValueIdx.select_apply, take_mask _ (fun k => by rw [take_idx]; exact Take.wrap_word _ (hs _).1 (hs _).2) i]
  unfold Scalar.select
  rw [if_pos (show (1#1 : BitVec 1) = 1 from rfl), take_rows, take_idx, take_hw]
  rfl

/-- The third host stretch adds every edge's message into its destination node's row, from zero … -/
theorem agg_of (X : Valuation τ sig (Elt Ideal)) : StableHlo.after hostOps4_1 X (Proc.devRef .tc main_v21) = Ref.agg (F := Ideal) (X (Proc.devRef .tc main_v3)) (X (Proc.devRef .tc main_v18)) := by
  after_results
  rfl
/-- … and slices the layer's bias out of the stacked four. -/
theorem gb_of (X : Valuation τ sig (Elt Ideal)) : StableHlo.after hostOps4_1 X (Proc.devRef .tc main_v23) = Ref.gb1 (F := Ideal) (X (Proc.devRef .tc main_arg9)) := by
  after_results
  rfl
/-- The projection region leaves every node's features times the weights. -/
theorem hw_at (c : Dev nD) : W9 m ρ c (Proc.devRef .tc main_v17) = Ref.mm128 (F := Ideal) (W8 m ρ c (Proc.devRef .tc main_v14)) (W8 m ρ c (Proc.devRef .tc main_v16)) :=
  (W9_arr m ρ c 2).trans (K3.final3 (V8 m ρ) c)
/-- The bias region leaves the biased sums' positive part. -/
theorem hout_at (c : Dev nD) : W12 m ρ c (Proc.devRef .tc main_v24) = Ref.biasRelu (F := Ideal) (W11 m ρ c (Proc.devRef .tc main_v21)) (W11 m ρ c (Proc.devRef .tc main_v23)) :=
  (W12_arr m ρ c 2).trans (K4.final4 (V11 m ρ) c)

/-- The layer: with the source indices in range, from features `h` in the layer's input buffer to the reference's
    layer of `h` in its output buffer. -/
theorem layer1 (c : Dev nD) (hs : Take.InRange (Ref.src (m ((c.tc : Thread nD τ).loc main_arg1))))
    (h : FVec Ideal Cert.ReferenceIdeal.S100000x128 .f32) (hin : W7 m ρ c (Proc.devRef .tc main_v14) = h) :
    W12 m ρ c (Proc.devRef .tc main_v24) = Ref.layer (F := Ideal) h (Ref.gw1 (m ((c.tc : Thread nD τ).loc main_arg8))) (Ref.gb1 (m ((c.tc : Thread nD τ).loc main_arg9))) (m ((c.tc : Thread nD τ).loc main_arg1)) := by
  have e8 : W7 m ρ c (Proc.devRef .tc main_arg8) = (m ((c.tc : Thread nD τ).loc main_arg8)) :=
    (keep7 m ρ c main_arg8 (by simp [quiet])).trans (h0_arg8 (W0 m ρ c))
  have e9 : W10 m ρ c (Proc.devRef .tc main_arg9) = (m ((c.tc : Thread nD τ).loc main_arg9)) :=
    (keep10 m ρ c main_arg9 (by simp [quiet])).trans (h0_arg9 (W0 m ρ c))
  have es : W9 m ρ c (Proc.devRef .tc main_v1) = Ref.src (m ((c.tc : Thread nD τ).loc main_arg1)) :=
    (keep9 m ρ c main_v1 (by simp [quiet])).trans (h0_src (W0 m ρ c))
  have ed : W10 m ρ c (Proc.devRef .tc main_v3) = Ref.dst (m ((c.tc : Thread nD τ).loc main_arg1)) :=
    (keep10 m ρ c main_v3 (by simp [quiet])).trans (h0_dst (W0 m ρ c))
  have e1 : W8 m ρ c (Proc.devRef .tc main_v16) = Ref.gw1 (F := Ideal) (m ((c.tc : Thread nD τ).loc main_arg8)) := (gw_of (W7 m ρ c)).trans (congrArg _ e8)
  have e2 : W8 m ρ c (Proc.devRef .tc main_v14) = h := (hin_of (W7 m ρ c)).trans hin
  have e3 : W9 m ρ c (Proc.devRef .tc main_v17) = Ref.mm128 (F := Ideal) h (Ref.gw1 (m ((c.tc : Thread nD τ).loc main_arg8))) := by
    rw [hw_at, e1, e2]
  have e4 : W10 m ρ c (Proc.devRef .tc main_v18) = Ref.msgs (F := Ideal) (Ref.mm128 h (Ref.gw1 (m ((c.tc : Thread nD τ).loc main_arg8)))) (Ref.src (m ((c.tc : Thread nD τ).loc main_arg1))) := by
    rw [show W10 m ρ c (Proc.devRef .tc main_v18) = _ from msg_of (W9 m ρ c) (by rw [es]; exact hs), e3, es]
  have e5 : W11 m ρ c (Proc.devRef .tc main_v21) = Ref.agg (F := Ideal) (Ref.dst (m ((c.tc : Thread nD τ).loc main_arg1))) (Ref.msgs (Ref.mm128 h (Ref.gw1 (m ((c.tc : Thread nD τ).loc main_arg8)))) (Ref.src (m ((c.tc : Thread nD τ).loc main_arg1)))) := by
    rw [show W11 m ρ c (Proc.devRef .tc main_v21) = _ from agg_of (W10 m ρ c), ed, e4]
  have e6 : W11 m ρ c (Proc.devRef .tc main_v23) = Ref.gb1 (F := Ideal) (m ((c.tc : Thread nD τ).loc main_arg9)) := (gb_of (W10 m ρ c)).trans (congrArg _ e9)
  rw [hout_at, e5, e6]
  rfl

end Cert.Hand.Fold.L1

end
-- ==== Proof.Region5.lean ====
/- The projection region of a graph layer: every block of 2000 rows times the 128 × 128 weights is that block of rows of
   the whole product, so after its 50 grid points the output array holds all nodes' features times the weights. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K5
open Idealize.ShloMosaic Idealize.ShloMosaic.TcCoe Idealize.SL.Sem
open Idealize.ShloMosaic.Pipeline (Dat)
open Cert.KernelIdeal Cert.KernelIdeal.Gen

/- the region's entry contents: any valuation of the TensorCore's buffers -/
variable (V : (c : Dev nD) → (b : Ref sig .tc) → Buf (Elt Ideal) ((c : Thread nD τ).loc b))

/-! ## A block of rows times the weights, at an index

Entry (p, q) of a 2000 × 128 block times the 128 × 128 weights is the sum over k of the block's (p, k) times the
weights' (k, q): the rounding to half width before the product is the identity on ideal values, and the
product starts from the zero accumulator. -/

/- the operand indices of the block product: the row of the output index on the left, its column on the right -/
theorem blk_lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk_lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem blk_rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem blk_rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/- entry (row of j, k) of a block of rows; entry (k, column of j) of the weights -/
abbrev blkL (j : S2000x128.Idx) (k : Fin 128) : S2000x128.Idx := fun a => match a with
  | ⟨0, _⟩ => ⟨(j 0).val, (j 0).isLt⟩
  | ⟨1, _⟩ => ⟨k.val, k.isLt⟩
abbrev blkR (j : S2000x128.Idx) (k : Fin 128) : S128x128.Idx := fun a => match a with
  | ⟨0, _⟩ => ⟨k.val, k.isLt⟩
  | ⟨1, _⟩ => ⟨(j 1).val, (j 1).isLt⟩

/-- The body's arithmetic at an index: the sum of the 128 products along the row and the column. -/
theorem pay_apply (x0 : Vec Ideal S2000x128 .f32) (x1 : Vec Ideal S128x128 .f32) (j : S2000x128.Idx) :
    k5_pay1 (F := Ideal) x0 x1 j = ∑ k : Fin 128, x0 (blkL j k) * x1 (blkR j k) := by
  unfold k5_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blkL j k := funext fun a => Fin.ext (by
    match a with
    | ⟨0, _⟩ => exact blk_lhs_0 _ _
    | ⟨1, _⟩ => exact (blk_lhs_1 _ _).trans hk)
  have er : dot_S2000x128_S128x128_S2000x128_1_0_0_1_n_n.rhsIdx j ((ValueIdx.contrEquiv1 dot_S2000x128_S128x128_S2000x128_1_0_0_1_n_n 128 rfl rfl).symm k) = blkR j k := funext fun a => Fin.ext (by
    match a with
    | ⟨0, _⟩ => exact (blk_rhs_0 _ _).trans hk
    | ⟨1, _⟩ => exact blk_rhs_1 _ _)
  rw [el, er, shapeCast_self, shapeCast_self]
  rfl

/-! ## The whole product at an index -/

theorem arr_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem arr_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arr_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arr_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/- entry (row of i, k) of all the rows; entry (k, column of i) of the weights -/
abbrev arrL (i : S100000x128.Idx) (k : Fin 128) : S100000x128.Idx := fun a => match a with
  | ⟨0, _⟩ => ⟨(i 0).val, (i 0).isLt⟩
  | ⟨1, _⟩ => ⟨k.val, k.isLt⟩
abbrev arrR (i : S100000x128.Idx) (k : Fin 128) : S128x128.Idx := fun a => match a with
  | ⟨0, _⟩ => ⟨k.val, k.isLt⟩
  | ⟨1, _⟩ => ⟨(i 1).val, (i 1).isLt⟩

/-- All the rows times the weights, at an index: the same sum along the row and the column. -/
theorem mm_apply (h : FVec Ideal S100000x128 .f32) (W : FVec Ideal S128x128 .f32) (i : S100000x128.Idx) :
    Cert.Hand.Ref.mm128 (F := Ideal) h W i = ∑ k : Fin 128, h (arrL i k) * W (arrR i k) := by
  unfold Cert.Hand.Ref.mm128
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrL i k := funext fun a => Fin.ext (by
    match a with
    | ⟨0, _⟩ => exact arr_lhs_0 _ _
    | ⟨1, _⟩ => exact (arr_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrR i k := funext fun a => Fin.ext (by
    match a with
    | ⟨0, _⟩ => exact (arr_rhs_0 _ _).trans hk
    | ⟨1, _⟩ => exact arr_rhs_1 _ _)
  rw [el, er]

/-- A block's product at an index of the block is the whole product at an index of the array, as soon as the block's
    row there is the array's row and the weights' column is the same column. -/
theorem blk_mm (X : FVec Ideal S100000x128 .f32) (W : FVec Ideal S128x128 .f32) (x0 : Vec Ideal S2000x128 .f32) (x1 : Vec Ideal S128x128 .f32)
    (y : S2000x128.Idx) (i : S100000x128.Idx) (hx0 : ∀ k : Fin 128, x0 (blkL y k) = X (arrL i k)) (hx1 : ∀ k : Fin 128, x1 (blkR y k) = W (arrR i k)) :
    k5_pay1 (F := Ideal) x0 x1 y = Cert.Hand.Ref.mm128 (F := Ideal) X W i := by
  refine (pay_apply x0 x1 y).trans ?_
  refine Eq.trans ?_ (mm_apply X W i).symm
  exact Finset.sum_congr rfl fun k _ => by rw [hx0 k, hx1 k]

/-! ## From the blocks to the array

Point t of the grid reads rows 2000 t … 2000 t + 1999 and all the weights, and writes the same rows of the output; row r
of the output is in the block of point r / 2000. -/

theorem hz : (![0, 0] : Fin 2 → Nat) = fun _ => 0 := funext fun a => by fin_cases a <;> rfl

/-- The block indices, decided over the grid: the rows' block and the output's block are the point's, the weights'
    block is the whole array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole product. -/
theorem flushed_eq (c : Dev nD) (t : Fin cfg5.N) :
    (dat5 V c).flushed 2 t = ((cfg5.win 2).blk t).view.read (Elt Ideal) (Cert.Hand.Ref.mm128 (F := Ideal) (V c main_v24) (V c main_v26)) := by
  show (cfg5.win 2).cut (grid5.coords t) ((dat5 V c).after 2 t) = _
  rw [after5_2]
  unfold out5_2
  rw [View.canon_unit_zero hz]
  simp only [View.ld_unit_zero (S := S2000x128) hz, View.ld_unit_zero (S := S128x128) hz]
  obtain ⟨e0, e1, e2, e3, e4, e5⟩ := idx_facts t
  funext y
  show k5_pay1 (F := Ideal) (iblk5 V c 0 t) (iblk5 V c 1 t) y
    = Cert.Hand.Ref.mm128 (F := Ideal) (V c main_v24) (V c main_v26) (((cfg5.win 2).blk t).view.emb y)
  refine blk_mm _ _ _ _ y _ (fun k => ?_) (fun k => ?_)
  · have h0 : ((cfg5.win 0).blk t).view.emb (blkL y k) = arrL (((cfg5.win 2).blk t).view.emb y) k := by
      funext a; apply Fin.ext
      match a with
      | ⟨0, _⟩ => show win5_0.index t (0 : Fin 2) * 2000 + 1 * (y 0).val = win5_2.index t (0 : Fin 2) * 2000 + 1 * (y 0).val; omega
      | ⟨1, _⟩ => show win5_0.index t (1 : Fin 2) * 128 + 1 * k.val = k.val; omega
    exact congrArg (V c main_v24) h0
  · have h1 : ((cfg5.win 1).blk t).view.emb (blkR y k) = arrR (((cfg5.win 2).blk t).view.emb y) k := by
      funext a; apply Fin.ext
      match a with
      | ⟨0, _⟩ => show win5_1.index t (0 : Fin 2) * 128 + 1 * k.val = k.val; omega
      | ⟨1, _⟩ => show win5_1.index t (1 : Fin 2) * 128 + 1 * (y 1).val = win5_2.index t (1 : Fin 2) * 128 + 1 * (y 1).val; omega
    exact congrArg (V c main_v26) h1

/-- An index of the output is in point t's block iff each coordinate is in the block's range on its axis. -/
theorem mem_blk (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole (Pipeline.arrRef spec5 2)).slice (win5_2.rect t)).set ↔ _
  rw [View.set_slice_whole, Rect.mem_set_unit]
  exact Iff.rfl

/-- Every row of the output is in the block of some point: row r in that of point r / 2000. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hlt : (i 0).val / 2000 < 50 := by omega
  obtain ⟨t, ht⟩ : ∃ t : Fin cfg5.N, t.val = (i 0).val / 2000 := ⟨⟨(i 0).val / 2000, hlt⟩, rfl⟩
  refine ⟨t, flush5_2 t, ?_⟩
  rw [mem_blk]
  obtain ⟨e0, e1, e2, e3, e4, e5⟩ := idx_facts t
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- After the 50 points the output array is all the rows times the weights. -/
theorem final5 (c : Dev nD) : (dat5 V c).arrAt 2 cfg5.N = Cert.Hand.Ref.mm128 (F := Ideal) (V c main_v24) (V c main_v26) :=
  (dat5 V c).arrAt_eq_of_cover 2 _ (fun t _ => flushed_eq V c t) cover

end Cert.Hand.K5

end
-- ==== Proof.Region6.lean ====
/- The bias region of a graph layer: every block of 2000 rows plus the bias row, positive part, is that block of rows of the
   whole array's, so after its 50 grid points the output array holds the biased, rectified sums of all nodes. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K6
open Idealize.ShloMosaic Idealize.ShloMosaic.TcCoe Idealize.SL.Sem
open Idealize.ShloMosaic.Pipeline (Dat)
open Cert.KernelIdeal Cert.KernelIdeal.Gen

/-! ## The two sides at an index -/

theorem hzMat : (![0, 0] : Fin 2 → Nat) = fun _ => 0 := funext fun a => match a with | ⟨0, _⟩ => rfl | ⟨1, _⟩ => rfl
theorem hzVec : (![0] : Fin 1 → Nat) = fun _ => 0 := funext fun a => match a with | ⟨0, _⟩ => rfl

/-- The body's arithmetic at row `p`, column `q` of a block: the block's entry plus the bias row's entry at `q`
    (the row is reshaped to one row and repeated down the block), then the maximum with zero. -/
theorem pay_apply (x0 : Vec Ideal S2000x128 .f32) (x1 : Vec Ideal S128 .f32) (p : Fin 2000) (q : Fin 128) :
    k6_pay1 (F := Ideal) x0 x1 (ValueIdx.ix2 p q)
      = FloatOps.maximumf (FloatOps.addf (x0 (ValueIdx.ix2 p q)) (x1 (ValueIdx.ix1 q))) (Ideal.ofBits .f32 0x00000000#32) := by
  unfold k6_pay1
  have e1 : shapeCast S2000x128 x0 shapeCasts_S2000x128_S2000x128 = x0 := shapeCast_self _ _
  have e2 : broadcastTo S2000x128 (shapeCast S1x128 (shapeCast S128 x1 shapeCasts_S128_S128) shapeCasts_S128_S1x128)
      broadcasts_S1x128_S2000x128 (ValueIdx.ix2 p q) = x1 (ValueIdx.ix1 q) := by
    rw [shapeCast_self]
    refine (broadcastTo_apply _ broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact shapeCast_apply x1 shapeCasts_S128_S1x128 (ValueIdx.ix2 (0 : Fin 1) q) (ValueIdx.ix1 q)
      (by rewrite [Shape.rowMajor_val_two, Shape.rowMajor_val_one]; show q.val = 0 * 128 + q.val; omega)
  show FloatOps.maximumf (FloatOps.addf (shapeCast S2000x128 x0 shapeCasts_S2000x128_S2000x128 (ValueIdx.ix2 p q))
      (broadcastTo S2000x128 (shapeCast S1x128 (shapeCast S128 x1 shapeCasts_S128_S128) shapeCasts_S128_S1x128)
        broadcasts_S1x128_S2000x128 (ValueIdx.ix2 p q))) (Ideal.ofBits .f32 0x00000000#32) = _
  rw [e1, e2]

/-- The reference's stage at row `r`, column `q`: the same sum and maximum, its bias repeated by two broadcasts
    and its zero a broadcast constant. -/
theorem ref_apply (a : FVec Ideal S100000x128 .f32) (b : FVec Ideal S128 .f32) (r : Fin 100000) (q : Fin 128) :
    Cert.Hand.Ref.biasRelu (F := Ideal) a b (ValueIdx.ix2 r q)
      = FloatOps.maximumf (FloatOps.addf (a (ValueIdx.ix2 r q)) (b (ValueIdx.ix1 q))) (Ideal.ofBits .f32 0x00000000#32) := by
  unfold Cert.Hand.Ref.biasRelu Cert.Hand.Ref.relu128
  have e2 : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q) = b (ValueIdx.ix1 q) := by
    refine (broadcastInDim_apply _ Cert.ReferenceIdeal.Facts₀.bcast_S1x128_S100000x128_0_1 _ (ValueIdx.ix2 r q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact broadcastInDim_apply _ Cert.ReferenceIdeal.Facts₀.bcast_S128_S1x128_1 b (ValueIdx.ix2 (0 : Fin 1) q) (ValueIdx.ix1 q) (fun a => match a with
      | ⟨0, _⟩ => by show q.val = if (128 : Nat) = 1 then 0 else q.val; rw [if_neg (by decide)])
  show FloatOps.maximumf (FloatOps.addf (a (ValueIdx.ix2 r q)) (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q))) (Ideal.ofBits .f32 0x00000000#32) = _
  rw [e2]

/-! ## From blocks to the array -/

/- the region's entry contents: any valuation of the TensorCore's buffers -/
variable (V : (c : Dev nD) → (b : Ref sig .tc) → Buf (Elt Ideal) ((c : Thread nD τ).loc b))

/-- The printed index maps, decided over the grid: the row-tiled windows sit at block `(t, 0)`, the bias row's
    window at block `0` (its block is the whole row). -/
theorem idx_facts : ∀ t : Fin cfg6.N, win6_0.index t (0 : Fin 2) = t.val ∧ win6_0.index t (1 : Fin 2) = 0
    ∧ win6_1.index t (0 : Fin 1) = 0
    ∧ win6_2.index t (0 : Fin 2) = t.val ∧ win6_2.index t (1 : Fin 2) = 0 :=
  (by decide +kernel : ∀ t : Fin grid6.N, _)

/-- WHAT POINT `t` WRITES BACK is block `t` of the reference's stage of the arrays as the region finds them. -/
theorem flushed_eq (c : Dev nD) (t : Fin cfg6.N) :
    (dat6 V c).flushed 2 t = ((cfg6.win 2).blk t).view.read (Elt Ideal) (Cert.Hand.Ref.biasRelu (F := Ideal) (V c main_v31) (V c main_v33)) := by
  show (cfg6.win 2).cut (grid6.coords t) ((dat6 V c).after 2 t) = _
  rw [after6_2]
  unfold out6_2
  rw [View.canon_unit_zero hzMat]
  simp only [View.ld_unit_zero (S := S2000x128) hzMat, View.ld_unit_zero (S := S128) hzVec]
  obtain ⟨e0, e1, e2, e3, e4⟩ := idx_facts t
  have ht : t.val < 50 := lt_of_lt_of_eq t.isLt N_6
  funext j
  obtain ⟨p, q, rfl⟩ : ∃ (p : Fin 2000) (q : Fin 128), j = ValueIdx.ix2 p q := ⟨j 0, j 1, ValueIdx.eq_ix2 j⟩
  have hrow : t.val * 2000 + p.val < 100000 := by have hp : p.val < 2000 := p.isLt; omega
  have h0 : ((cfg6.win 0).blk t).view.emb (ValueIdx.ix2 p q) = ValueIdx.ix2 (⟨t.val * 2000 + p.val, hrow⟩ : Fin 100000) q := by
    funext a; apply Fin.ext
    match a with
    | ⟨0, _⟩ => show win6_0.index t (0 : Fin 2) * 2000 + 1 * p.val = t.val * 2000 + p.val; omega
    | ⟨1, _⟩ => show win6_0.index t (1 : Fin 2) * 128 + 1 * q.val = q.val; omega
  have h1 : ((cfg6.win 1).blk t).view.emb (ValueIdx.ix1 q) = ValueIdx.ix1 q := by
    funext a; apply Fin.ext
    match a with
    | ⟨0, _⟩ => show win6_1.index t (0 : Fin 1) * 128 + 1 * q.val = q.val; omega
  have h2 : ((cfg6.win 2).blk t).view.emb (ValueIdx.ix2 p q) = ValueIdx.ix2 (⟨t.val * 2000 + p.val, hrow⟩ : Fin 100000) q := by
    funext a; apply Fin.ext
    match a with
    | ⟨0, _⟩ => show win6_2.index t (0 : Fin 2) * 2000 + 1 * p.val = t.val * 2000 + p.val; omega
    | ⟨1, _⟩ => show win6_2.index t (1 : Fin 2) * 128 + 1 * q.val = q.val; omega
  refine (pay_apply (iblk6 V c 0 t) (iblk6 V c 1 t) p q).trans ?_
  show FloatOps.maximumf (FloatOps.addf (V c main_v31 (((cfg6.win 0).blk t).view.emb (ValueIdx.ix2 p q)))
        (V c main_v33 (((cfg6.win 1).blk t).view.emb (ValueIdx.ix1 q)))) (Ideal.ofBits .f32 0x00000000#32)
      = Cert.Hand.Ref.biasRelu (F := Ideal) (V c main_v31) (V c main_v33) (((cfg6.win 2).blk t).view.emb (ValueIdx.ix2 p q))
  rw [h0, h1, h2]
  exact (ref_apply _ _ _ _).symm

/-- An index of the array is in point `t`'s block iff each coordinate is in the block's range on its axis. -/
theorem mem_blk (t : Fin cfg6.N) (i : S100000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v34).slice (win6_2.rect t)).set ↔ _
  rw [View.set_slice_whole, Rect.mem_set_unit]
  exact Iff.rfl

/-- Every row is in the block of the point its number divided by 2000 names. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 50 := N_6
  obtain ⟨t, ht⟩ : ∃ t : Fin cfg6.N, t.val = (i 0).val / 2000 := ⟨⟨(i 0).val / 2000, by rw [hN]; omega⟩, rfl⟩
  obtain ⟨e0, e1, e2, e3, e4⟩ := idx_facts t
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

theorem final6 (c : Dev nD) : (dat6 V c).arrAt 2 cfg6.N = Cert.Hand.Ref.biasRelu (F := Ideal) (V c main_v31) (V c main_v33) :=
  (dat6 V c).arrAt_eq_of_cover 2 _ (fun t _ => flushed_eq V c t) cover

end Cert.Hand.K6

end
-- ==== Proof.FoldLayer2.lean ====
/- One graph layer, read off the fold of buffer contents: from the node features the layer finds, the projection region
   leaves their product with the layer's weights, the host gathers each edge's source row (a guarded take that, for
   source indices in range, is the plain gather), adds the rows into their destination nodes, and the bias region adds
   the layer's bias and takes the positive part: the reference's layer of the same features. -/
import proofs.«424308_j12910671692012_1_alg».proof.Proof.Gen.KernelIdeal.Frame
import proofs.«424308_j12910671692012_1_alg».proof.Proof.Gen.ReferenceIdeal
import proofs.«424308_j12910671692012_1_alg».proof.Proof.RefSpec
import proofs.«424308_j12910671692012_1_alg».proof.Proof.FoldBase
import proofs.«424308_j12910671692012_1_alg».proof.Proof.Region5
import proofs.«424308_j12910671692012_1_alg».proof.Proof.Region6
import proofs.«424308_j12910671692012_1_alg».proof.Proof.Take
import Idealize.ShloMosaic.Lib.StableHlo.Run
import Idealize.ShloMosaic.Lib.Pipeline.Value

set_option maxRecDepth 16384

noncomputable section

namespace Cert.Hand.Fold.L2

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

open Cert.Hand

/-- The layer's first host stretch slices its weights out of the stacked four … -/
theorem gw_of (X : Valuation τ sig (Elt Ideal)) : StableHlo.after hostOps5 X (Proc.devRef .tc main_v26) = Ref.gw2 (F := Ideal) (X (Proc.devRef .tc main_arg8)) := by
  after_results
  rfl
/-- … and leaves the layer's input features alone. -/
theorem hin_of (X : Valuation τ sig (Elt Ideal)) : StableHlo.after hostOps5 X (Proc.devRef .tc main_v24) = X (Proc.devRef .tc main_v24) := by
  after_results

/-- A line of host operations run after another is the two lines run in order. -/
theorem after_append {nD : Nat} {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => exact ih _

/-- Contents carried to a buffer's own type and back are the contents. -/
theorem ofBuf_toBuf {sig : RefSig} {T : BufTy} {Val : EltTy → Type} (x : StableHlo.TRef sig T) (v : T.Contents Val) :
    x.ofBuf (x.toBuf v) = v := by
  unfold StableHlo.TRef.ofBuf StableHlo.TRef.toBuf
  simp

set_option maxHeartbeats 4000000 in
/-- The take's first eight operations wrap the source indices and lay them out as a column … -/
theorem take_idx (X : Valuation τ sig (Elt Ideal)) :
    StableHlo.after (hostOps6.take 8) X (Proc.devRef .tc main_call2_v5) = broadcastInDim S1600000x1 ![0] Facts₀.bcast_S1600000_S1600000x1_0 (Take.kidx (X (Proc.devRef .tc main_v1))) := by
  simp only [hostOps6, List.take_succ_cons, List.take_zero]
  after_results
  rfl
set_option maxHeartbeats 4000000 in
/-- … leaving the projected features alone. -/
theorem take_hw (X : Valuation τ sig (Elt Ideal)) : StableHlo.after (hostOps6.take 8) X (Proc.devRef .tc main_v27) = X (Proc.devRef .tc main_v27) := by
  simp only [hostOps6, List.take_succ_cons, List.take_zero]
  after_results
set_option maxHeartbeats 4000000 in
/-- The next fourteen test the wrapped column against 0 … 99999, row by row, and repeat the verdict across the columns:
    where every wrapped index passes, the verdict is good everywhere. -/
theorem take_mask (Y : Valuation τ sig (Elt Ideal))
    (hK : ∀ k : S1600000x1.Idx, IntOp.andi (IntOp.cmpi .sge ((Y (Proc.devRef .tc main_call2_v5) : IVec S1600000x1 32) k) 0#32)
        (IntOp.cmpi .sle ((Y (Proc.devRef .tc main_call2_v5) : IVec S1600000x1 32) k) 99999#32) = 1#1)
    (i : S1600000x128.Idx) :
    (StableHlo.after ((hostOps6.drop 8).take 14) Y (Proc.devRef .tc main_call2_v14) : IVec S1600000x128 1) i = 1#1 := by
  simp only [hostOps6, List.drop_succ_cons, List.drop_zero, List.take_succ_cons, List.take_zero]
  after_results
  simp only [ofBuf_toBuf]
  refine (congrFun (cast_eq _ _) i).trans ?_
  unfold broadcastInDim
  rw [Host.reduce_eq_foldl]
  exact Take.foldl_andi_ones _ _ fun n _ => hK _
set_option maxHeartbeats 4000000 in
/-- … gather the rows at the wrapped column … -/
theorem take_rows (Y : Valuation τ sig (Elt Ideal)) :
    StableHlo.after ((hostOps6.drop 8).take 14) Y (Proc.devRef .tc main_call2_v13) = Host.gather gather_S100000x128_S1600000x1_S1600000x128_1_0_n_n_0_1_1128 (Y (Proc.devRef .tc main_v27)) (Y (Proc.devRef .tc main_call2_v5)) := by
  simp only [hostOps6, List.drop_succ_cons, List.drop_zero, List.take_succ_cons, List.take_zero]
  after_results
  rfl
/-- The last keeps a gathered row where its verdict is good and the fill elsewhere. -/
theorem take_last (Z : Valuation τ sig (Elt Ideal)) :
    StableHlo.after ((hostOps6.drop 8).drop 14) Z (Proc.devRef .tc main_v28) = select (Z (Proc.devRef .tc main_call2_v14)) (Z (Proc.devRef .tc main_call2_v13)) (Z (Proc.devRef .tc main_call2_v15)) := by
  simp only [hostOps6, List.drop_succ_cons, List.drop_zero, List.take_succ_cons, List.take_zero]
  after_results
  rfl
/-- The second host stretch gathers each edge's source row through a guard that, for source indices in range, passes
    every row: what it leaves is the plain gather at the wrapped indices. -/
theorem msg_of (X : Valuation τ sig (Elt Ideal)) (hs : Take.InRange (X (Proc.devRef .tc main_v1))) :
    StableHlo.after hostOps6 X (Proc.devRef .tc main_v28) = Ref.msgs (F := Ideal) (X (Proc.devRef .tc main_v27)) (X (Proc.devRef .tc main_v1)) := by
  rw [← List.take_append_drop 8 (hostOps6 (F := Ideal)), after_append (nD := nD),
    ← List.take_append_drop 14 ((hostOps6 (F := Ideal)).drop 8), after_append (nD := nD), take_last]
  funext i
  rw [ValueIdx.select_apply, take_mask _ (fun k => by rw [take_idx]; exact Take.wrap_word _ (hs _).1 (hs _).2) i]
  unfold Scalar.select
  rw [if_pos (show (1#1 : BitVec 1) = 1 from rfl), take_rows, take_idx, take_hw]
  rfl

/-- The third host stretch adds every edge's message into its destination node's row, from zero … -/
theorem agg_of (X : Valuation τ sig (Elt Ideal)) : StableHlo.after hostOps6_1 X (Proc.devRef .tc main_v31) = Ref.agg (F := Ideal) (X (Proc.devRef .tc main_v3)) (X (Proc.devRef .tc main_v28)) := by
  after_results
  rfl
/-- … and slices the layer's bias out of the stacked four. -/
theorem gb_of (X : Valuation τ sig (Elt Ideal)) : StableHlo.after hostOps6_1 X (Proc.devRef .tc main_v33) = Ref.gb2 (F := Ideal) (X (Proc.devRef .tc main_arg9)) := by
  after_results
  rfl
/-- The projection region leaves every node's features times the weights. -/
theorem hw_at (c : Dev nD) : W14 m ρ c (Proc.devRef .tc main_v27) = Ref.mm128 (F := Ideal) (W13 m ρ c (Proc.devRef .tc main_v24)) (W13 m ρ c (Proc.devRef .tc main_v26)) :=
  (W14_arr m ρ c 2).trans (K5.final5 (V13 m ρ) c)
/-- The bias region leaves the biased sums' positive part. -/
theorem hout_at (c : Dev nD) : W17 m ρ c (Proc.devRef .tc main_v34) = Ref.biasRelu (F := Ideal) (W16 m ρ c (Proc.devRef .tc main_v31)) (W16 m ρ c (Proc.devRef .tc main_v33)) :=
  (W17_arr m ρ c 2).trans (K6.final6 (V16 m ρ) c)

/-- The layer: with the source indices in range, from features `h` in the layer's input buffer to the reference's
    layer of `h` in its output buffer. -/
theorem layer2 (c : Dev nD) (hs : Take.InRange (Ref.src (m ((c.tc : Thread nD τ).loc main_arg1))))
    (h : FVec Ideal Cert.ReferenceIdeal.S100000x128 .f32) (hin : W12 m ρ c (Proc.devRef .tc main_v24) = h) :
    W17 m ρ c (Proc.devRef .tc main_v34) = Ref.layer (F := Ideal) h (Ref.gw2 (m ((c.tc : Thread nD τ).loc main_arg8))) (Ref.gb2 (m ((c.tc : Thread nD τ).loc main_arg9))) (m ((c.tc : Thread nD τ).loc main_arg1)) := by
  have e8 : W12 m ρ c (Proc.devRef .tc main_arg8) = (m ((c.tc : Thread nD τ).loc main_arg8)) :=
    (keep12 m ρ c main_arg8 (by simp [quiet])).trans (h0_arg8 (W0 m ρ c))
  have e9 : W15 m ρ c (Proc.devRef .tc main_arg9) = (m ((c.tc : Thread nD τ).loc main_arg9)) :=
    (keep15 m ρ c main_arg9 (by simp [quiet])).trans (h0_arg9 (W0 m ρ c))
  have es : W14 m ρ c (Proc.devRef .tc main_v1) = Ref.src (m ((c.tc : Thread nD τ).loc main_arg1)) :=
    (keep14 m ρ c main_v1 (by simp [quiet])).trans (h0_src (W0 m ρ c))
  have ed : W15 m ρ c (Proc.devRef .tc main_v3) = Ref.dst (m ((c.tc : Thread nD τ).loc main_arg1)) :=
    (keep15 m ρ c main_v3 (by simp [quiet])).trans (h0_dst (W0 m ρ c))
  have e1 : W13 m ρ c (Proc.devRef .tc main_v26) = Ref.gw2 (F := Ideal) (m ((c.tc : Thread nD τ).loc main_arg8)) := (gw_of (W12 m ρ c)).trans (congrArg _ e8)
  have e2 : W13 m ρ c (Proc.devRef .tc main_v24) = h := (hin_of (W12 m ρ c)).trans hin
  have e3 : W14 m ρ c (Proc.devRef .tc main_v27) = Ref.mm128 (F := Ideal) h (Ref.gw2 (m ((c.tc : Thread nD τ).loc main_arg8))) := by
    rw [hw_at, e1, e2]
  have e4 : W15 m ρ c (Proc.devRef .tc main_v28) = Ref.msgs (F := Ideal) (Ref.mm128 h (Ref.gw2 (m ((c.tc : Thread nD τ).loc main_arg8)))) (Ref.src (m ((c.tc : Thread nD τ).loc main_arg1))) := by
    rw [show W15 m ρ c (Proc.devRef .tc main_v28) = _ from msg_of (W14 m ρ c) (by rw [es]; exact hs), e3, es]
  have e5 : W16 m ρ c (Proc.devRef .tc main_v31) = Ref.agg (F := Ideal) (Ref.dst (m ((c.tc : Thread nD τ).loc main_arg1))) (Ref.msgs (Ref.mm128 h (Ref.gw2 (m ((c.tc : Thread nD τ).loc main_arg8)))) (Ref.src (m ((c.tc : Thread nD τ).loc main_arg1)))) := by
    rw [show W16 m ρ c (Proc.devRef .tc main_v31) = _ from agg_of (W15 m ρ c), ed, e4]
  have e6 : W16 m ρ c (Proc.devRef .tc main_v33) = Ref.gb2 (F := Ideal) (m ((c.tc : Thread nD τ).loc main_arg9)) := (gb_of (W15 m ρ c)).trans (congrArg _ e9)
  rw [hout_at, e5, e6]
  rfl

end Cert.Hand.Fold.L2

end
-- ==== Proof.Region7.lean ====
/- The projection region of a graph layer: every block of 2000 rows times the 128 × 128 weights is that block of rows of
   the whole product, so after its 50 grid points the output array holds all nodes' features times the weights. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K7
open Idealize.ShloMosaic Idealize.ShloMosaic.TcCoe Idealize.SL.Sem
open Idealize.ShloMosaic.Pipeline (Dat)
open Cert.KernelIdeal Cert.KernelIdeal.Gen

/- the region's entry contents: any valuation of the TensorCore's buffers -/
variable (V : (c : Dev nD) → (b : Ref sig .tc) → Buf (Elt Ideal) ((c : Thread nD τ).loc b))

/-! ## A block of rows times the weights, at an index

Entry (p, q) of a 2000 × 128 block times the 128 × 128 weights is the sum over k of the block's (p, k) times the
weights' (k, q): the rounding to half width before the product is the identity on ideal values, and the
product starts from the zero accumulator. -/

/- the operand indices of the block product: the row of the output index on the left, its column on the right -/
theorem blk_lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk_lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem blk_rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem blk_rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/- entry (row of j, k) of a block of rows; entry (k, column of j) of the weights -/
abbrev blkL (j : S2000x128.Idx) (k : Fin 128) : S2000x128.Idx := fun a => match a with
  | ⟨0, _⟩ => ⟨(j 0).val, (j 0).isLt⟩
  | ⟨1, _⟩ => ⟨k.val, k.isLt⟩
abbrev blkR (j : S2000x128.Idx) (k : Fin 128) : S128x128.Idx := fun a => match a with
  | ⟨0, _⟩ => ⟨k.val, k.isLt⟩
  | ⟨1, _⟩ => ⟨(j 1).val, (j 1).isLt⟩

/-- The body's arithmetic at an index: the sum of the 128 products along the row and the column. -/
theorem pay_apply (x0 : Vec Ideal S2000x128 .f32) (x1 : Vec Ideal S128x128 .f32) (j : S2000x128.Idx) :
    k7_pay1 (F := Ideal) x0 x1 j = ∑ k : Fin 128, x0 (blkL j k) * x1 (blkR j k) := by
  unfold k7_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blkL j k := funext fun a => Fin.ext (by
    match a with
    | ⟨0, _⟩ => exact blk_lhs_0 _ _
    | ⟨1, _⟩ => exact (blk_lhs_1 _ _).trans hk)
  have er : dot_S2000x128_S128x128_S2000x128_1_0_0_1_n_n.rhsIdx j ((ValueIdx.contrEquiv1 dot_S2000x128_S128x128_S2000x128_1_0_0_1_n_n 128 rfl rfl).symm k) = blkR j k := funext fun a => Fin.ext (by
    match a with
    | ⟨0, _⟩ => exact (blk_rhs_0 _ _).trans hk
    | ⟨1, _⟩ => exact blk_rhs_1 _ _)
  rw [el, er, shapeCast_self, shapeCast_self]
  rfl

/-! ## The whole product at an index -/

theorem arr_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem arr_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem arr_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem arr_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/- entry (row of i, k) of all the rows; entry (k, column of i) of the weights -/
abbrev arrL (i : S100000x128.Idx) (k : Fin 128) : S100000x128.Idx := fun a => match a with
  | ⟨0, _⟩ => ⟨(i 0).val, (i 0).isLt⟩
  | ⟨1, _⟩ => ⟨k.val, k.isLt⟩
abbrev arrR (i : S100000x128.Idx) (k : Fin 128) : S128x128.Idx := fun a => match a with
  | ⟨0, _⟩ => ⟨k.val, k.isLt⟩
  | ⟨1, _⟩ => ⟨(i 1).val, (i 1).isLt⟩

/-- All the rows times the weights, at an index: the same sum along the row and the column. -/
theorem mm_apply (h : FVec Ideal S100000x128 .f32) (W : FVec Ideal S128x128 .f32) (i : S100000x128.Idx) :
    Cert.Hand.Ref.mm128 (F := Ideal) h W i = ∑ k : Fin 128, h (arrL i k) * W (arrR i k) := by
  unfold Cert.Hand.Ref.mm128
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = arrL i k := funext fun a => Fin.ext (by
    match a with
    | ⟨0, _⟩ => exact arr_lhs_0 _ _
    | ⟨1, _⟩ => exact (arr_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = arrR i k := funext fun a => Fin.ext (by
    match a with
    | ⟨0, _⟩ => exact (arr_rhs_0 _ _).trans hk
    | ⟨1, _⟩ => exact arr_rhs_1 _ _)
  rw [el, er]

/-- A block's product at an index of the block is the whole product at an index of the array, as soon as the block's
    row there is the array's row and the weights' column is the same column. -/
theorem blk_mm (X : FVec Ideal S100000x128 .f32) (W : FVec Ideal S128x128 .f32) (x0 : Vec Ideal S2000x128 .f32) (x1 : Vec Ideal S128x128 .f32)
    (y : S2000x128.Idx) (i : S100000x128.Idx) (hx0 : ∀ k : Fin 128, x0 (blkL y k) = X (arrL i k)) (hx1 : ∀ k : Fin 128, x1 (blkR y k) = W (arrR i k)) :
    k7_pay1 (F := Ideal) x0 x1 y = Cert.Hand.Ref.mm128 (F := Ideal) X W i := by
  refine (pay_apply x0 x1 y).trans ?_
  refine Eq.trans ?_ (mm_apply X W i).symm
  exact Finset.sum_congr rfl fun k _ => by rw [hx0 k, hx1 k]

/-! ## From the blocks to the array

Point t of the grid reads rows 2000 t … 2000 t + 1999 and all the weights, and writes the same rows of the output; row r
of the output is in the block of point r / 2000. -/

theorem hz : (![0, 0] : Fin 2 → Nat) = fun _ => 0 := funext fun a => by fin_cases a <;> rfl

/-- The block indices, decided over the grid: the rows' block and the output's block are the point's, the weights'
    block is the whole array. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the whole product. -/
theorem flushed_eq (c : Dev nD) (t : Fin cfg7.N) :
    (dat7 V c).flushed 2 t = ((cfg7.win 2).blk t).view.read (Elt Ideal) (Cert.Hand.Ref.mm128 (F := Ideal) (V c main_v34) (V c main_v36)) := by
  show (cfg7.win 2).cut (grid7.coords t) ((dat7 V c).after 2 t) = _
  rw [after7_2]
  unfold out7_2
  rw [View.canon_unit_zero hz]
  simp only [View.ld_unit_zero (S := S2000x128) hz, View.ld_unit_zero (S := S128x128) hz]
  obtain ⟨e0, e1, e2, e3, e4, e5⟩ := idx_facts t
  funext y
  show k7_pay1 (F := Ideal) (iblk7 V c 0 t) (iblk7 V c 1 t) y
    = Cert.Hand.Ref.mm128 (F := Ideal) (V c main_v34) (V c main_v36) (((cfg7.win 2).blk t).view.emb y)
  refine blk_mm _ _ _ _ y _ (fun k => ?_) (fun k => ?_)
  · have h0 : ((cfg7.win 0).blk t).view.emb (blkL y k) = arrL (((cfg7.win 2).blk t).view.emb y) k := by
      funext a; apply Fin.ext
      match a with
      | ⟨0, _⟩ => show win7_0.index t (0 : Fin 2) * 2000 + 1 * (y 0).val = win7_2.index t (0 : Fin 2) * 2000 + 1 * (y 0).val; omega
      | ⟨1, _⟩ => show win7_0.index t (1 : Fin 2) * 128 + 1 * k.val = k.val; omega
    exact congrArg (V c main_v34) h0
  · have h1 : ((cfg7.win 1).blk t).view.emb (blkR y k) = arrR (((cfg7.win 2).blk t).view.emb y) k := by
      funext a; apply Fin.ext
      match a with
      | ⟨0, _⟩ => show win7_1.index t (0 : Fin 2) * 128 + 1 * k.val = k.val; omega
      | ⟨1, _⟩ => show win7_1.index t (1 : Fin 2) * 128 + 1 * (y 1).val = win7_2.index t (1 : Fin 2) * 128 + 1 * (y 1).val; omega
    exact congrArg (V c main_v36) h1

/-- An index of the output is in point t's block iff each coordinate is in the block's range on its axis. -/
theorem mem_blk (t : Fin cfg7.N) (i : S100000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole (Pipeline.arrRef spec7 2)).slice (win7_2.rect t)).set ↔ _
  rw [View.set_slice_whole, Rect.mem_set_unit]
  exact Iff.rfl

/-- Every row of the output is in the block of some point: row r in that of point r / 2000. -/
theorem cover (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hlt : (i 0).val / 2000 < 50 := by omega
  obtain ⟨t, ht⟩ : ∃ t : Fin cfg7.N, t.val = (i 0).val / 2000 := ⟨⟨(i 0).val / 2000, hlt⟩, rfl⟩
  refine ⟨t, flush7_2 t, ?_⟩
  rw [mem_blk]
  obtain ⟨e0, e1, e2, e3, e4, e5⟩ := idx_facts t
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 128 ≤ (i 1).val ∧ (i 1).val < win7_2.index t (1 : Fin 2) * 128 + 128; omega

/-- After the 50 points the output array is all the rows times the weights. -/
theorem final7 (c : Dev nD) : (dat7 V c).arrAt 2 cfg7.N = Cert.Hand.Ref.mm128 (F := Ideal) (V c main_v34) (V c main_v36) :=
  (dat7 V c).arrAt_eq_of_cover 2 _ (fun t _ => flushed_eq V c t) cover

end Cert.Hand.K7

end
-- ==== Proof.Region8.lean ====
/- The bias region of a graph layer: every block of 2000 rows plus the bias row, positive part, is that block of rows of the
   whole array's, so after its 50 grid points the output array holds the biased, rectified sums of all nodes. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K8
open Idealize.ShloMosaic Idealize.ShloMosaic.TcCoe Idealize.SL.Sem
open Idealize.ShloMosaic.Pipeline (Dat)
open Cert.KernelIdeal Cert.KernelIdeal.Gen

/-! ## The two sides at an index -/

theorem hzMat : (![0, 0] : Fin 2 → Nat) = fun _ => 0 := funext fun a => match a with | ⟨0, _⟩ => rfl | ⟨1, _⟩ => rfl
theorem hzVec : (![0] : Fin 1 → Nat) = fun _ => 0 := funext fun a => match a with | ⟨0, _⟩ => rfl

/-- The body's arithmetic at row `p`, column `q` of a block: the block's entry plus the bias row's entry at `q`
    (the row is reshaped to one row and repeated down the block), then the maximum with zero. -/
theorem pay_apply (x0 : Vec Ideal S2000x128 .f32) (x1 : Vec Ideal S128 .f32) (p : Fin 2000) (q : Fin 128) :
    k8_pay1 (F := Ideal) x0 x1 (ValueIdx.ix2 p q)
      = FloatOps.maximumf (FloatOps.addf (x0 (ValueIdx.ix2 p q)) (x1 (ValueIdx.ix1 q))) (Ideal.ofBits .f32 0x00000000#32) := by
  unfold k8_pay1
  have e1 : shapeCast S2000x128 x0 shapeCasts_S2000x128_S2000x128 = x0 := shapeCast_self _ _
  have e2 : broadcastTo S2000x128 (shapeCast S1x128 (shapeCast S128 x1 shapeCasts_S128_S128) shapeCasts_S128_S1x128)
      broadcasts_S1x128_S2000x128 (ValueIdx.ix2 p q) = x1 (ValueIdx.ix1 q) := by
    rw [shapeCast_self]
    refine (broadcastTo_apply _ broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact shapeCast_apply x1 shapeCasts_S128_S1x128 (ValueIdx.ix2 (0 : Fin 1) q) (ValueIdx.ix1 q)
      (by rewrite [Shape.rowMajor_val_two, Shape.rowMajor_val_one]; show q.val = 0 * 128 + q.val; omega)
  show FloatOps.maximumf (FloatOps.addf (shapeCast S2000x128 x0 shapeCasts_S2000x128_S2000x128 (ValueIdx.ix2 p q))
      (broadcastTo S2000x128 (shapeCast S1x128 (shapeCast S128 x1 shapeCasts_S128_S128) shapeCasts_S128_S1x128)
        broadcasts_S1x128_S2000x128 (ValueIdx.ix2 p q))) (Ideal.ofBits .f32 0x00000000#32) = _
  rw [e1, e2]

/-- The reference's stage at row `r`, column `q`: the same sum and maximum, its bias repeated by two broadcasts
    and its zero a broadcast constant. -/
theorem ref_apply (a : FVec Ideal S100000x128 .f32) (b : FVec Ideal S128 .f32) (r : Fin 100000) (q : Fin 128) :
    Cert.Hand.Ref.biasRelu (F := Ideal) a b (ValueIdx.ix2 r q)
      = FloatOps.maximumf (FloatOps.addf (a (ValueIdx.ix2 r q)) (b (ValueIdx.ix1 q))) (Ideal.ofBits .f32 0x00000000#32) := by
  unfold Cert.Hand.Ref.biasRelu Cert.Hand.Ref.relu128
  have e2 : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q) = b (ValueIdx.ix1 q) := by
    refine (broadcastInDim_apply _ Cert.ReferenceIdeal.Facts₀.bcast_S1x128_S100000x128_0_1 _ (ValueIdx.ix2 r q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans ?_
    exact broadcastInDim_apply _ Cert.ReferenceIdeal.Facts₀.bcast_S128_S1x128_1 b (ValueIdx.ix2 (0 : Fin 1) q) (ValueIdx.ix1 q) (fun a => match a with
      | ⟨0, _⟩ => by show q.val = if (128 : Nat) = 1 then 0 else q.val; rw [if_neg (by decide)])
  show FloatOps.maximumf (FloatOps.addf (a (ValueIdx.ix2 r q)) (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ValueIdx.ix2 r q))) (Ideal.ofBits .f32 0x00000000#32) = _
  rw [e2]

/-! ## From blocks to the array -/

/- the region's entry contents: any valuation of the TensorCore's buffers -/
variable (V : (c : Dev nD) → (b : Ref sig .tc) → Buf (Elt Ideal) ((c : Thread nD τ).loc b))

/-- The printed index maps, decided over the grid: the row-tiled windows sit at block `(t, 0)`, the bias row's
    window at block `0` (its block is the whole row). -/
theorem idx_facts : ∀ t : Fin cfg8.N, win8_0.index t (0 : Fin 2) = t.val ∧ win8_0.index t (1 : Fin 2) = 0
    ∧ win8_1.index t (0 : Fin 1) = 0
    ∧ win8_2.index t (0 : Fin 2) = t.val ∧ win8_2.index t (1 : Fin 2) = 0 :=
  (by decide +kernel : ∀ t : Fin grid8.N, _)

/-- WHAT POINT `t` WRITES BACK is block `t` of the reference's stage of the arrays as the region finds them. -/
theorem flushed_eq (c : Dev nD) (t : Fin cfg8.N) :
    (dat8 V c).flushed 2 t = ((cfg8.win 2).blk t).view.read (Elt Ideal) (Cert.Hand.Ref.biasRelu (F := Ideal) (V c main_v41) (V c main_v43)) := by
  show (cfg8.win 2).cut (grid8.coords t) ((dat8 V c).after 2 t) = _
  rw [after8_2]
  unfold out8_2
  rw [View.canon_unit_zero hzMat]
  simp only [View.ld_unit_zero (S := S2000x128) hzMat, View.ld_unit_zero (S := S128) hzVec]
  obtain ⟨e0, e1, e2, e3, e4⟩ := idx_facts t
  have ht : t.val < 50 := lt_of_lt_of_eq t.isLt N_8
  funext j
  obtain ⟨p, q, rfl⟩ : ∃ (p : Fin 2000) (q : Fin 128), j = ValueIdx.ix2 p q := ⟨j 0, j 1, ValueIdx.eq_ix2 j⟩
  have hrow : t.val * 2000 + p.val < 100000 := by have hp : p.val < 2000 := p.isLt; omega
  have h0 : ((cfg8.win 0).blk t).view.emb (ValueIdx.ix2 p q) = ValueIdx.ix2 (⟨t.val * 2000 + p.val, hrow⟩ : Fin 100000) q := by
    funext a; apply Fin.ext
    match a with
    | ⟨0, _⟩ => show win8_0.index t (0 : Fin 2) * 2000 + 1 * p.val = t.val * 2000 + p.val; omega
    | ⟨1, _⟩ => show win8_0.index t (1 : Fin 2) * 128 + 1 * q.val = q.val; omega
  have h1 : ((cfg8.win 1).blk t).view.emb (ValueIdx.ix1 q) = ValueIdx.ix1 q := by
    funext a; apply Fin.ext
    match a with
    | ⟨0, _⟩ => show win8_1.index t (0 : Fin 1) * 128 + 1 * q.val = q.val; omega
  have h2 : ((cfg8.win 2).blk t).view.emb (ValueIdx.ix2 p q) = ValueIdx.ix2 (⟨t.val * 2000 + p.val, hrow⟩ : Fin 100000) q := by
    funext a; apply Fin.ext
    match a with
    | ⟨0, _⟩ => show win8_2.index t (0 : Fin 2) * 2000 + 1 * p.val = t.val * 2000 + p.val; omega
    | ⟨1, _⟩ => show win8_2.index t (1 : Fin 2) * 128 + 1 * q.val = q.val; omega
  refine (pay_apply (iblk8 V c 0 t) (iblk8 V c 1 t) p q).trans ?_
  show FloatOps.maximumf (FloatOps.addf (V c main_v41 (((cfg8.win 0).blk t).view.emb (ValueIdx.ix2 p q)))
        (V c main_v43 (((cfg8.win 1).blk t).view.emb (ValueIdx.ix1 q)))) (Ideal.ofBits .f32 0x00000000#32)
      = Cert.Hand.Ref.biasRelu (F := Ideal) (V c main_v41) (V c main_v43) (((cfg8.win 2).blk t).view.emb (ValueIdx.ix2 p q))
  rw [h0, h1, h2]
  exact (ref_apply _ _ _ _).symm

/-- An index of the array is in point `t`'s block iff each coordinate is in the block's range on its axis. -/
theorem mem_blk (t : Fin cfg8.N) (i : S100000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v44).slice (win8_2.rect t)).set ↔ _
  rw [View.set_slice_whole, Rect.mem_set_unit]
  exact Iff.rfl

/-- Every row is in the block of the point its number divided by 2000 names. -/
theorem cover (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 50 := N_8
  obtain ⟨t, ht⟩ : ∃ t : Fin cfg8.N, t.val = (i 0).val / 2000 := ⟨⟨(i 0).val / 2000, by rw [hN]; omega⟩, rfl⟩
  obtain ⟨e0, e1, e2, e3, e4⟩ := idx_facts t
  refine ⟨t, flush8_2 t, ?_⟩
  rw [mem_blk]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 128 ≤ (i 1).val ∧ (i 1).val < win8_2.index t (1 : Fin 2) * 128 + 128; omega

theorem final8 (c : Dev nD) : (dat8 V c).arrAt 2 cfg8.N = Cert.Hand.Ref.biasRelu (F := Ideal) (V c main_v41) (V c main_v43) :=
  (dat8 V c).arrAt_eq_of_cover 2 _ (fun t _ => flushed_eq V c t) cover

end Cert.Hand.K8

end
-- ==== Proof.FoldLayer3.lean ====
/- One graph layer, read off the fold of buffer contents: from the node features the layer finds, the projection region
   leaves their product with the layer's weights, the host gathers each edge's source row (a guarded take that, for
   source indices in range, is the plain gather), adds the rows into their destination nodes, and the bias region adds
   the layer's bias and takes the positive part: the reference's layer of the same features. -/
import proofs.«424308_j12910671692012_1_alg».proof.Proof.Gen.KernelIdeal.Frame
import proofs.«424308_j12910671692012_1_alg».proof.Proof.Gen.ReferenceIdeal
import proofs.«424308_j12910671692012_1_alg».proof.Proof.RefSpec
import proofs.«424308_j12910671692012_1_alg».proof.Proof.FoldBase
import proofs.«424308_j12910671692012_1_alg».proof.Proof.Region7
import proofs.«424308_j12910671692012_1_alg».proof.Proof.Region8
import proofs.«424308_j12910671692012_1_alg».proof.Proof.Take
import Idealize.ShloMosaic.Lib.StableHlo.Run
import Idealize.ShloMosaic.Lib.Pipeline.Value

set_option maxRecDepth 16384

noncomputable section

namespace Cert.Hand.Fold.L3

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

open Cert.Hand

/-- The layer's first host stretch slices its weights out of the stacked four … -/
theorem gw_of (X : Valuation τ sig (Elt Ideal)) : StableHlo.after hostOps7 X (Proc.devRef .tc main_v36) = Ref.gw3 (F := Ideal) (X (Proc.devRef .tc main_arg8)) := by
  after_results
  rfl
/-- … and leaves the layer's input features alone. -/
theorem hin_of (X : Valuation τ sig (Elt Ideal)) : StableHlo.after hostOps7 X (Proc.devRef .tc main_v34) = X (Proc.devRef .tc main_v34) := by
  after_results

/-- A line of host operations run after another is the two lines run in order. -/
theorem after_append {nD : Nat} {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => exact ih _

/-- Contents carried to a buffer's own type and back are the contents. -/
theorem ofBuf_toBuf {sig : RefSig} {T : BufTy} {Val : EltTy → Type} (x : StableHlo.TRef sig T) (v : T.Contents Val) :
    x.ofBuf (x.toBuf v) = v := by
  unfold StableHlo.TRef.ofBuf StableHlo.TRef.toBuf
  simp

set_option maxHeartbeats 4000000 in
/-- The take's first eight operations wrap the source indices and lay them out as a column … -/
theorem take_idx (X : Valuation τ sig (Elt Ideal)) :
    StableHlo.after (hostOps8.take 8) X (Proc.devRef .tc main_call3_v5) = broadcastInDim S1600000x1 ![0] Facts₀.bcast_S1600000_S1600000x1_0 (Take.kidx (X (Proc.devRef .tc main_v1))) := by
  simp only [hostOps8, List.take_succ_cons, List.take_zero]
  after_results
  rfl
set_option maxHeartbeats 4000000 in
/-- … leaving the projected features alone. -/
theorem take_hw (X : Valuation τ sig (Elt Ideal)) : StableHlo.after (hostOps8.take 8) X (Proc.devRef .tc main_v37) = X (Proc.devRef .tc main_v37) := by
  simp only [hostOps8, List.take_succ_cons, List.take_zero]
  after_results
set_option maxHeartbeats 4000000 in
/-- The next fourteen test the wrapped column against 0 … 99999, row by row, and repeat the verdict across the columns:
    where every wrapped index passes, the verdict is good everywhere. -/
theorem take_mask (Y : Valuation τ sig (Elt Ideal))
    (hK : ∀ k : S1600000x1.Idx, IntOp.andi (IntOp.cmpi .sge ((Y (Proc.devRef .tc main_call3_v5) : IVec S1600000x1 32) k) 0#32)
        (IntOp.cmpi .sle ((Y (Proc.devRef .tc main_call3_v5) : IVec S1600000x1 32) k) 99999#32) = 1#1)
    (i : S1600000x128.Idx) :
    (StableHlo.after ((hostOps8.drop 8).take 14) Y (Proc.devRef .tc main_call3_v14) : IVec S1600000x128 1) i = 1#1 := by
  simp only [hostOps8, List.drop_succ_cons, List.drop_zero, List.take_succ_cons, List.take_zero]
  after_results
  simp only [ofBuf_toBuf]
  refine (congrFun (cast_eq _ _) i).trans ?_
  unfold broadcastInDim
  rw [Host.reduce_eq_foldl]
  exact Take.foldl_andi_ones _ _ fun n _ => hK _
set_option maxHeartbeats 4000000 in
/-- … gather the rows at the wrapped column … -/
theorem take_rows (Y : Valuation τ sig (Elt Ideal)) :
    StableHlo.after ((hostOps8.drop 8).take 14) Y (Proc.devRef .tc main_call3_v13) = Host.gather gather_S100000x128_S1600000x1_S1600000x128_1_0_n_n_0_1_1128 (Y (Proc.devRef .tc main_v37)) (Y (Proc.devRef .tc main_call3_v5)) := by
  simp only [hostOps8, List.drop_succ_cons, List.drop_zero, List.take_succ_cons, List.take_zero]
  after_results
  rfl
/-- The last keeps a gathered row where its verdict is good and the fill elsewhere. -/
theorem take_last (Z : Valuation τ sig (Elt Ideal)) :
    StableHlo.after ((hostOps8.drop 8).drop 14) Z (Proc.devRef .tc main_v38) = select (Z (Proc.devRef .tc main_call3_v14)) (Z (Proc.devRef .tc main_call3_v13)) (Z (Proc.devRef .tc main_call3_v15)) := by
  simp only [hostOps8, List.drop_succ_cons, List.drop_zero, List.take_succ_cons, List.take_zero]
  after_results
  rfl
/-- The second host stretch gathers each edge's source row through a guard that, for source indices in range, passes
    every row: what it leaves is the plain gather at the wrapped indices. -/
theorem msg_of (X : Valuation τ sig (Elt Ideal)) (hs : Take.InRange (X (Proc.devRef .tc main_v1))) :
    StableHlo.after hostOps8 X (Proc.devRef .tc main_v38) = Ref.msgs (F := Ideal) (X (Proc.devRef .tc main_v37)) (X (Proc.devRef .tc main_v1)) := by
  rw [← List.take_append_drop 8 (hostOps8 (F := Ideal)), after_append (nD := nD),
    ← List.take_append_drop 14 ((hostOps8 (F := Ideal)).drop 8), after_append (nD := nD), take_last]
  funext i
  rw [ValueIdx.select_apply, take_mask _ (fun k => by rw [take_idx]; exact Take.wrap_word _ (hs _).1 (hs _).2) i]
  unfold Scalar.select
  rw [if_pos (show (1#1 : BitVec 1) = 1 from rfl), take_rows, take_idx, take_hw]
  rfl

/-- The third host stretch adds every edge's message into its destination node's row, from zero … -/
theorem agg_of (X : Valuation τ sig (Elt Ideal)) : StableHlo.after hostOps8_1 X (Proc.devRef .tc main_v41) = Ref.agg (F := Ideal) (X (Proc.devRef .tc main_v3)) (X (Proc.devRef .tc main_v38)) := by
  after_results
  rfl
/-- … and slices the layer's bias out of the stacked four. -/
theorem gb_of (X : Valuation τ sig (Elt Ideal)) : StableHlo.after hostOps8_1 X (Proc.devRef .tc main_v43) = Ref.gb3 (F := Ideal) (X (Proc.devRef .tc main_arg9)) := by
  after_results
  rfl
/-- The projection region leaves every node's features times the weights. -/
theorem hw_at (c : Dev nD) : W19 m ρ c (Proc.devRef .tc main_v37) = Ref.mm128 (F := Ideal) (W18 m ρ c (Proc.devRef .tc main_v34)) (W18 m ρ c (Proc.devRef .tc main_v36)) :=
  (W19_arr m ρ c 2).trans (K7.final7 (V18 m ρ) c)
/-- The bias region leaves the biased sums' positive part. -/
theorem hout_at (c : Dev nD) : W22 m ρ c (Proc.devRef .tc main_v44) = Ref.biasRelu (F := Ideal) (W21 m ρ c (Proc.devRef .tc main_v41)) (W21 m ρ c (Proc.devRef .tc main_v43)) :=
  (W22_arr m ρ c 2).trans (K8.final8 (V21 m ρ) c)

/-- The layer: with the source indices in range, from features `h` in the layer's input buffer to the reference's
    layer of `h` in its output buffer. -/
theorem layer3 (c : Dev nD) (hs : Take.InRange (Ref.src (m ((c.tc : Thread nD τ).loc main_arg1))))
    (h : FVec Ideal Cert.ReferenceIdeal.S100000x128 .f32) (hin : W17 m ρ c (Proc.devRef .tc main_v34) = h) :
    W22 m ρ c (Proc.devRef .tc main_v44) = Ref.layer (F := Ideal) h (Ref.gw3 (m ((c.tc : Thread nD τ).loc main_arg8))) (Ref.gb3 (m ((c.tc : Thread nD τ).loc main_arg9))) (m ((c.tc : Thread nD τ).loc main_arg1)) := by
  have e8 : W17 m ρ c (Proc.devRef .tc main_arg8) = (m ((c.tc : Thread nD τ).loc main_arg8)) :=
    (keep17 m ρ c main_arg8 (by simp [quiet])).trans (h0_arg8 (W0 m ρ c))
  have e9 : W20 m ρ c (Proc.devRef .tc main_arg9) = (m ((c.tc : Thread nD τ).loc main_arg9)) :=
    (keep20 m ρ c main_arg9 (by simp [quiet])).trans (h0_arg9 (W0 m ρ c))
  have es : W19 m ρ c (Proc.devRef .tc main_v1) = Ref.src (m ((c.tc : Thread nD τ).loc main_arg1)) :=
    (keep19 m ρ c main_v1 (by simp [quiet])).trans (h0_src (W0 m ρ c))
  have ed : W20 m ρ c (Proc.devRef .tc main_v3) = Ref.dst (m ((c.tc : Thread nD τ).loc main_arg1)) :=
    (keep20 m ρ c main_v3 (by simp [quiet])).trans (h0_dst (W0 m ρ c))
  have e1 : W18 m ρ c (Proc.devRef .tc main_v36) = Ref.gw3 (F := Ideal) (m ((c.tc : Thread nD τ).loc main_arg8)) := (gw_of (W17 m ρ c)).trans (congrArg _ e8)
  have e2 : W18 m ρ c (Proc.devRef .tc main_v34) = h := (hin_of (W17 m ρ c)).trans hin
  have e3 : W19 m ρ c (Proc.devRef .tc main_v37) = Ref.mm128 (F := Ideal) h (Ref.gw3 (m ((c.tc : Thread nD τ).loc main_arg8))) := by
    rw [hw_at, e1, e2]
  have e4 : W20 m ρ c (Proc.devRef .tc main_v38) = Ref.msgs (F := Ideal) (Ref.mm128 h (Ref.gw3 (m ((c.tc : Thread nD τ).loc main_arg8)))) (Ref.src (m ((c.tc : Thread nD τ).loc main_arg1))) := by
    rw [show W20 m ρ c (Proc.devRef .tc main_v38) = _ from msg_of (W19 m ρ c) (by rw [es]; exact hs), e3, es]
  have e5 : W21 m ρ c (Proc.devRef .tc main_v41) = Ref.agg (F := Ideal) (Ref.dst (m ((c.tc : Thread nD τ).loc main_arg1))) (Ref.msgs (Ref.mm128 h (Ref.gw3 (m ((c.tc : Thread nD τ).loc main_arg8)))) (Ref.src (m ((c.tc : Thread nD τ).loc main_arg1)))) := by
    rw [show W21 m ρ c (Proc.devRef .tc main_v41) = _ from agg_of (W20 m ρ c), ed, e4]
  have e6 : W21 m ρ c (Proc.devRef .tc main_v43) = Ref.gb3 (F := Ideal) (m ((c.tc : Thread nD τ).loc main_arg9)) := (gb_of (W20 m ρ c)).trans (congrArg _ e9)
  rw [hout_at, e5, e6]
  rfl

end Cert.Hand.Fold.L3

end
-- ==== Proof.Region0.lean ====
/- The encoder region: a block of 2000 rows through the four dense layers is that block of rows of the whole arrays through
   them, a row's output depending on that row alone; after the 50 grid points the output array holds the encoder of all rows. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K0
open Idealize.ShloMosaic Idealize.ShloMosaic.TcCoe Idealize.SL.Sem Idealize.ShloMosaic.ValueIdx
open Idealize.ShloMosaic.Pipeline (Dat)

/-! ## The layers in coordinates -/

/-- One dense layer in coordinates: row `p` against column `c` of the weights, summed over the inner axis, plus the bias at `c`. -/
def dense {m K n : ℕ} (x : (⟨2, ![m, K]⟩ : Shape).Idx → EReal) (w : (⟨2, ![K, n]⟩ : Shape).Idx → EReal)
    (b : (⟨1, ![n]⟩ : Shape).Idx → EReal) : (⟨2, ![m, n]⟩ : Shape).Idx → EReal :=
  fun j => (∑ k : Fin K, x (ix2 (j 0) k) * w (ix2 k (j 1))) + b (ix1 (j 1))

/-- The positive part, element by element. -/
def pos {s : Shape} (x : s.Idx → EReal) : s.Idx → EReal := fun j => max (x j) 0

/-- Matrix `i` of a stack of matrices. -/
def mat {N a b : ℕ} (i : Fin N) (W : (⟨3, ![N, a, b]⟩ : Shape).Idx → EReal) : (⟨2, ![a, b]⟩ : Shape).Idx → EReal :=
  fun j => W (ix3 i (j 0) (j 1))

/-- Row `i` of a stack of rows. -/
def row {N a : ℕ} (i : Fin N) (B : (⟨2, ![N, a]⟩ : Shape).Idx → EReal) : (⟨1, ![a]⟩ : Shape).Idx → EReal :=
  fun j => B (ix2 i (j 0))

/-- Rows `2000 t, …, 2000 t + 1999` of an array of 100000 rows. -/
def rows {n : ℕ} (t : ℕ) (ht : t < 50) (X : (⟨2, ![100000, n]⟩ : Shape).Idx → EReal) : (⟨2, ![2000, n]⟩ : Shape).Idx → EReal :=
  fun j => X (ix2 ⟨2000 * t + (j 0).val, by have := idx2_lt0 j; omega⟩ (j 1))

/-- A row of a dense layer's output depends on that row of its input alone. -/
theorem dense_rows {K n : ℕ} (t : ℕ) (ht : t < 50) (X : (⟨2, ![100000, K]⟩ : Shape).Idx → EReal) (w : (⟨2, ![K, n]⟩ : Shape).Idx → EReal)
    (b : (⟨1, ![n]⟩ : Shape).Idx → EReal) : dense (rows t ht X) w b = rows t ht (dense X w b) := rfl

theorem pos_rows {n : ℕ} (t : ℕ) (ht : t < 50) (X : (⟨2, ![100000, n]⟩ : Shape).Idx → EReal) : pos (rows t ht X) = rows t ht (pos X) := rfl

/-- The encoder in coordinates, on any number of rows. -/
def encM {m : ℕ} (x : (⟨2, ![m, 7]⟩ : Shape).Idx → EReal) (w0 : (⟨2, ![7, 256]⟩ : Shape).Idx → EReal) (b0 : (⟨1, ![256]⟩ : Shape).Idx → EReal)
    (wh : (⟨3, ![2, 256, 256]⟩ : Shape).Idx → EReal) (bh : (⟨2, ![2, 256]⟩ : Shape).Idx → EReal)
    (wl : (⟨2, ![256, 128]⟩ : Shape).Idx → EReal) (bl : (⟨1, ![128]⟩ : Shape).Idx → EReal) : (⟨2, ![m, 128]⟩ : Shape).Idx → EReal :=
  dense (pos (dense (pos (dense (pos (dense x w0 b0)) (mat 0 wh) (row 0 bh))) (mat 1 wh) (row 1 bh))) wl bl

theorem encM_rows (t : ℕ) (ht : t < 50) (X : (⟨2, ![100000, 7]⟩ : Shape).Idx → EReal) (w0 : (⟨2, ![7, 256]⟩ : Shape).Idx → EReal) (b0 : (⟨1, ![256]⟩ : Shape).Idx → EReal)
    (wh : (⟨3, ![2, 256, 256]⟩ : Shape).Idx → EReal) (bh : (⟨2, ![2, 256]⟩ : Shape).Idx → EReal)
    (wl : (⟨2, ![256, 128]⟩ : Shape).Idx → EReal) (bl : (⟨1, ![128]⟩ : Shape).Idx → EReal) :
    encM (rows t ht X) w0 b0 wh bh wl bl = rows t ht (encM X w0 b0 wh bh wl bl) := by
  unfold encM
  rw [dense_rows, pos_rows, dense_rows, pos_rows, dense_rows, pos_rows, dense_rows]

/-! ## A matrix product's sum over the contraction index, re-indexed by the inner coordinate -/

theorem dot_sum {m K n : ℕ} (D : DotDims ⟨2, ![m, K]⟩ ⟨2, ![K, n]⟩ ⟨2, ![m, n]⟩) (hr : D.contr.rank = 1)
    (hs : D.contr.size ⟨0, by omega⟩ = K)
    (l0 : ∀ i q, (D.lhsIdx i q 0).val = (i 0).val)
    (l1 : ∀ i q, (D.lhsIdx i q 1).val = (q ⟨0, by omega⟩).val)
    (r0 : ∀ i q, (D.rhsIdx i q 0).val = (q ⟨0, by omega⟩).val)
    (r1 : ∀ i q, (D.rhsIdx i q 1).val = (i 1).val)
    (x : (⟨2, ![m, K]⟩ : Shape).Idx → EReal) (w : (⟨2, ![K, n]⟩ : Shape).Idx → EReal) (p : Fin m) (c : Fin n) :
    ∑ q : D.contr.Idx, x (D.lhsIdx (ix2 p c) q) * w (D.rhsIdx (ix2 p c) q) = ∑ k : Fin K, x (ix2 p k) * w (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- The kernel's matrix product into a zero accumulator, then the bias row on every row: the dense layer. -/
theorem kdense {m K n : ℕ} {φ₁ φ₂ : FTy} (D : DotDims ⟨2, ![m, K]⟩ ⟨2, ![K, n]⟩ ⟨2, ![m, n]⟩) (hr : D.contr.rank = 1)
    (hs : D.contr.size ⟨0, by omega⟩ = K)
    (l0 : ∀ i q, (D.lhsIdx i q 0).val = (i 0).val)
    (l1 : ∀ i q, (D.lhsIdx i q 1).val = (q ⟨0, by omega⟩).val)
    (r0 : ∀ i q, (D.rhsIdx i q 0).val = (q ⟨0, by omega⟩).val)
    (r1 : ∀ i q, (D.rhsIdx i q 1).val = (i 1).val)
    (x : FVec Ideal ⟨2, ![m, K]⟩ φ₁) (w : FVec Ideal ⟨2, ![K, n]⟩ φ₂) (b : FVec Ideal ⟨1, ![n]⟩ .f32)
    (h1 : (⟨1, ![n]⟩ : Shape).ShapeCasts ⟨2, ![1, n]⟩) (h2 : (⟨2, ![1, n]⟩ : Shape).Broadcasts ⟨2, ![m, n]⟩) :
    addf (matmul D none x w (constant (F := Ideal) ⟨2, ![m, n]⟩ .f32 0x00000000#32)) (broadcastTo ⟨2, ![m, n]⟩ (shapeCast ⟨2, ![1, n]⟩ b h1) h2)
      = dense x w b := by
  funext j
  obtain ⟨p, c, rfl⟩ : ∃ (p : Fin m) (c : Fin n), j = ix2 p c := ⟨j 0, j 1, eq_ix2 j⟩
  rw [addf_apply]
  simp only [matmul]
  rw [Ideal.matmul_constant_zero_apply, dot_sum D hr hs l0 l1 r0 r1, broadcastTo_1b_ab_apply, shapeCast_a_1a_apply]
  rfl

/-- The host's matrix product, then the bias row on every row: the dense layer. -/
theorem hdense {m K n : ℕ} (D : DotDims ⟨2, ![m, K]⟩ ⟨2, ![K, n]⟩ ⟨2, ![m, n]⟩) (hr : D.contr.rank = 1)
    (hs : D.contr.size ⟨0, by omega⟩ = K)
    (l0 : ∀ i q, (D.lhsIdx i q 0).val = (i 0).val)
    (l1 : ∀ i q, (D.lhsIdx i q 1).val = (q ⟨0, by omega⟩).val)
    (r0 : ∀ i q, (D.rhsIdx i q 0).val = (q ⟨0, by omega⟩).val)
    (r1 : ∀ i q, (D.rhsIdx i q 1).val = (i 1).val)
    (hn : n ≠ 1) (x : FVec Ideal ⟨2, ![m, K]⟩ .f32) (w : FVec Ideal ⟨2, ![K, n]⟩ .f32) (b : FVec Ideal ⟨1, ![n]⟩ .f32)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) :
    addf (Host.dotGeneral D none x w) (broadcastInDim ⟨2, ![m, n]⟩ ![0, 1] h2 (broadcastInDim ⟨2, ![1, n]⟩ ![1] h1 b))
      = dense x w b := by
  funext j
  obtain ⟨p, c, rfl⟩ : ∃ (p : Fin m) (c : Fin n), j = ix2 p c := ⟨j 0, j 1, eq_ix2 j⟩
  rw [addf_apply]
  simp only [Host.dotGeneral]
  rw [Ideal.dotGeneral_apply, dot_sum D hr hs l0 l1 r0 r1]
  refine congrArg (_ + ·) ?_
  refine (broadcastInDim_apply _ h2 _ (ix2 p c) (ix2 (0 : Fin 1) c) fun a => ?_).trans ?_
  · match a with
    | ⟨0, _⟩ => show 0 = if (1 : ℕ) = 1 then 0 else p.val; rw [if_pos rfl]
    | ⟨1, _⟩ => show c.val = if n = 1 then 0 else c.val; rw [if_neg hn]
  · refine broadcastInDim_apply _ h1 b (ix2 (0 : Fin 1) c) (ix1 c) fun a => ?_
    match a with
    | ⟨0, _⟩ => show c.val = if n = 1 then 0 else c.val; rw [if_neg hn]

/-- The maximum with a splat of the zero word: the positive part. -/
theorem kpos {s : Shape} (y : FVec Ideal s .f32) :
    maximumf y (broadcast s (Scalar.ofBits (F := Ideal) .f32 0x00000000#32)) = pos y := by
  funext j
  show max (y j) (Ideal.ofBits .f32 0x00000000#32) = max (y j) 0
  rw [Ideal.ofBits_zero_f32]

/-- A narrowing of the format changes nothing: there is no rounding. -/
theorem truncf_id {s : Shape} (v : FVec Ideal s .f32) (h : FTy.bf16.bits < FTy.f32.bits) : (truncf .bf16 v h : FVec Ideal s .bf16) = v := rfl

theorem hpos {s : Shape} (y : FVec Ideal s .f32) (h : (⟨0, ![]⟩ : Shape).BroadcastsInDim s (![] : Fin 0 → Fin s.rank)) :
    maximumf y (broadcastInDim s ![] h (constant (F := Ideal) ⟨0, ![]⟩ .f32 0x00000000#32)) = pos y := by
  funext j
  show max (y j) _ = max (y j) 0
  rw [broadcastInDim_apply _ h _ j ix0 (fun a => a.elim0)]
  show max (y j) (Ideal.ofBits .f32 0x00000000#32) = max (y j) 0
  rw [Ideal.ofBits_zero_f32]

/-! ## The kernel's side: the block's arithmetic is the encoder in coordinates, on the block's rows -/

section Kernel
open Cert.KernelIdeal Cert.KernelIdeal.Gen

theorem kd7_l0 (i : _) (q : dot_S2000x7_S7x256_S2000x256_1_0_0_1_n_n.contr.Idx) : (dot_S2000x7_S7x256_S2000x256_1_0_0_1_n_n.lhsIdx i q 0).val = (i 0).val := by
  unfold DotDims.lhsIdx
  rw [dif_neg (show ¬(0 : Fin S2000x7.rank) ∈ dot_S2000x7_S7x256_S2000x256_1_0_0_1_n_n.lhsBatch by decide), dif_pos (show (0 : Fin S2000x7.rank) ∈ dot_S2000x7_S7x256_S2000x256_1_0_0_1_n_n.lhsNonContracting by decide)]
  rfl
theorem kd7_l1 (i : _) (q : dot_S2000x7_S7x256_S2000x256_1_0_0_1_n_n.contr.Idx) : (dot_S2000x7_S7x256_S2000x256_1_0_0_1_n_n.lhsIdx i q 1).val = (q ⟨0, by decide⟩).val :=
  dot_S2000x7_S7x256_S2000x256_1_0_0_1_n_n.lhsIdx_val_of_single rfl i q
theorem kd7_r0 (i : _) (q : dot_S2000x7_S7x256_S2000x256_1_0_0_1_n_n.contr.Idx) : (dot_S2000x7_S7x256_S2000x256_1_0_0_1_n_n.rhsIdx i q 0).val = (q ⟨0, by decide⟩).val :=
  dot_S2000x7_S7x256_S2000x256_1_0_0_1_n_n.rhsIdx_val_of_single rfl i q
theorem kd7_r1 (i : _) (q : dot_S2000x7_S7x256_S2000x256_1_0_0_1_n_n.contr.Idx) : (dot_S2000x7_S7x256_S2000x256_1_0_0_1_n_n.rhsIdx i q 1).val = (i 1).val := by
  unfold DotDims.rhsIdx
  rw [dif_neg (show ¬(1 : Fin S7x256.rank) ∈ dot_S2000x7_S7x256_S2000x256_1_0_0_1_n_n.rhsBatch by decide), dif_pos (show (1 : Fin S7x256.rank) ∈ dot_S2000x7_S7x256_S2000x256_1_0_0_1_n_n.rhsNonContracting by decide)]
  rfl

theorem kd256_l0 (i : _) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem kd256_l1 (i : _) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem kd256_r0 (i : _) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem kd256_r1 (i : _) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem kd128_l0 (i : _) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem kd128_l1 (i : _) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem kd128_r0 (i : _) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem kd128_r1 (i : _) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The first three layers of the block. -/
theorem pay2_eq (v0 : FVec Ideal S2000x7 .f32) (v2 : FVec Ideal S7x256 .f32) (v5 : FVec Ideal S256 .f32) (v12 : FVec Ideal S1x256x256 .f32) (v16 : FVec Ideal S1x256 .f32) (v24 : FVec Ideal S1x256x256 .f32) (v28 : FVec Ideal S1x256 .f32) :
    k0_pay2 (F := Ideal) v0 v2 v5 v12 v16 v24 v28 = pos (dense (pos (dense (pos (dense v0 v2 v5)) (shapeCast S256x256 v12 shapeCasts_S1x256x256_S256x256) (shapeCast S256 v16 shapeCasts_S1x256_S256))) (shapeCast S256x256 v24 shapeCasts_S1x256x256_S256x256) (shapeCast S256 v28 shapeCasts_S1x256_S256)) := by
  unfold k0_pay2
  dsimp only
  simp only [kdense dot_S2000x7_S7x256_S2000x256_1_0_0_1_n_n rfl rfl kd7_l0 kd7_l1 kd7_r0 kd7_r1, kdense dot_S2000x256_S256x256_S2000x256_1_0_0_1_n_n rfl rfl kd256_l0 kd256_l1 kd256_r0 kd256_r1, kpos, truncf_id]

/-- The last layer of the block. -/
theorem pay1_eq (v35 : FVec Ideal S2000x256 .bf16) (v36 : FVec Ideal S256x128 .f32) (v39 : FVec Ideal S128 .f32) :
    k0_pay1 (F := Ideal) v35 v36 v39 = dense v35 v36 v39 := by
  unfold k0_pay1
  dsimp only
  simp only [kdense dot_S2000x256_S256x128_S2000x128_1_0_0_1_n_n rfl rfl kd128_l0 kd128_l1 kd128_r0 kd128_r1, truncf_id]

/-- Matrix `0` of the stacked hidden weights, as the block loads it. -/
theorem mat0_ld (x3 : Vec Ideal S2x256x256 .f32) : shapeCast S256x256 (View.ld x3 r0_3 : Vec Ideal S1x256x256 .f32) shapeCasts_S1x256x256_S256x256 = mat 0 x3 := by
  funext j
  obtain ⟨i, k, rfl⟩ : ∃ (i : Fin 256) (k : Fin 256), j = ix2 i k := ⟨j 0, j 1, eq_ix2 j⟩
  refine (shapeCast_1ab_ab_apply (View.ld x3 r0_3 : Vec Ideal S1x256x256 .f32) _ i k).trans ?_
  show x3 (r0_3.idx (ix3 (0 : Fin 1) i k)) = x3 (ix3 (0 : Fin 2) i k)
  refine congrArg x3 (funext fun a => Fin.ext ?_)
  match a with
  | ⟨0, _⟩ => rfl
  | ⟨1, _⟩ => show 0 + 1 * i.val = i.val; omega
  | ⟨2, _⟩ => show 0 + 1 * k.val = k.val; omega

theorem mat1_ld (x3 : Vec Ideal S2x256x256 .f32) : shapeCast S256x256 (View.ld x3 r0_5 : Vec Ideal S1x256x256 .f32) shapeCasts_S1x256x256_S256x256 = mat 1 x3 := by
  funext j
  obtain ⟨i, k, rfl⟩ : ∃ (i : Fin 256) (k : Fin 256), j = ix2 i k := ⟨j 0, j 1, eq_ix2 j⟩
  refine (shapeCast_1ab_ab_apply (View.ld x3 r0_5 : Vec Ideal S1x256x256 .f32) _ i k).trans ?_
  show x3 (r0_5.idx (ix3 (0 : Fin 1) i k)) = x3 (ix3 (1 : Fin 2) i k)
  refine congrArg x3 (funext fun a => Fin.ext ?_)
  match a with
  | ⟨0, _⟩ => rfl
  | ⟨1, _⟩ => show 0 + 1 * i.val = i.val; omega
  | ⟨2, _⟩ => show 0 + 1 * k.val = k.val; omega

/-- Row `0` of the stacked hidden biases, as the block loads it. -/
theorem row0_ld (x4 : Vec Ideal S2x256 .f32) : shapeCast S256 (View.ld x4 r0_4 : Vec Ideal S1x256 .f32) shapeCasts_S1x256_S256 = row 0 x4 := by
  funext j
  obtain ⟨i, rfl⟩ : ∃ (i : Fin 256), j = ix1 i := ⟨j 0, eq_ix1 j⟩
  refine (shapeCast_1a_a_apply (View.ld x4 r0_4 : Vec Ideal S1x256 .f32) _ i).trans ?_
  show x4 (r0_4.idx (ix2 (0 : Fin 1) i)) = x4 (ix2 (0 : Fin 2) i)
  refine congrArg x4 (funext fun a => Fin.ext ?_)
  match a with
  | ⟨0, _⟩ => rfl
  | ⟨1, _⟩ => show 0 + 1 * i.val = i.val; omega

theorem row1_ld (x4 : Vec Ideal S2x256 .f32) : shapeCast S256 (View.ld x4 r0_6 : Vec Ideal S1x256 .f32) shapeCasts_S1x256_S256 = row 1 x4 := by
  funext j
  obtain ⟨i, rfl⟩ : ∃ (i : Fin 256), j = ix1 i := ⟨j 0, eq_ix1 j⟩
  refine (shapeCast_1a_a_apply (View.ld x4 r0_6 : Vec Ideal S1x256 .f32) _ i).trans ?_
  show x4 (r0_6.idx (ix2 (0 : Fin 1) i)) = x4 (ix2 (1 : Fin 2) i)
  refine congrArg x4 (funext fun a => Fin.ext ?_)
  match a with
  | ⟨0, _⟩ => rfl
  | ⟨1, _⟩ => show 0 + 1 * i.val = i.val; omega

theorem hz1 : (![0] : Fin 1 → Nat) = fun _ => 0 := funext fun a => by fin_cases a <;> rfl
theorem hz2 : (![0, 0] : Fin 2 → Nat) = fun _ => 0 := funext fun a => by fin_cases a <;> rfl

/-- What the body leaves in the output's staging buffer: the encoder of the loaded blocks. -/
theorem out_eq (x0 : Vec Ideal S2000x7 .f32) (x1 : Vec Ideal S7x256 .f32) (x2 : Vec Ideal S256 .f32) (x3 : Vec Ideal S2x256x256 .f32) (x4 : Vec Ideal S2x256 .f32) (x5 : Vec Ideal S256x128 .f32) (x6 : Vec Ideal S128 .f32) :
    out0_7 (F := Ideal) x0 x1 x2 x3 x4 x5 x6 = encM x0 x1 x2 x3 x4 x5 x6 := by
  unfold out0_7
  rw [View.canon_unit_zero hz2]
  simp only [View.ld_unit_zero (S := S2000x7) hz2, View.ld_unit_zero (S := S7x256) hz2, View.ld_unit_zero (S := S256) hz1, View.ld_unit_zero (S := S256x128) hz2, View.ld_unit_zero (S := S128) hz1]
  rw [pay2_eq, pay1_eq, mat0_ld, mat1_ld, row0_ld, row1_ld]
  rfl
end Kernel

/-! ## The reference's side: its encoder is the encoder in coordinates, on all rows -/

section Reference
open Cert.ReferenceIdeal Cert.ReferenceIdeal.Facts₀ Cert.ReferenceIdeal.Facts Cert.ReferenceIdeal.Read

theorem wh0_eq (W : FVec Ideal S2x256x256 .f32) : Ref.wh0 (F := Ideal) W = mat 0 W := by
  funext j
  obtain ⟨i, k, rfl⟩ : ∃ (i : Fin 256) (k : Fin 256), j = ix2 i k := ⟨j 0, j 1, eq_ix2 j⟩
  unfold Ref.wh0
  refine (shapeCast_1ab_ab_apply _ _ i k).trans ?_
  refine extractStridedSlice_apply _ W _ (ix3 (0 : Fin 1) i k) (ix3 (0 : Fin 2) i k) fun a => ?_
  match a with
  | ⟨0, _⟩ => rfl
  | ⟨1, _⟩ => show i.val = 0 + i.val; omega
  | ⟨2, _⟩ => show k.val = 0 + k.val; omega

theorem wh1_eq (W : FVec Ideal S2x256x256 .f32) : Ref.wh1 (F := Ideal) W = mat 1 W := by
  funext j
  obtain ⟨i, k, rfl⟩ : ∃ (i : Fin 256) (k : Fin 256), j = ix2 i k := ⟨j 0, j 1, eq_ix2 j⟩
  unfold Ref.wh1
  refine (shapeCast_1ab_ab_apply _ _ i k).trans ?_
  refine extractStridedSlice_apply _ W _ (ix3 (0 : Fin 1) i k) (ix3 (1 : Fin 2) i k) fun a => ?_
  match a with
  | ⟨0, _⟩ => rfl
  | ⟨1, _⟩ => show i.val = 0 + i.val; omega
  | ⟨2, _⟩ => show k.val = 0 + k.val; omega

theorem bh0_eq (b : FVec Ideal S2x256 .f32) : Ref.bh0 (F := Ideal) b = row 0 b := by
  funext j
  obtain ⟨i, rfl⟩ : ∃ (i : Fin 256), j = ix1 i := ⟨j 0, eq_ix1 j⟩
  unfold Ref.bh0
  refine (shapeCast_1a_a_apply _ _ i).trans ?_
  refine extractStridedSlice_apply _ b _ (ix2 (0 : Fin 1) i) (ix2 (0 : Fin 2) i) fun a => ?_
  match a with
  | ⟨0, _⟩ => rfl
  | ⟨1, _⟩ => show i.val = 0 + i.val; omega

theorem bh1_eq (b : FVec Ideal S2x256 .f32) : Ref.bh1 (F := Ideal) b = row 1 b := by
  funext j
  obtain ⟨i, rfl⟩ : ∃ (i : Fin 256), j = ix1 i := ⟨j 0, eq_ix1 j⟩
  unfold Ref.bh1
  refine (shapeCast_1a_a_apply _ _ i).trans ?_
  refine extractStridedSlice_apply _ b _ (ix2 (0 : Fin 1) i) (ix2 (1 : Fin 2) i) fun a => ?_
  match a with
  | ⟨0, _⟩ => rfl
  | ⟨1, _⟩ => show i.val = 0 + i.val; omega

theorem relu256_eq (x : FVec Ideal S100000x256 .f32) : Ref.relu256 (F := Ideal) x = pos x := by
  unfold Ref.relu256
  exact hpos x _

theorem enc_eq (X : FVec Ideal S100000x7 .f32) (W0 : FVec Ideal S7x256 .f32) (b0 : FVec Ideal S256 .f32) (Wh : FVec Ideal S2x256x256 .f32) (bh : FVec Ideal S2x256 .f32)
    (Wl : FVec Ideal S256x128 .f32) (bl : FVec Ideal S128 .f32) : Ref.enc (F := Ideal) X W0 b0 Wh bh Wl bl = encM X W0 b0 Wh bh Wl bl := by
  unfold Ref.enc Ref.lin7x256 Ref.lin256x256 Ref.lin256x128
  simp only [hdense dot_S100000x7_S7x256_S100000x256_1_0_0_1_n_n rfl rfl lhs_main_v4_0 lhs_main_v4_1 rhs_main_v4_0 rhs_main_v4_1 (by decide), hdense dot_S100000x256_S256x256_S100000x256_1_0_0_1_n_n rfl rfl lhs_main_v11_0 lhs_main_v11_1 rhs_main_v11_0 rhs_main_v11_1 (by decide), hdense dot_S100000x256_S256x128_S100000x128_1_0_0_1_n_n rfl rfl lhs_main_v27_0 lhs_main_v27_1 rhs_main_v27_0 rhs_main_v27_1 (by decide), relu256_eq, wh0_eq, wh1_eq, bh0_eq, bh1_eq]
  rfl
end Reference

/-! ## From the blocks to the array -/

section Blocks
open Cert.KernelIdeal Cert.KernelIdeal.Gen

/- the region's entry contents: any valuation of the TensorCore's buffers -/
variable (V : (c : Dev nD) → (b : Ref sig .tc) → Buf (Elt Ideal) ((c : Thread nD τ).loc b))

theorem hN : cfg0.N = 50 := by decide

/-- The printed index maps, decided over the grid: the row-tiled windows sit at block `(t, 0)`, every other window at block `0`. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- The input's block at point `t` is rows `2000 t …` of the input. -/
theorem blk0 (c : Dev nD) (t : Fin cfg0.N) : iblk0 V c 0 t = rows t.val (hN ▸ t.isLt) (V c main_arg0) := by
  obtain ⟨e0, e1, -⟩ := idx_facts t
  funext y
  show V c main_arg0 (((cfg0.win 0).blk t).view.emb y) = V c main_arg0 (ix2 ⟨2000 * t.val + (y 0).val, _⟩ (y 1))
  refine congrArg (V c main_arg0) (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 7 + 1 * (y 1).val = (y 1).val; omega

/-- Every weight's and bias's block is its whole array. -/
theorem blk1 (c : Dev nD) (t : Fin cfg0.N) : iblk0 V c 1 t = V c main_arg2 := by
  obtain ⟨-, -, -, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 7 + 1 * (y 0).val = (y 0).val; omega
  | ⟨1, _⟩ => show win0_1.index t (1 : Fin 2) * 256 + 1 * (y 1).val = (y 1).val; omega
theorem blk2 (c : Dev nD) (t : Fin cfg0.N) : iblk0 V c 2 t = V c main_arg3 := by
  obtain ⟨-, -, -, -, -, -, e0, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 1) * 256 + 1 * (y 0).val = (y 0).val; omega
theorem blk3 (c : Dev nD) (t : Fin cfg0.N) : iblk0 V c 3 t = V c main_arg4 := by
  obtain ⟨-, -, -, -, -, -, -, e0, e1, e2, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 3) * 2 + 1 * (y 0).val = (y 0).val; omega
  | ⟨1, _⟩ => show win0_3.index t (1 : Fin 3) * 256 + 1 * (y 1).val = (y 1).val; omega
  | ⟨2, _⟩ => show win0_3.index t (2 : Fin 3) * 256 + 1 * (y 2).val = (y 2).val; omega
theorem blk4 (c : Dev nD) (t : Fin cfg0.N) : iblk0 V c 4 t = V c main_arg5 := by
  obtain ⟨-, -, -, -, -, -, -, -, -, -, e0, e1, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 2) * 2 + 1 * (y 0).val = (y 0).val; omega
  | ⟨1, _⟩ => show win0_4.index t (1 : Fin 2) * 256 + 1 * (y 1).val = (y 1).val; omega
theorem blk5 (c : Dev nD) (t : Fin cfg0.N) : iblk0 V c 5 t = V c main_arg6 := by
  obtain ⟨-, -, -, -, -, -, -, -, -, -, -, -, e0, e1, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega
theorem blk6 (c : Dev nD) (t : Fin cfg0.N) : iblk0 V c 6 t = V c main_arg7 := by
  obtain ⟨-, -, -, -, -, -, -, -, -, -, -, -, -, -, e0⟩ := idx_facts t
  funext y
  show V c main_arg7 (((cfg0.win 6).blk t).view.emb y) = V c main_arg7 y
  refine congrArg (V c main_arg7) (funext fun a => Fin.ext ?_)
  match a with
  | ⟨0, _⟩ => show win0_6.index t (0 : Fin 1) * 128 + 1 * (y 0).val = (y 0).val; omega

/-- What point `t` writes back is block `t` of the reference's encoder of the whole arrays. -/
theorem flushed_eq (c : Dev nD) (t : Fin cfg0.N) :
    (dat0 V c).flushed 7 t = ((cfg0.win 7).blk t).view.read (Elt Ideal) (Cert.Hand.Ref.enc (F := Ideal) (V c main_arg0) (V c main_arg2) (V c main_arg3) (V c main_arg4) (V c main_arg5) (V c main_arg6) (V c main_arg7)) := by
  show (cfg0.win 7).cut (grid0.coords t) ((dat0 V c).after 7 t) = _
  have h := out_eq (iblk0 V c 0 t) (iblk0 V c 1 t) (iblk0 V c 2 t) (iblk0 V c 3 t) (iblk0 V c 4 t) (iblk0 V c 5 t) (iblk0 V c 6 t)
  rw [after0_7, h, blk0 V c t, blk1 V c t, blk2 V c t, blk3 V c t, blk4 V c t, blk5 V c t, blk6 V c t, encM_rows, enc_eq]
  generalize encM (V c main_arg0) (V c main_arg2) (V c main_arg3) (V c main_arg4) (V c main_arg5) (V c main_arg6) (V c main_arg7) = G
  obtain ⟨-, -, e0, e1, -⟩ := idx_facts t
  funext y
  show G (ix2 ⟨2000 * t.val + (y 0).val, _⟩ (y 1)) = G (((cfg0.win 7).blk t).view.emb y)
  refine congrArg G (funext fun a => Fin.ext ?_)
  match a with
  | ⟨0, _⟩ => show 2000 * t.val + (y 0).val = win0_7.index t (0 : Fin 2) * 2000 + 1 * (y 0).val; omega
  | ⟨1, _⟩ => show (y 1).val = win0_7.index t (1 : Fin 2) * 128 + 1 * (y 1).val; omega

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v4).slice (win0_7.rect t)).set ↔ _
  rw [View.set_slice_whole, Rect.mem_set_unit]
  exact Iff.rfl

/-- Row `r` is in the block of point `r / 2000`. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 2000 < cfg0.N := by rw [hN]; omega
  obtain ⟨-, -, e0, e1, -⟩ := idx_facts ⟨(i 0).val / 2000, ht⟩
  refine ⟨⟨(i 0).val / 2000, ht⟩, flush0_7 _, ?_⟩
  rw [mem_blk]
  intro a
  match a with
  | ⟨0, _⟩ => show win0_7.index ⟨(i 0).val / 2000, ht⟩ (0 : Fin 2) * 2000 ≤ (i 0).val ∧ (i 0).val < win0_7.index ⟨(i 0).val / 2000, ht⟩ (0 : Fin 2) * 2000 + 2000; simp only [e0]; omega
  | ⟨1, _⟩ => show win0_7.index ⟨(i 0).val / 2000, ht⟩ (1 : Fin 2) * 128 ≤ (i 1).val ∧ (i 1).val < win0_7.index ⟨(i 0).val / 2000, ht⟩ (1 : Fin 2) * 128 + 128; omega

/-- After the 50 grid points the output array holds the reference's encoder of all rows. -/
theorem final0 (c : Dev nD) : (dat0 V c).arrAt 7 cfg0.N =
    Cert.Hand.Ref.enc (F := Ideal) (V c main_arg0) (V c main_arg2) (V c main_arg3) (V c main_arg4) (V c main_arg5) (V c main_arg6) (V c main_arg7) :=
  (dat0 V c).arrAt_eq_of_cover 7 _ (fun t _ => flushed_eq V c t) cover
end Blocks

end Cert.Hand.K0

end
-- ==== Proof.Region9.lean ====
/- The decoder region: a block of 2000 rows through the four dense layers is that block of rows of the whole arrays through
   them; after the 50 grid points the output array holds the decoder of all rows. -/
import proofs.«424308_j12910671692012_1_alg».proof.Proof.Gen.KernelIdeal.Frame
import proofs.«424308_j12910671692012_1_alg».proof.Proof.Gen.ReferenceIdeal.Read
import proofs.«424308_j12910671692012_1_alg».proof.Proof.RefSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.K9
open Idealize.ShloMosaic Idealize.ShloMosaic.TcCoe Idealize.SL.Sem
open Idealize.ShloMosaic.Pipeline (Dat)
open Cert.KernelIdeal Cert.KernelIdeal.Gen

/- the dot's operand indices, one axis at a time: (row, k) on the left, (k, column) on the right -/
theorem lhs_k128x256_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_k128x256_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_k128x256_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_k128x256_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl
/- the sum over the contraction index, re-indexed by the column of the left operand -/
theorem sum_k128x256 {φ₁ φ₂ : FTy} (x : FVec Ideal S2000x128 φ₁) (w : FVec Ideal S128x256 φ₂) (p : Fin 2000) (q : Fin 256) :
    (∑ k : dot_S2000x128_S128x256_S2000x256_1_0_0_1_n_n.contr.Idx, x (dot_S2000x128_S128x256_S2000x256_1_0_0_1_n_n.lhsIdx (ValueIdx.ix2 p q) k) * w (dot_S2000x128_S128x256_S2000x256_1_0_0_1_n_n.rhsIdx (ValueIdx.ix2 p q) k))
      = ∑ k : Fin 128, x (ValueIdx.ix2 p k) * w (ValueIdx.ix2 k q) := by
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ValueIdx.ix2 p q) ((ValueIdx.contrEquiv1 dot_S2000x128_S128x256_S2000x256_1_0_0_1_n_n 128 rfl rfl).symm k) = ValueIdx.ix2 p k := funext fun a => Fin.ext (by
    match a with
    | ⟨0, _⟩ => exact lhs_k128x256_0 _ _
    | ⟨1, _⟩ => exact (lhs_k128x256_1 _ _).trans hk)
  have er : dot_S2000x128_S128x256_S2000x256_1_0_0_1_n_n.rhsIdx (ValueIdx.ix2 p q) ((ValueIdx.contrEquiv1 dot_S2000x128_S128x256_S2000x256_1_0_0_1_n_n 128 rfl rfl).symm k) = ValueIdx.ix2 k q := funext fun a => Fin.ext (by
    match a with
    | ⟨0, _⟩ => exact (rhs_k128x256_0 _ _).trans hk
    | ⟨1, _⟩ => exact rhs_k128x256_1 _ _)
  rw [el, er]

/- the dot's operand indices, one axis at a time: (row, k) on the left, (k, column) on the right -/
theorem lhs_r128x256_0 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x256_S100000x256_1_0_0_1_n_n.lhsBatch by decide), dif_pos (show (0 : Fin Cert.ReferenceIdeal.S100000x128.rank) ∈ Cert.ReferenceIdeal.dot_S100000x128_S128x256_S100000x256_1_0_0_1_n_n.lhsNonContracting by decide)]
  rfl
theorem lhs_r128x256_1 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.lhsIdx i q 1).val = (q ⟨0, by decide⟩).val :=
  Cert.ReferenceIdeal.dot_S100000x128_S128x256_S100000x256_1_0_0_1_n_n.lhsIdx_val_of_single rfl i q
theorem rhs_r128x256_0 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.rhsIdx i q 0).val = (q ⟨0, by decide⟩).val :=
  Cert.ReferenceIdeal.dot_S100000x128_S128x256_S100000x256_1_0_0_1_n_n.rhsIdx_val_of_single rfl i q
theorem rhs_r128x256_1 (i : Cert.ReferenceIdeal.S100000x256.Idx) (q : Cert.ReferenceIdeal.dot_S100000x128_S128x256_S100000x256_1_0_0_1_n_n.contr.Idx) :
    (Cert.ReferenceIdeal.dot_S100000x128_S128x256_S100000x256_1_0_0_1_n_n.rhsIdx i q 1).val = (i 1).val := by
  unfold DotDims.rhsIdx
  rw [dif_neg (show ¬(1 : Fin Cert.ReferenceIdeal.S128x256.rank) ∈ Cert.ReferenceIdeal.dot_S100000x128_S128x256_S100000x256_1_0_0_1_n_n.rhsBatch by decide), dif_pos (show (1 : Fin Cert.ReferenceIdeal.S128x256.rank) ∈ Cert.ReferenceIdeal.dot_S100000x128_S128x256_S100000x256_1_0_0_1_n_n.rhsNonContracting by decide)]
  rfl
/- the sum over the contraction index, re-indexed by the column of the left operand -/
theorem sum_r128x256 {φ₁ φ₂ : FTy} (x : FVec Ideal Cert.ReferenceIdeal.S100000x128 φ₁) (w : FVec Ideal Cert.ReferenceIdeal.S128x256 φ₂) (p : Fin 100000) (q : Fin 256) :
    (∑ k : Cert.ReferenceIdeal.dot_S100000x128_S128x256_S100000x256_1_0_0_1_n_n.contr.Idx, x (Cert.ReferenceIdeal.dot_S100000x128_S128x256_S100000x256_1_0_0_1_n_n.lhsIdx (ValueIdx.ix2 p q) k) * w (Cert.ReferenceIdeal.dot_S100000x128_S128x256_S100000x256_1_0_0_1_n_n.rhsIdx (ValueIdx.ix2 p q) k))
      = ∑ k : Fin 128, x (ValueIdx.ix2 p k) * w (ValueIdx.ix2 k q) := by
  rw [← Equiv.sum_comp (ValueIdx.contrEquiv1 Cert.ReferenceIdeal.dot_S100000x128_S128x256_S100000x256_1_0_0_1_n_n 128 rfl rfl).symm]
  refine Finset.sum_congr rfl fun k _ => ?_
  have hk := ValueIdx.contrEquiv1_symm_val Cert.ReferenceIdeal.dot_S100000x128_S128x256_S100000x256_1_0_0_1_n_n 128 rfl rfl k
  have el : Cert.ReferenceIdeal.dot_S100000x128_S128x256_S100000x256_1_0_0_1_n_n.lhsIdx (ValueIdx.ix2 p q) ((ValueIdx.contrEquiv1 Cert.ReferenceIdeal.dot_S100000x128_S128x256_S100000x256_1_0_0_1_n_n 128 rfl rfl).symm k) = ValueIdx.ix2 p k := funext fun a => Fin.ext (by
    match a with
    | ⟨0, _⟩ => exact lhs_r128x256_0 _ _
    | ⟨1, _⟩ => exact (lhs_r128x256_1 _ _).trans hk)
  have er : Cert.ReferenceIdeal.dot_S100000x128_S128x256_S100000x256_1_0_0_1_n_n.rhsIdx (ValueIdx.ix2 p q) ((ValueIdx.contrEquiv1 Cert.ReferenceIdeal.dot_S100000x128_S128x256_S100000x256_1_0_0_1_n_n 128 rfl rfl).symm k) = ValueIdx.ix2 k q := funext fun a => Fin.ext (by
    match a with
    | ⟨0, _⟩ => exact (rhs_r128x256_0 _ _).trans hk
    | ⟨1, _⟩ => exact rhs_r128x256_1 _ _)
  rw [el, er]

theorem kmm128x256 {φ₁ φ₂ : FTy} (x : FVec Ideal S2000x128 φ₁) (w : FVec Ideal S128x256 φ₂) (p : Fin 2000) (q : Fin 256) :
    matmul dot_S2000x128_S128x256_S2000x256_1_0_0_1_n_n none x w (constant (F := Ideal) S2000x256 .f32 0x00000000#32) (ValueIdx.ix2 p q)
      = ∑ k : Fin 128, x (ValueIdx.ix2 p k) * w (ValueIdx.ix2 k q) :=
  (Ideal.matmul_constant_zero_apply _ none x w _).trans (sum_k128x256 x w p q)

theorem rmm128x256 (x : FVec Ideal Cert.ReferenceIdeal.S100000x128 .f32) (w : FVec Ideal Cert.ReferenceIdeal.S128x256 .f32) (p : Fin 100000) (q : Fin 256) :
    Host.dotGeneral (F := Ideal) Cert.ReferenceIdeal.dot_S100000x128_S128x256_S100000x256_1_0_0_1_n_n none x w (ValueIdx.ix2 p q)
      = ∑ k : Fin 128, x (ValueIdx.ix2 p k) * w (ValueIdx.ix2 k q) := by
  simp only [Host.dotGeneral]
  exact (Ideal.dotGeneral_apply _ none _ x w _).trans (sum_r128x256 x w p q)

/- the dot's operand indices, one axis at a time: (row, k) on the left, (k, column) on the right -/
theorem lhs_k256x256_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_k256x256_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_k256x256_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_k256x256_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
/- the sum over the contraction index, re-indexed by the column of the left operand -/
theorem sum_k256x256 {φ₁ φ₂ : FTy} (x : FVec Ideal S2000x256 φ₁) (w : FVec Ideal S256x256 φ₂) (p : Fin 2000) (q : Fin 256) :
    (∑ k : dot_S2000x256_S256x256_S2000x256_1_0_0_1_n_n.contr.Idx, x (dot_S2000x256_S256x256_S2000x256_1_0_0_1_n_n.lhsIdx (ValueIdx.ix2 p q) k) * w (dot_S2000x256_S256x256_S2000x256_1_0_0_1_n_n.rhsIdx (ValueIdx.ix2 p q) k))
      = ∑ k : Fin 256, x (ValueIdx.ix2 p k) * w (ValueIdx.ix2 k q) := by
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ValueIdx.ix2 p q) ((ValueIdx.contrEquiv1 dot_S2000x256_S256x256_S2000x256_1_0_0_1_n_n 256 rfl rfl).symm k) = ValueIdx.ix2 p k := funext fun a => Fin.ext (by
    match a with
    | ⟨0, _⟩ => exact lhs_k256x256_0 _ _
    | ⟨1, _⟩ => exact (lhs_k256x256_1 _ _).trans hk)
  have er : dot_S2000x256_S256x256_S2000x256_1_0_0_1_n_n.rhsIdx (ValueIdx.ix2 p q) ((ValueIdx.contrEquiv1 dot_S2000x256_S256x256_S2000x256_1_0_0_1_n_n 256 rfl rfl).symm k) = ValueIdx.ix2 k q := funext fun a => Fin.ext (by
    match a with
    | ⟨0, _⟩ => exact (rhs_k256x256_0 _ _).trans hk
    | ⟨1, _⟩ => exact rhs_k256x256_1 _ _)
  rw [el, er]

/- the dot's operand indices, one axis at a time: (row, k) on the left, (k, column) on the right -/
theorem lhs_r256x256_0 (i : Cert.ReferenceIdeal.S100000x256.Idx) (q : Cert.ReferenceIdeal.dot_S100000x256_S256x256_S100000x256_1_0_0_1_n_n.contr.Idx) :
    (Cert.ReferenceIdeal.dot_S100000x256_S256x256_S100000x256_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x256_S100000x256_1_0_0_1_n_n.lhsBatch by decide), dif_pos (show (0 : Fin Cert.ReferenceIdeal.S100000x256.rank) ∈ Cert.ReferenceIdeal.dot_S100000x256_S256x256_S100000x256_1_0_0_1_n_n.lhsNonContracting by decide)]
  rfl
theorem lhs_r256x256_1 (i : Cert.ReferenceIdeal.S100000x256.Idx) (q : Cert.ReferenceIdeal.dot_S100000x256_S256x256_S100000x256_1_0_0_1_n_n.contr.Idx) :
    (Cert.ReferenceIdeal.dot_S100000x256_S256x256_S100000x256_1_0_0_1_n_n.lhsIdx i q 1).val = (q ⟨0, by decide⟩).val :=
  Cert.ReferenceIdeal.dot_S100000x256_S256x256_S100000x256_1_0_0_1_n_n.lhsIdx_val_of_single rfl i q
theorem rhs_r256x256_0 (i : Cert.ReferenceIdeal.S100000x256.Idx) (q : Cert.ReferenceIdeal.dot_S100000x256_S256x256_S100000x256_1_0_0_1_n_n.contr.Idx) :
    (Cert.ReferenceIdeal.dot_S100000x256_S256x256_S100000x256_1_0_0_1_n_n.rhsIdx i q 0).val = (q ⟨0, by decide⟩).val :=
  Cert.ReferenceIdeal.dot_S100000x256_S256x256_S100000x256_1_0_0_1_n_n.rhsIdx_val_of_single rfl i q
theorem rhs_r256x256_1 (i : Cert.ReferenceIdeal.S100000x256.Idx) (q : Cert.ReferenceIdeal.dot_S100000x256_S256x256_S100000x256_1_0_0_1_n_n.contr.Idx) :
    (Cert.ReferenceIdeal.dot_S100000x256_S256x256_S100000x256_1_0_0_1_n_n.rhsIdx i q 1).val = (i 1).val := by
  unfold DotDims.rhsIdx
  rw [dif_neg (show ¬(1 : Fin Cert.ReferenceIdeal.S256x256.rank) ∈ Cert.ReferenceIdeal.dot_S100000x256_S256x256_S100000x256_1_0_0_1_n_n.rhsBatch by decide), dif_pos (show (1 : Fin Cert.ReferenceIdeal.S256x256.rank) ∈ Cert.ReferenceIdeal.dot_S100000x256_S256x256_S100000x256_1_0_0_1_n_n.rhsNonContracting by decide)]
  rfl
/- the sum over the contraction index, re-indexed by the column of the left operand -/
theorem sum_r256x256 {φ₁ φ₂ : FTy} (x : FVec Ideal Cert.ReferenceIdeal.S100000x256 φ₁) (w : FVec Ideal Cert.ReferenceIdeal.S256x256 φ₂) (p : Fin 100000) (q : Fin 256) :
    (∑ k : Cert.ReferenceIdeal.dot_S100000x256_S256x256_S100000x256_1_0_0_1_n_n.contr.Idx, x (Cert.ReferenceIdeal.dot_S100000x256_S256x256_S100000x256_1_0_0_1_n_n.lhsIdx (ValueIdx.ix2 p q) k) * w (Cert.ReferenceIdeal.dot_S100000x256_S256x256_S100000x256_1_0_0_1_n_n.rhsIdx (ValueIdx.ix2 p q) k))
      = ∑ k : Fin 256, x (ValueIdx.ix2 p k) * w (ValueIdx.ix2 k q) := by
  rw [← Equiv.sum_comp (ValueIdx.contrEquiv1 Cert.ReferenceIdeal.dot_S100000x256_S256x256_S100000x256_1_0_0_1_n_n 256 rfl rfl).symm]
  refine Finset.sum_congr rfl fun k _ => ?_
  have hk := ValueIdx.contrEquiv1_symm_val Cert.ReferenceIdeal.dot_S100000x256_S256x256_S100000x256_1_0_0_1_n_n 256 rfl rfl k
  have el : Cert.ReferenceIdeal.dot_S100000x256_S256x256_S100000x256_1_0_0_1_n_n.lhsIdx (ValueIdx.ix2 p q) ((ValueIdx.contrEquiv1 Cert.ReferenceIdeal.dot_S100000x256_S256x256_S100000x256_1_0_0_1_n_n 256 rfl rfl).symm k) = ValueIdx.ix2 p k := funext fun a => Fin.ext (by
    match a with
    | ⟨0, _⟩ => exact lhs_r256x256_0 _ _
    | ⟨1, _⟩ => exact (lhs_r256x256_1 _ _).trans hk)
  have er : Cert.ReferenceIdeal.dot_S100000x256_S256x256_S100000x256_1_0_0_1_n_n.rhsIdx (ValueIdx.ix2 p q) ((ValueIdx.contrEquiv1 Cert.ReferenceIdeal.dot_S100000x256_S256x256_S100000x256_1_0_0_1_n_n 256 rfl rfl).symm k) = ValueIdx.ix2 k q := funext fun a => Fin.ext (by
    match a with
    | ⟨0, _⟩ => exact (rhs_r256x256_0 _ _).trans hk
    | ⟨1, _⟩ => exact rhs_r256x256_1 _ _)
  rw [el, er]

theorem kmm256x256 {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ValueIdx.ix2 p q)
      = ∑ k : Fin 256, x (ValueIdx.ix2 p k) * w (ValueIdx.ix2 k q) :=
  (Ideal.matmul_constant_zero_apply _ none x w _).trans (sum_k256x256 x w p q)

theorem rmm256x256 (x : FVec Ideal Cert.ReferenceIdeal.S100000x256 .f32) (w : FVec Ideal Cert.ReferenceIdeal.S256x256 .f32) (p : Fin 100000) (q : Fin 256) :
    Host.dotGeneral (F := Ideal) Cert.ReferenceIdeal.dot_S100000x256_S256x256_S100000x256_1_0_0_1_n_n none x w (ValueIdx.ix2 p q)
      = ∑ k : Fin 256, x (ValueIdx.ix2 p k) * w (ValueIdx.ix2 k q) := by
  simp only [Host.dotGeneral]
  exact (Ideal.dotGeneral_apply _ none _ x w _).trans (sum_r256x256 x w p q)

/- the dot's operand indices, one axis at a time: (row, k) on the left, (k, column) on the right -/
theorem lhs_k256x4_0 (i : S2000x4.Idx) (q : dot_S2000x256_S256x4_S2000x4_1_0_0_1_n_n.contr.Idx) :
    (dot_S2000x256_S256x4_S2000x4_1_0_0_1_n_n.lhsIdx i q 0).val = (i 0).val := by
  unfold DotDims.lhsIdx
  rw [dif_neg (show ¬(0 : Fin S2000x256.rank) ∈ dot_S2000x256_S256x4_S2000x4_1_0_0_1_n_n.lhsBatch by decide), dif_pos (show (0 : Fin S2000x256.rank) ∈ dot_S2000x256_S256x4_S2000x4_1_0_0_1_n_n.lhsNonContracting by decide)]
  rfl
theorem lhs_k256x4_1 (i : S2000x4.Idx) (q : dot_S2000x256_S256x4_S2000x4_1_0_0_1_n_n.contr.Idx) :
    (dot_S2000x256_S256x4_S2000x4_1_0_0_1_n_n.lhsIdx i q 1).val = (q ⟨0, by decide⟩).val :=
  dot_S2000x256_S256x4_S2000x4_1_0_0_1_n_n.lhsIdx_val_of_single rfl i q
theorem rhs_k256x4_0 (i : S2000x4.Idx) (q : dot_S2000x256_S256x4_S2000x4_1_0_0_1_n_n.contr.Idx) :
    (dot_S2000x256_S256x4_S2000x4_1_0_0_1_n_n.rhsIdx i q 0).val = (q ⟨0, by decide⟩).val :=
  dot_S2000x256_S256x4_S2000x4_1_0_0_1_n_n.rhsIdx_val_of_single rfl i q
theorem rhs_k256x4_1 (i : S2000x4.Idx) (q : dot_S2000x256_S256x4_S2000x4_1_0_0_1_n_n.contr.Idx) :
    (dot_S2000x256_S256x4_S2000x4_1_0_0_1_n_n.rhsIdx i q 1).val = (i 1).val := by
  unfold DotDims.rhsIdx
  rw [dif_neg (show ¬(1 : Fin S256x4.rank) ∈ dot_S2000x256_S256x4_S2000x4_1_0_0_1_n_n.rhsBatch by decide), dif_pos (show (1 : Fin S256x4.rank) ∈ dot_S2000x256_S256x4_S2000x4_1_0_0_1_n_n.rhsNonContracting by decide)]
  rfl
/- the sum over the contraction index, re-indexed by the column of the left operand -/
theorem sum_k256x4 {φ₁ φ₂ : FTy} (x : FVec Ideal S2000x256 φ₁) (w : FVec Ideal S256x4 φ₂) (p : Fin 2000) (q : Fin 4) :
    (∑ k : dot_S2000x256_S256x4_S2000x4_1_0_0_1_n_n.contr.Idx, x (dot_S2000x256_S256x4_S2000x4_1_0_0_1_n_n.lhsIdx (ValueIdx.ix2 p q) k) * w (dot_S2000x256_S256x4_S2000x4_1_0_0_1_n_n.rhsIdx (ValueIdx.ix2 p q) k))
      = ∑ k : Fin 256, x (ValueIdx.ix2 p k) * w (ValueIdx.ix2 k q) := by
  rw [← Equiv.sum_comp (ValueIdx.contrEquiv1 dot_S2000x256_S256x4_S2000x4_1_0_0_1_n_n 256 rfl rfl).symm]
  refine Finset.sum_congr rfl fun k _ => ?_
  have hk := ValueIdx.contrEquiv1_symm_val dot_S2000x256_S256x4_S2000x4_1_0_0_1_n_n 256 rfl rfl k
  have el : dot_S2000x256_S256x4_S2000x4_1_0_0_1_n_n.lhsIdx (ValueIdx.ix2 p q) ((ValueIdx.contrEquiv1 dot_S2000x256_S256x4_S2000x4_1_0_0_1_n_n 256 rfl rfl).symm k) = ValueIdx.ix2 p k := funext fun a => Fin.ext (by
    match a with
    | ⟨0, _⟩ => exact lhs_k256x4_0 _ _
    | ⟨1, _⟩ => exact (lhs_k256x4_1 _ _).trans hk)
  have er : dot_S2000x256_S256x4_S2000x4_1_0_0_1_n_n.rhsIdx (ValueIdx.ix2 p q) ((ValueIdx.contrEquiv1 dot_S2000x256_S256x4_S2000x4_1_0_0_1_n_n 256 rfl rfl).symm k) = ValueIdx.ix2 k q := funext fun a => Fin.ext (by
    match a with
    | ⟨0, _⟩ => exact (rhs_k256x4_0 _ _).trans hk
    | ⟨1, _⟩ => exact rhs_k256x4_1 _ _)
  rw [el, er]

/- the dot's operand indices, one axis at a time: (row, k) on the left, (k, column) on the right -/
theorem lhs_r256x4_0 (i : Cert.ReferenceIdeal.S100000x4.Idx) (q : Cert.ReferenceIdeal.dot_S100000x256_S256x4_S100000x4_1_0_0_1_n_n.contr.Idx) :
    (Cert.ReferenceIdeal.dot_S100000x256_S256x4_S100000x4_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x4_S100000x4_1_0_0_1_n_n.lhsBatch by decide), dif_pos (show (0 : Fin Cert.ReferenceIdeal.S100000x256.rank) ∈ Cert.ReferenceIdeal.dot_S100000x256_S256x4_S100000x4_1_0_0_1_n_n.lhsNonContracting by decide)]
  rfl
theorem lhs_r256x4_1 (i : Cert.ReferenceIdeal.S100000x4.Idx) (q : Cert.ReferenceIdeal.dot_S100000x256_S256x4_S100000x4_1_0_0_1_n_n.contr.Idx) :
    (Cert.ReferenceIdeal.dot_S100000x256_S256x4_S100000x4_1_0_0_1_n_n.lhsIdx i q 1).val = (q ⟨0, by decide⟩).val :=
  Cert.ReferenceIdeal.dot_S100000x256_S256x4_S100000x4_1_0_0_1_n_n.lhsIdx_val_of_single rfl i q
theorem rhs_r256x4_0 (i : Cert.ReferenceIdeal.S100000x4.Idx) (q : Cert.ReferenceIdeal.dot_S100000x256_S256x4_S100000x4_1_0_0_1_n_n.contr.Idx) :
    (Cert.ReferenceIdeal.dot_S100000x256_S256x4_S100000x4_1_0_0_1_n_n.rhsIdx i q 0).val = (q ⟨0, by decide⟩).val :=
  Cert.ReferenceIdeal.dot_S100000x256_S256x4_S100000x4_1_0_0_1_n_n.rhsIdx_val_of_single rfl i q
theorem rhs_r256x4_1 (i : Cert.ReferenceIdeal.S100000x4.Idx) (q : Cert.ReferenceIdeal.dot_S100000x256_S256x4_S100000x4_1_0_0_1_n_n.contr.Idx) :
    (Cert.ReferenceIdeal.dot_S100000x256_S256x4_S100000x4_1_0_0_1_n_n.rhsIdx i q 1).val = (i 1).val := by
  unfold DotDims.rhsIdx
  rw [dif_neg (show ¬(1 : Fin Cert.ReferenceIdeal.S256x4.rank) ∈ Cert.ReferenceIdeal.dot_S100000x256_S256x4_S100000x4_1_0_0_1_n_n.rhsBatch by decide), dif_pos (show (1 : Fin Cert.ReferenceIdeal.S256x4.rank) ∈ Cert.ReferenceIdeal.dot_S100000x256_S256x4_S100000x4_1_0_0_1_n_n.rhsNonContracting by decide)]
  rfl
/- the sum over the contraction index, re-indexed by the column of the left operand -/
theorem sum_r256x4 {φ₁ φ₂ : FTy} (x : FVec Ideal Cert.ReferenceIdeal.S100000x256 φ₁) (w : FVec Ideal Cert.ReferenceIdeal.S256x4 φ₂) (p : Fin 100000) (q : Fin 4) :
    (∑ k : Cert.ReferenceIdeal.dot_S100000x256_S256x4_S100000x4_1_0_0_1_n_n.contr.Idx, x (Cert.ReferenceIdeal.dot_S100000x256_S256x4_S100000x4_1_0_0_1_n_n.lhsIdx (ValueIdx.ix2 p q) k) * w (Cert.ReferenceIdeal.dot_S100000x256_S256x4_S100000x4_1_0_0_1_n_n.rhsIdx (ValueIdx.ix2 p q) k))
      = ∑ k : Fin 256, x (ValueIdx.ix2 p k) * w (ValueIdx.ix2 k q) := by
  rw [← Equiv.sum_comp (ValueIdx.contrEquiv1 Cert.ReferenceIdeal.dot_S100000x256_S256x4_S100000x4_1_0_0_1_n_n 256 rfl rfl).symm]
  refine Finset.sum_congr rfl fun k _ => ?_
  have hk := ValueIdx.contrEquiv1_symm_val Cert.ReferenceIdeal.dot_S100000x256_S256x4_S100000x4_1_0_0_1_n_n 256 rfl rfl k
  have el : Cert.ReferenceIdeal.dot_S100000x256_S256x4_S100000x4_1_0_0_1_n_n.lhsIdx (ValueIdx.ix2 p q) ((ValueIdx.contrEquiv1 Cert.ReferenceIdeal.dot_S100000x256_S256x4_S100000x4_1_0_0_1_n_n 256 rfl rfl).symm k) = ValueIdx.ix2 p k := funext fun a => Fin.ext (by
    match a with
    | ⟨0, _⟩ => exact lhs_r256x4_0 _ _
    | ⟨1, _⟩ => exact (lhs_r256x4_1 _ _).trans hk)
  have er : Cert.ReferenceIdeal.dot_S100000x256_S256x4_S100000x4_1_0_0_1_n_n.rhsIdx (ValueIdx.ix2 p q) ((ValueIdx.contrEquiv1 Cert.ReferenceIdeal.dot_S100000x256_S256x4_S100000x4_1_0_0_1_n_n 256 rfl rfl).symm k) = ValueIdx.ix2 k q := funext fun a => Fin.ext (by
    match a with
    | ⟨0, _⟩ => exact (rhs_r256x4_0 _ _).trans hk
    | ⟨1, _⟩ => exact rhs_r256x4_1 _ _)
  rw [el, er]

theorem kmm256x4 {φ₁ φ₂ : FTy} (x : FVec Ideal S2000x256 φ₁) (w : FVec Ideal S256x4 φ₂) (p : Fin 2000) (q : Fin 4) :
    matmul dot_S2000x256_S256x4_S2000x4_1_0_0_1_n_n none x w (constant (F := Ideal) S2000x4 .f32 0x00000000#32) (ValueIdx.ix2 p q)
      = ∑ k : Fin 256, x (ValueIdx.ix2 p k) * w (ValueIdx.ix2 k q) :=
  (Ideal.matmul_constant_zero_apply _ none x w _).trans (sum_k256x4 x w p q)

theorem rmm256x4 (x : FVec Ideal Cert.ReferenceIdeal.S100000x256 .f32) (w : FVec Ideal Cert.ReferenceIdeal.S256x4 .f32) (p : Fin 100000) (q : Fin 4) :
    Host.dotGeneral (F := Ideal) Cert.ReferenceIdeal.dot_S100000x256_S256x4_S100000x4_1_0_0_1_n_n none x w (ValueIdx.ix2 p q)
      = ∑ k : Fin 256, x (ValueIdx.ix2 p k) * w (ValueIdx.ix2 k q) := by
  simp only [Host.dotGeneral]
  exact (Ideal.dotGeneral_apply _ none _ x w _).trans (sum_r256x4 x w p q)

/-- One row through a dense layer: the row times the weights, plus the bias. -/
def lay {A B : ℕ} (W : Fin A → Fin B → EReal) (b : Fin B → EReal) (x : Fin A → EReal) : Fin B → EReal :=
  fun q => (∑ k : Fin A, x k * W k q) + b q
/-- The positive part of a row. -/
def pos {B : ℕ} (x : Fin B → EReal) : Fin B → EReal := fun q => max (x q) 0

theorem ref_lin128x256 (H : FVec Ideal Cert.ReferenceIdeal.S100000x128 .f32) (W : FVec Ideal Cert.ReferenceIdeal.S128x256 .f32) (b : FVec Ideal Cert.ReferenceIdeal.S256 .f32) (r : Fin 100000) (q : Fin 256) :
    Cert.Hand.Ref.lin128x256 (F := Ideal) H W b (ValueIdx.ix2 r q)
      = lay (fun k q => W (ValueIdx.ix2 k q)) (fun q => b (ValueIdx.ix1 q)) (fun k => H (ValueIdx.ix2 r k)) q := by
  unfold Cert.Hand.Ref.lin128x256
  refine (ValueIdx.addf_apply _ _ _).trans ?_
  rw [rmm128x256]
  refine congrArg (_ + ·) ?_
  refine (broadcastInDim_apply _ _ _ (ValueIdx.ix2 r q) (ValueIdx.ix2 (0 : Fin 1) q) (fun a => ?_)).trans ?_
  · match a with
    | ⟨0, _⟩ => show 0 = if (1 : Nat) = 1 then 0 else r.val; rw [if_pos rfl]
    | ⟨1, _⟩ => show q.val = if (256 : Nat) = 1 then 0 else q.val; rw [if_neg (by decide)]
  · exact broadcastInDim_apply _ _ b (ValueIdx.ix2 (0 : Fin 1) q) (ValueIdx.ix1 q) (fun a => match a with
      | ⟨0, _⟩ => by show q.val = if (256 : Nat) = 1 then 0 else q.val; rw [if_neg (by decide)])

theorem k_lin128x256 {φ₁ φ₂ : FTy} (x : FVec Ideal S2000x128 φ₁) (w : FVec Ideal S128x256 φ₂) (b1 : FVec Ideal S1x256 .f32) (p : Fin 2000) (q : Fin 256) :
    addf (matmul dot_S2000x128_S128x256_S2000x256_1_0_0_1_n_n none x w (constant (F := Ideal) S2000x256 .f32 0x00000000#32))
        (broadcastTo S2000x256 b1 broadcasts_S1x256_S2000x256) (ValueIdx.ix2 p q)
      = lay (fun k q => w (ValueIdx.ix2 k q)) (fun q => b1 (ValueIdx.ix2 (0 : Fin 1) q)) (fun k => x (ValueIdx.ix2 p k)) q := by
  refine (ValueIdx.addf_apply _ _ _).trans ?_
  rw [kmm128x256, ValueIdx.broadcastTo_1b_ab_apply]
  rfl

theorem ref_lin256x256 (H : FVec Ideal Cert.ReferenceIdeal.S100000x256 .f32) (W : FVec Ideal Cert.ReferenceIdeal.S256x256 .f32) (b : FVec Ideal Cert.ReferenceIdeal.S256 .f32) (r : Fin 100000) (q : Fin 256) :
    Cert.Hand.Ref.lin256x256 (F := Ideal) H W b (ValueIdx.ix2 r q)
      = lay (fun k q => W (ValueIdx.ix2 k q)) (fun q => b (ValueIdx.ix1 q)) (fun k => H (ValueIdx.ix2 r k)) q := by
  unfold Cert.Hand.Ref.lin256x256
  refine (ValueIdx.addf_apply _ _ _).trans ?_
  rw [rmm256x256]
  refine congrArg (_ + ·) ?_
  refine (broadcastInDim_apply _ _ _ (ValueIdx.ix2 r q) (ValueIdx.ix2 (0 : Fin 1) q) (fun a => ?_)).trans ?_
  · match a with
    | ⟨0, _⟩ => show 0 = if (1 : Nat) = 1 then 0 else r.val; rw [if_pos rfl]
    | ⟨1, _⟩ => show q.val = if (256 : Nat) = 1 then 0 else q.val; rw [if_neg (by decide)]
  · exact broadcastInDim_apply _ _ b (ValueIdx.ix2 (0 : Fin 1) q) (ValueIdx.ix1 q) (fun a => match a with
      | ⟨0, _⟩ => by show q.val = if (256 : Nat) = 1 then 0 else q.val; rw [if_neg (by decide)])

theorem k_lin256x256 {φ₁ φ₂ : FTy} (x : FVec Ideal S2000x256 φ₁) (w : FVec Ideal S256x256 φ₂) (b1 : FVec Ideal S1x256 .f32) (p : Fin 2000) (q : Fin 256) :
    addf (matmul dot_S2000x256_S256x256_S2000x256_1_0_0_1_n_n none x w (constant (F := Ideal) S2000x256 .f32 0x00000000#32))
        (broadcastTo S2000x256 b1 broadcasts_S1x256_S2000x256) (ValueIdx.ix2 p q)
      = lay (fun k q => w (ValueIdx.ix2 k q)) (fun q => b1 (ValueIdx.ix2 (0 : Fin 1) q)) (fun k => x (ValueIdx.ix2 p k)) q := by
  refine (ValueIdx.addf_apply _ _ _).trans ?_
  rw [kmm256x256, ValueIdx.broadcastTo_1b_ab_apply]
  rfl

theorem ref_lin256x4 (H : FVec Ideal Cert.ReferenceIdeal.S100000x256 .f32) (W : FVec Ideal Cert.ReferenceIdeal.S256x4 .f32) (b : FVec Ideal Cert.ReferenceIdeal.S4 .f32) (r : Fin 100000) (q : Fin 4) :
    Cert.Hand.Ref.lin256x4 (F := Ideal) H W b (ValueIdx.ix2 r q)
      = lay (fun k q => W (ValueIdx.ix2 k q)) (fun q => b (ValueIdx.ix1 q)) (fun k => H (ValueIdx.ix2 r k)) q := by
  unfold Cert.Hand.Ref.lin256x4
  refine (ValueIdx.addf_apply _ _ _).trans ?_
  rw [rmm256x4]
  refine congrArg (_ + ·) ?_
  refine (broadcastInDim_apply _ _ _ (ValueIdx.ix2 r q) (ValueIdx.ix2 (0 : Fin 1) q) (fun a => ?_)).trans ?_
  · match a with
    | ⟨0, _⟩ => show 0 = if (1 : Nat) = 1 then 0 else r.val; rw [if_pos rfl]
    | ⟨1, _⟩ => show q.val = if (4 : Nat) = 1 then 0 else q.val; rw [if_neg (by decide)]
  · exact broadcastInDim_apply _ _ b (ValueIdx.ix2 (0 : Fin 1) q) (ValueIdx.ix1 q) (fun a => match a with
      | ⟨0, _⟩ => by show q.val = if (4 : Nat) = 1 then 0 else q.val; rw [if_neg (by decide)])

theorem k_lin256x4 {φ₁ φ₂ : FTy} (x : FVec Ideal S2000x256 φ₁) (w : FVec Ideal S256x4 φ₂) (b1 : FVec Ideal S1x4 .f32) (p : Fin 2000) (q : Fin 4) :
    addf (matmul dot_S2000x256_S256x4_S2000x4_1_0_0_1_n_n none x w (constant (F := Ideal) S2000x4 .f32 0x00000000#32))
        (broadcastTo S2000x4 b1 broadcasts_S1x4_S2000x4) (ValueIdx.ix2 p q)
      = lay (fun k q => w (ValueIdx.ix2 k q)) (fun q => b1 (ValueIdx.ix2 (0 : Fin 1) q)) (fun k => x (ValueIdx.ix2 p k)) q := by
  refine (ValueIdx.addf_apply _ _ _).trans ?_
  rw [kmm256x4, ValueIdx.broadcastTo_1b_ab_apply]
  rfl

theorem ref_relu256 (x : FVec Ideal Cert.ReferenceIdeal.S100000x256 .f32) (r : Fin 100000) (q : Fin 256) :
    Cert.Hand.Ref.relu256 (F := Ideal) x (ValueIdx.ix2 r q) = pos (fun k => x (ValueIdx.ix2 r k)) q := by
  unfold Cert.Hand.Ref.relu256
  refine (ValueIdx.maximumf_apply _ _ _).trans ?_
  rw [broadcastInDim_apply _ _ _ (ValueIdx.ix2 r q) (fun a => a.elim0) (fun a => a.elim0)]
  show max _ (Ideal.ofBits .f32 0x00000000#32) = _
  rw [Ideal.ofBits_zero_f32]
  rfl

theorem k_relu256 (y : FVec Ideal S2000x256 .f32) (p : Fin 2000) (q : Fin 256) :
    maximumf y (broadcast S2000x256 (Scalar.ofBits (F := Ideal) .f32 0x00000000#32)) (ValueIdx.ix2 p q)
      = pos (fun k => y (ValueIdx.ix2 p k)) q := by
  show max (y _) (Ideal.ofBits .f32 0x00000000#32) = _
  rw [Ideal.ofBits_zero_f32]
  rfl

/- the hidden layers' weights and biases out of the stacked pairs, as the reference slices them -/
theorem ref_wh0 (W : FVec Ideal Cert.ReferenceIdeal.S2x256x256 .f32) (i j : Fin 256) :
    Cert.Hand.Ref.wh0 (F := Ideal) W (ValueIdx.ix2 i j) = W (ValueIdx.ix3 (0 : Fin 2) i j) := by
  unfold Cert.Hand.Ref.wh0
  refine (ValueIdx.shapeCast_1ab_ab_apply _ _ i j).trans ?_
  exact extractStridedSlice_apply _ W _ (ValueIdx.ix3 (0 : Fin 1) i j) (ValueIdx.ix3 (0 : Fin 2) i j) (fun a => match a with
    | ⟨0, _⟩ => by show 0 = 0 + 0; rfl
    | ⟨1, _⟩ => by show i.val = 0 + i.val; omega
    | ⟨2, _⟩ => by show j.val = 0 + j.val; omega)
theorem ref_wh1 (W : FVec Ideal Cert.ReferenceIdeal.S2x256x256 .f32) (i j : Fin 256) :
    Cert.Hand.Ref.wh1 (F := Ideal) W (ValueIdx.ix2 i j) = W (ValueIdx.ix3 (1 : Fin 2) i j) := by
  unfold Cert.Hand.Ref.wh1
  refine (ValueIdx.shapeCast_1ab_ab_apply _ _ i j).trans ?_
  exact extractStridedSlice_apply _ W _ (ValueIdx.ix3 (0 : Fin 1) i j) (ValueIdx.ix3 (1 : Fin 2) i j) (fun a => match a with
    | ⟨0, _⟩ => by show 1 = 1 + 0; rfl
    | ⟨1, _⟩ => by show i.val = 0 + i.val; omega
    | ⟨2, _⟩ => by show j.val = 0 + j.val; omega)
theorem ref_bh0 (b : FVec Ideal Cert.ReferenceIdeal.S2x256 .f32) (q : Fin 256) :
    Cert.Hand.Ref.bh0 (F := Ideal) b (ValueIdx.ix1 q) = b (ValueIdx.ix2 (0 : Fin 2) q) := by
  unfold Cert.Hand.Ref.bh0
  refine (ValueIdx.shapeCast_1a_a_apply _ _ q).trans ?_
  exact extractStridedSlice_apply _ b _ (ValueIdx.ix2 (0 : Fin 1) q) (ValueIdx.ix2 (0 : Fin 2) q) (fun a => match a with
    | ⟨0, _⟩ => by show 0 = 0 + 0; rfl
    | ⟨1, _⟩ => by show q.val = 0 + q.val; omega)
theorem ref_bh1 (b : FVec Ideal Cert.ReferenceIdeal.S2x256 .f32) (q : Fin 256) :
    Cert.Hand.Ref.bh1 (F := Ideal) b (ValueIdx.ix1 q) = b (ValueIdx.ix2 (1 : Fin 2) q) := by
  unfold Cert.Hand.Ref.bh1
  refine (ValueIdx.shapeCast_1a_a_apply _ _ q).trans ?_
  exact extractStridedSlice_apply _ b _ (ValueIdx.ix2 (0 : Fin 1) q) (ValueIdx.ix2 (1 : Fin 2) q) (fun a => match a with
    | ⟨0, _⟩ => by show 1 = 1 + 0; rfl
    | ⟨1, _⟩ => by show q.val = 0 + q.val; omega)

/-- A row of the reference's decoder: the row of the input through the four layers. -/
theorem ref_dec_row (h : FVec Ideal Cert.ReferenceIdeal.S100000x128 .f32) (W0 : FVec Ideal Cert.ReferenceIdeal.S128x256 .f32) (b0 : FVec Ideal Cert.ReferenceIdeal.S256 .f32)
    (Wh : FVec Ideal Cert.ReferenceIdeal.S2x256x256 .f32) (bh : FVec Ideal Cert.ReferenceIdeal.S2x256 .f32) (Wl : FVec Ideal Cert.ReferenceIdeal.S256x4 .f32) (bl : FVec Ideal Cert.ReferenceIdeal.S4 .f32)
    (r : Fin 100000) (q : Fin 4) :
    Cert.Hand.Ref.dec (F := Ideal) h W0 b0 Wh bh Wl bl (ValueIdx.ix2 r q)
      = lay (fun k q => Wl (ValueIdx.ix2 k q)) (fun q => bl (ValueIdx.ix1 q))
          (pos (lay (fun k q => Wh (ValueIdx.ix3 (1 : Fin 2) k q)) (fun q => bh (ValueIdx.ix2 (1 : Fin 2) q))
            (pos (lay (fun k q => Wh (ValueIdx.ix3 (0 : Fin 2) k q)) (fun q => bh (ValueIdx.ix2 (0 : Fin 2) q))
              (pos (lay (fun k q => W0 (ValueIdx.ix2 k q)) (fun q => b0 (ValueIdx.ix1 q)) (fun k => h (ValueIdx.ix2 r k)))))))) q := by
  unfold Cert.Hand.Ref.dec
  simp only [ref_lin256x4, ref_relu256, ref_lin256x256, ref_lin128x256, ref_wh0, ref_wh1, ref_bh0, ref_bh1]

/-- A row of the first three layers on a block. -/
theorem pay2_row (v0 : Vec Ideal S2000x128 .f32) (v3 : Vec Ideal S128x256 .f32) (v6 : Vec Ideal S256 .f32) (v13 : Vec Ideal S1x256x256 .f32)
    (v17 : Vec Ideal S1x256 .f32) (v25 : Vec Ideal S1x256x256 .f32) (v29 : Vec Ideal S1x256 .f32) (p : Fin 2000) (q : Fin 256) :
    k9_pay2 (F := Ideal) v0 v3 v6 v13 v17 v25 v29 (ValueIdx.ix2 p q)
      = pos (lay (fun k q => v25 (ValueIdx.ix3 (0 : Fin 1) k q)) (fun q => v29 (ValueIdx.ix2 (0 : Fin 1) q))
          (pos (lay (fun k q => v13 (ValueIdx.ix3 (0 : Fin 1) k q)) (fun q => v17 (ValueIdx.ix2 (0 : Fin 1) q))
            (pos (lay (fun k q => v3 (ValueIdx.ix2 k q)) (fun q => v6 (ValueIdx.ix1 q)) (fun k => v0 (ValueIdx.ix2 p k))))))) q := by
  unfold k9_pay2
  simp only [k_relu256, k_lin128x256, k_lin256x256, ValueIdx.truncf_apply, shapeCast_self, ValueIdx.shapeCast_1ab_ab_apply,
    ValueIdx.shapeCast_a_1a_apply, ValueIdx.shapeCast_1a_a_apply]

/-- A row of the last layer on a block. -/
theorem pay1_row (v36 : FVec Ideal S2000x256 .bf16) (v37 : Vec Ideal S256x4 .f32) (v40 : Vec Ideal S4 .f32) (p : Fin 2000) (q : Fin 4) :
    k9_pay1 (F := Ideal) v36 v37 v40 (ValueIdx.ix2 p q)
      = lay (fun k q => v37 (ValueIdx.ix2 k q)) (fun q => v40 (ValueIdx.ix1 q)) (fun k => v36 (ValueIdx.ix2 p k)) q := by
  unfold k9_pay1
  simp only [k_lin256x4, ValueIdx.truncf_apply, ValueIdx.shapeCast_a_1a_apply]

/-- A block's row through the region's two payload terms is the reference's decoder at the row of the whole array the
    block's row came from: every operand of the payload read at an index is the matching array of the reference there. -/
theorem out_row (ρ : Fin 2000 → Fin 100000)
    (x0 : Vec Ideal S2000x128 .f32) (x1 : Vec Ideal S128x256 .f32) (x2 : Vec Ideal S256 .f32) (v13 : Vec Ideal S1x256x256 .f32)
    (v17 : Vec Ideal S1x256 .f32) (v25 : Vec Ideal S1x256x256 .f32) (v29 : Vec Ideal S1x256 .f32) (x5 : Vec Ideal S256x4 .f32) (x6 : Vec Ideal S4 .f32)
    (h : FVec Ideal Cert.ReferenceIdeal.S100000x128 .f32) (W0 : FVec Ideal Cert.ReferenceIdeal.S128x256 .f32) (b0 : FVec Ideal Cert.ReferenceIdeal.S256 .f32)
    (Wh : FVec Ideal Cert.ReferenceIdeal.S2x256x256 .f32) (bh : FVec Ideal Cert.ReferenceIdeal.S2x256 .f32) (Wl : FVec Ideal Cert.ReferenceIdeal.S256x4 .f32) (bl : FVec Ideal Cert.ReferenceIdeal.S4 .f32)
    (hx0 : ∀ p k, x0 (ValueIdx.ix2 p k) = h (ValueIdx.ix2 (ρ p) k)) (hx1 : ∀ k q, x1 (ValueIdx.ix2 k q) = W0 (ValueIdx.ix2 k q)) (hx2 : ∀ q, x2 (ValueIdx.ix1 q) = b0 (ValueIdx.ix1 q))
    (h13 : ∀ i j, v13 (ValueIdx.ix3 (0 : Fin 1) i j) = Wh (ValueIdx.ix3 (0 : Fin 2) i j)) (h17 : ∀ q, v17 (ValueIdx.ix2 (0 : Fin 1) q) = bh (ValueIdx.ix2 (0 : Fin 2) q))
    (h25 : ∀ i j, v25 (ValueIdx.ix3 (0 : Fin 1) i j) = Wh (ValueIdx.ix3 (1 : Fin 2) i j)) (h29 : ∀ q, v29 (ValueIdx.ix2 (0 : Fin 1) q) = bh (ValueIdx.ix2 (1 : Fin 2) q))
    (hx5 : ∀ k q, x5 (ValueIdx.ix2 k q) = Wl (ValueIdx.ix2 k q)) (hx6 : ∀ q, x6 (ValueIdx.ix1 q) = bl (ValueIdx.ix1 q)) (p : Fin 2000) (q : Fin 4) :
    k9_pay1 (F := Ideal) (k9_pay2 (F := Ideal) x0 x1 x2 v13 v17 v25 v29) x5 x6 (ValueIdx.ix2 p q)
      = Cert.Hand.Ref.dec (F := Ideal) h W0 b0 Wh bh Wl bl (ValueIdx.ix2 (ρ p) q) := by
  rw [pay1_row, ref_dec_row]
  simp only [pay2_row, hx0, hx1, hx2, h13, h17, h25, h29, hx5, hx6]

/-! ## From the blocks to the array -/

/- the region's entry contents: any valuation of the TensorCore's buffers -/
variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

theorem points : cfg9.N = 50 := by decide

/-- The windows' block indices over the grid: the rows' windows move one block a point, the weights' and biases' stay. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0 ∧ win9_2.index t (0 : Fin 1) = 0
    ∧ win9_3.index t (0 : Fin 3) = 0 ∧ win9_3.index t (1 : Fin 3) = 0 ∧ win9_3.index t (2 : Fin 3) = 0
    ∧ win9_4.index t (0 : Fin 2) = 0 ∧ win9_4.index t (1 : Fin 2) = 0
    ∧ win9_5.index t (0 : Fin 2) = 0 ∧ win9_5.index t (1 : Fin 2) = 0 ∧ win9_6.index t (0 : Fin 1) = 0
    ∧ win9_7.index t (0 : Fin 2) = t.val ∧ win9_7.index t (1 : Fin 2) = 0 :=
  (by decide +kernel : ∀ t : Fin grid9.N, _)

/-- What point `t` writes back is block `t` of the decoder of the whole arrays. -/
theorem flushed_eq (c : Dev nD) (t : Fin cfg9.N) :
    (dat9 V c).flushed 7 t = ((cfg9.win 7).blk t).view.read (Elt Ideal)
      (Cert.Hand.Ref.dec (F := Ideal) (V c main_v44) (V c main_arg10) (V c main_arg11) (V c main_arg12) (V c main_arg13) (V c main_arg14) (V c main_arg15)) := by
  show (cfg9.win 7).cut (grid9.coords t) ((dat9 V c).after 7 t) = _
  rw [after9_7]
  unfold out9_7
  rw [View.canon_unit_zero zero2]
  simp only [View.ld_unit_zero (S := S2000x128) zero2, View.ld_unit_zero (S := S128x256) zero2, View.ld_unit_zero (S := S256) zero1,
    View.ld_unit_zero (S := S256x4) zero2, View.ld_unit_zero (S := S4) zero1]
  funext y
  obtain ⟨p, q, rfl⟩ : ∃ (p : Fin 2000) (q : Fin 4), y = ValueIdx.ix2 p q := ⟨y 0, y 1, ValueIdx.eq_ix2 y⟩
  obtain ⟨f00, f01, f10, f11, f20, f30, f31, f32, f40, f41, f50, f51, f60, f70, f71⟩ := idx_facts t
  have ht : t.val < 50 := points ▸ t.isLt
  let ρ : Fin 2000 → Fin 100000 := fun p => ⟨t.val * 2000 + p.val, by have := p.isLt; omega⟩
  have e7 : ((cfg9.win 7).blk t).view.emb (ValueIdx.ix2 p q) = ValueIdx.ix2 (ρ p) q := by
    funext a; apply Fin.ext
    match a with
    | ⟨0, _⟩ => show win9_7.index t (0 : Fin 2) * 2000 + 1 * p.val = t.val * 2000 + p.val; rw [f70]; omega
    | ⟨1, _⟩ => show win9_7.index t (1 : Fin 2) * 4 + 1 * q.val = q.val; rw [f71]; omega
  have h0 : ∀ (p : Fin 2000) (k : Fin 128), iblk9 V c 0 t (ValueIdx.ix2 p k) = V c main_v44 (ValueIdx.ix2 (ρ p) k) := by
    intro p k
    show V c main_v44 (((cfg9.win 0).blk t).view.emb (ValueIdx.ix2 p k)) = _
    refine congrArg _ (funext fun a => Fin.ext ?_)
    match a with
    | ⟨0, _⟩ => show win9_0.index t (0 : Fin 2) * 2000 + 1 * p.val = t.val * 2000 + p.val; rw [f00]; omega
    | ⟨1, _⟩ => show win9_0.index t (1 : Fin 2) * 128 + 1 * k.val = k.val; rw [f01]; omega
  have h1 : ∀ (k : Fin 128) (q : Fin 256), iblk9 V c 1 t (ValueIdx.ix2 k q) = V c main_arg10 (ValueIdx.ix2 k q) := by
    intro k q
    show V c main_arg10 (((cfg9.win 1).blk t).view.emb (ValueIdx.ix2 k q)) = _
    refine congrArg _ (funext fun a => Fin.ext ?_)
    match a with
    | ⟨0, _⟩ => show win9_1.index t (0 : Fin 2) * 128 + 1 * k.val = k.val; rw [f10]; omega
    | ⟨1, _⟩ => show win9_1.index t (1 : Fin 2) * 256 + 1 * q.val = q.val; rw [f11]; omega
  have h2 : ∀ (q : Fin 256), iblk9 V c 2 t (ValueIdx.ix1 q) = V c main_arg11 (ValueIdx.ix1 q) := by
    intro q
    show V c main_arg11 (((cfg9.win 2).blk t).view.emb (ValueIdx.ix1 q)) = _
    refine congrArg _ (funext fun a => Fin.ext ?_)
    match a with
    | ⟨0, _⟩ => show win9_2.index t (0 : Fin 1) * 256 + 1 * q.val = q.val; rw [f20]; omega
  have h3 : ∀ (u : Fin 2) (i j : Fin 256), iblk9 V c 3 t (ValueIdx.ix3 u i j) = V c main_arg12 (ValueIdx.ix3 u i j) := by
    intro u i j
    show V c main_arg12 (((cfg9.win 3).blk t).view.emb (ValueIdx.ix3 u i j)) = _
    refine congrArg _ (funext fun a => Fin.ext ?_)
    match a with
    | ⟨0, _⟩ => show win9_3.index t (0 : Fin 3) * 2 + 1 * u.val = u.val; rw [f30]; omega
    | ⟨1, _⟩ => show win9_3.index t (1 : Fin 3) * 256 + 1 * i.val = i.val; rw [f31]; omega
    | ⟨2, _⟩ => show win9_3.index t (2 : Fin 3) * 256 + 1 * j.val = j.val; rw [f32]; omega
  have h4 : ∀ (u : Fin 2) (q : Fin 256), iblk9 V c 4 t (ValueIdx.ix2 u q) = V c main_arg13 (ValueIdx.ix2 u q) := by
    intro u q
    show V c main_arg13 (((cfg9.win 4).blk t).view.emb (ValueIdx.ix2 u q)) = _
    refine congrArg _ (funext fun a => Fin.ext ?_)
    match a with
    | ⟨0, _⟩ => show win9_4.index t (0 : Fin 2) * 2 + 1 * u.val = u.val; rw [f40]; omega
    | ⟨1, _⟩ => show win9_4.index t (1 : Fin 2) * 256 + 1 * q.val = q.val; rw [f41]; omega
  have h5 : ∀ (k : Fin 256) (q : Fin 4), iblk9 V c 5 t (ValueIdx.ix2 k q) = V c main_arg14 (ValueIdx.ix2 k q) := by
    intro k q
    show V c main_arg14 (((cfg9.win 5).blk t).view.emb (ValueIdx.ix2 k q)) = _
    refine congrArg _ (funext fun a => Fin.ext ?_)
    match a with
    | ⟨0, _⟩ => show win9_5.index t (0 : Fin 2) * 256 + 1 * k.val = k.val; rw [f50]; omega
    | ⟨1, _⟩ => show win9_5.index t (1 : Fin 2) * 4 + 1 * q.val = q.val; rw [f51]; omega
  have h6 : ∀ (q : Fin 4), iblk9 V c 6 t (ValueIdx.ix1 q) = V c main_arg15 (ValueIdx.ix1 q) := by
    intro q
    show V c main_arg15 (((cfg9.win 6).blk t).view.emb (ValueIdx.ix1 q)) = _
    refine congrArg _ (funext fun a => Fin.ext ?_)
    match a with
    | ⟨0, _⟩ => show win9_6.index t (0 : Fin 1) * 4 + 1 * q.val = q.val; rw [f60]; omega
  have h13 : ∀ (i j : Fin 256), View.ld (iblk9 V c 3 t) r9_3 (ValueIdx.ix3 (0 : Fin 1) i j) = V c main_arg12 (ValueIdx.ix3 (0 : Fin 2) i j) := by
    intro i j
    refine Eq.trans (congrArg (iblk9 V c 3 t) (funext fun a => Fin.ext ?_)) (h3 0 i j)
    match a with
    | ⟨0, _⟩ => show 0 + 1 * 0 = 0; rfl
    | ⟨1, _⟩ => show 0 + 1 * i.val = i.val; omega
    | ⟨2, _⟩ => show 0 + 1 * j.val = j.val; omega
  have h25 : ∀ (i j : Fin 256), View.ld (iblk9 V c 3 t) r9_5 (ValueIdx.ix3 (0 : Fin 1) i j) = V c main_arg12 (ValueIdx.ix3 (1 : Fin 2) i j) := by
    intro i j
    refine Eq.trans (congrArg (iblk9 V c 3 t) (funext fun a => Fin.ext ?_)) (h3 1 i j)
    match a with
    | ⟨0, _⟩ => show 1 + 1 * 0 = 1; rfl
    | ⟨1, _⟩ => show 0 + 1 * i.val = i.val; omega
    | ⟨2, _⟩ => show 0 + 1 * j.val = j.val; omega
  have h17 : ∀ (q : Fin 256), View.ld (iblk9 V c 4 t) r9_4 (ValueIdx.ix2 (0 : Fin 1) q) = V c main_arg13 (ValueIdx.ix2 (0 : Fin 2) q) := by
    intro q
    refine Eq.trans (congrArg (iblk9 V c 4 t) (funext fun a => Fin.ext ?_)) (h4 0 q)
    match a with
    | ⟨0, _⟩ => show 0 + 1 * 0 = 0; rfl
    | ⟨1, _⟩ => show 0 + 1 * q.val = q.val; omega
  have h29 : ∀ (q : Fin 256), View.ld (iblk9 V c 4 t) r9_6 (ValueIdx.ix2 (0 : Fin 1) q) = V c main_arg13 (ValueIdx.ix2 (1 : Fin 2) q) := by
    intro q
    refine Eq.trans (congrArg (iblk9 V c 4 t) (funext fun a => Fin.ext ?_)) (h4 1 q)
    match a with
    | ⟨0, _⟩ => show 1 + 1 * 0 = 1; rfl
    | ⟨1, _⟩ => show 0 + 1 * q.val = q.val; omega
  refine Eq.trans ?_ (congrArg (Cert.Hand.Ref.dec (F := Ideal) (V c main_v44) (V c main_arg10) (V c main_arg11) (V c main_arg12) (V c main_arg13) (V c main_arg14) (V c main_arg15)) e7).symm
  exact out_row ρ (iblk9 V c 0 t) (iblk9 V c 1 t) (iblk9 V c 2 t) (View.ld (iblk9 V c 3 t) r9_3) (View.ld (iblk9 V c 4 t) r9_4)
    (View.ld (iblk9 V c 3 t) r9_5) (View.ld (iblk9 V c 4 t) r9_6) (iblk9 V c 5 t) (iblk9 V c 6 t)
    (V c main_v44) (V c main_arg10) (V c main_arg11) (V c main_arg12) (V c main_arg13) (V c main_arg14) (V c main_arg15)
    h0 h1 h2 h13 h17 h25 h29 h5 h6 p q

/-- An index of the output array is in point `t`'s block iff each coordinate is in the block's range on its axis. -/
theorem mem_blk (t : Fin cfg9.N) (i : S100000x4.Idx) :
    i ∈ ((cfg9.win 7).blk t).view.set ↔ ∀ a : Fin 2, win9_7.index t a * S2000x4.size a ≤ (i a).val ∧ (i a).val < win9_7.index t a * S2000x4.size a + S2000x4.size a := by
  show i ∈ ((View.whole main_v45).slice (win9_7.rect t)).set ↔ _
  rw [View.set_slice_whole, Rect.mem_set_unit]
  exact Iff.rfl

/-- Row `r` of the output is in the block of point `r / 2000`. -/
theorem cover (i : S100000x4.Idx) : ∃ t : Fin cfg9.N, (cfg9.win 7).flush t = true ∧ i ∈ ((cfg9.win 7).blk t).view.set := by
  have hi0 : (i 0).val < 100000 := (i 0).isLt
  have hi1 : (i 1).val < 4 := (i 1).isLt
  have ht : (i 0).val / 2000 < cfg9.N := by rw [points]; omega
  refine ⟨⟨(i 0).val / 2000, ht⟩, flush9_7 _, ?_⟩
  rw [mem_blk]
  obtain ⟨f00, f01, f10, f11, f20, f30, f31, f32, f40, f41, f50, f51, f60, f70, f71⟩ := idx_facts ⟨(i 0).val / 2000, ht⟩
  intro a
  match a with
  | ⟨0, _⟩ =>
    show win9_7.index ⟨(i 0).val / 2000, ht⟩ (0 : Fin 2) * 2000 ≤ (i 0).val ∧ (i 0).val < win9_7.index ⟨(i 0).val / 2000, ht⟩ (0 : Fin 2) * 2000 + 2000
    rw [f70]; show (i 0).val / 2000 * 2000 ≤ (i 0).val ∧ (i 0).val < (i 0).val / 2000 * 2000 + 2000; omega
  | ⟨1, _⟩ =>
    show win9_7.index ⟨(i 0).val / 2000, ht⟩ (1 : Fin 2) * 4 ≤ (i 1).val ∧ (i 1).val < win9_7.index ⟨(i 0).val / 2000, ht⟩ (1 : Fin 2) * 4 + 4
    rw [f71]; omega

/-- After the 50 points the output array holds the decoder of all rows. -/
theorem final9 (c : Dev nD) : (dat9 V c).arrAt 7 cfg9.N =
    Cert.Hand.Ref.dec (F := Ideal) (V c main_v44) (V c main_arg10) (V c main_arg11) (V c main_arg12) (V c main_arg13) (V c main_arg14) (V c main_arg15) :=
  (dat9 V c).arrAt_eq_of_cover 7 _ (fun t _ => flushed_eq V c t) cover

end Cert.Hand.K9
end
-- ==== Proof.FoldEnd.lean ====
/- The kernel program's result, read off the fold of buffer contents: the encoder region's output, four graph layers,
   the decoder region's output — the reference network of the launch arguments, when the source indices are in range. -/
import proofs.«424308_j12910671692012_1_alg».proof.Proof.Gen.KernelIdeal.Frame
import proofs.«424308_j12910671692012_1_alg».proof.Proof.Gen.ReferenceIdeal
import proofs.«424308_j12910671692012_1_alg».proof.Proof.RefSpec
import proofs.«424308_j12910671692012_1_alg».proof.Proof.FoldBase
import proofs.«424308_j12910671692012_1_alg».proof.Proof.FoldLayer0
import proofs.«424308_j12910671692012_1_alg».proof.Proof.FoldLayer1
import proofs.«424308_j12910671692012_1_alg».proof.Proof.FoldLayer2
import proofs.«424308_j12910671692012_1_alg».proof.Proof.FoldLayer3
import proofs.«424308_j12910671692012_1_alg».proof.Proof.Region0
import proofs.«424308_j12910671692012_1_alg».proof.Proof.Region9
import Idealize.ShloMosaic.Lib.StableHlo.Run
import Idealize.ShloMosaic.Lib.Pipeline.Value

set_option maxRecDepth 16384

noncomputable section

namespace Cert.Hand.Fold

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

open Cert.Hand

/-- The encoder region leaves the reference's encoder of the launch arguments. -/
theorem h0_at (c : Dev nD) : W2 m ρ c (Proc.devRef .tc main_v4) =
    Ref.enc (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e0 : V1 m ρ c main_arg0 = (m ((c.tc : Thread nD τ).loc main_arg0)) := h0_arg0 (W0 m ρ c)
  have e2 : V1 m ρ c main_arg2 = (m ((c.tc : Thread nD τ).loc main_arg2)) := h0_arg2 (W0 m ρ c)
  have e3 : V1 m ρ c main_arg3 = (m ((c.tc : Thread nD τ).loc main_arg3)) := h0_arg3 (W0 m ρ c)
  have e4 : V1 m ρ c main_arg4 = (m ((c.tc : Thread nD τ).loc main_arg4)) := h0_arg4 (W0 m ρ c)
  have e5 : V1 m ρ c main_arg5 = (m ((c.tc : Thread nD τ).loc main_arg5)) := h0_arg5 (W0 m ρ c)
  have e6 : V1 m ρ c main_arg6 = (m ((c.tc : Thread nD τ).loc main_arg6)) := h0_arg6 (W0 m ρ c)
  have e7 : V1 m ρ c main_arg7 = (m ((c.tc : Thread nD τ).loc main_arg7)) := h0_arg7 (W0 m ρ c)
  refine (W2_arr m ρ c 7).trans ((K0.final0 (V1 m ρ) c).trans ?_)
  rw [e0, e2, e3, e4, e5, e6, e7]

/-- The result array after the run is the reference network of the launch arguments. -/
theorem result (c : Dev nD) (hs : Take.InRange (Ref.src (m ((c.tc : Thread nD τ).loc main_arg1)))) :
    W23 m ρ c (Proc.devRef .tc main_v45) =
      Ref.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have l0 := L0.layer0 m ρ c hs _ (h0_at m ρ c)
  have l1 := L1.layer1 m ρ c hs _ l0
  have l2 := L2.layer2 m ρ c hs _ l1
  have l3 : V22 m ρ c main_v44 = _ := L3.layer3 m ρ c hs _ l2
  have e10 : V22 m ρ c main_arg10 = (m ((c.tc : Thread nD τ).loc main_arg10)) := (keep22 m ρ c main_arg10 (by simp [quiet])).trans (h0_arg10 (W0 m ρ c))
  have e11 : V22 m ρ c main_arg11 = (m ((c.tc : Thread nD τ).loc main_arg11)) := (keep22 m ρ c main_arg11 (by simp [quiet])).trans (h0_arg11 (W0 m ρ c))
  have e12 : V22 m ρ c main_arg12 = (m ((c.tc : Thread nD τ).loc main_arg12)) := (keep22 m ρ c main_arg12 (by simp [quiet])).trans (h0_arg12 (W0 m ρ c))
  have e13 : V22 m ρ c main_arg13 = (m ((c.tc : Thread nD τ).loc main_arg13)) := (keep22 m ρ c main_arg13 (by simp [quiet])).trans (h0_arg13 (W0 m ρ c))
  have e14 : V22 m ρ c main_arg14 = (m ((c.tc : Thread nD τ).loc main_arg14)) := (keep22 m ρ c main_arg14 (by simp [quiet])).trans (h0_arg14 (W0 m ρ c))
  have e15 : V22 m ρ c main_arg15 = (m ((c.tc : Thread nD τ).loc main_arg15)) := (keep22 m ρ c main_arg15 (by simp [quiet])).trans (h0_arg15 (W0 m ρ c))
  refine (W23_arr m ρ c 7).trans ((K9.final9 (V22 m ρ) c).trans ?_)
  rw [l3, e10, e11, e12, e13, e14, e15]
  rfl

end Cert.Hand.Fold

end
-- ==== Proof.lean ====
/- The certificate: a graph network's Pallas kernel program against its jnp reference, over the extended reals.

   The network: an encoder of four dense layers (7 → 256 → 256 → 256 → 128, a positive part after the first three), four
   graph layers — every node's 128 features times the layer's 128 × 128 weights, each edge's source row added into its
   destination node, a bias, the positive part — and a decoder shaped like the encoder (128 → 256 → 256 → 256 → 4).
   The kernel program runs every dense stage as a region tiled in 50 blocks of 2000 rows, with bf16 casts before each
   product; the reference runs them on whole arrays.  At the ideal instance a cast is the identity and a matrix product is
   a plain sum, and a row of a dense stage's output depends on that row of its input alone, so each region leaves in its
   output array exactly the reference's stage of the region's input arrays (Region0 … Region9).  Between the regions both
   programs run the same host operations on the same values, with one difference: the kernel gathers source rows through
   a guarded take that fills a row with a not-a-number pattern where the index, wrapped once, is still outside
   0 … 99999, and the reference gathers plainly.  The precondition's last conjunct (every source index from -100000 up to
   99999, the indices at which the reference's own indexing is in range) makes the guard pass everywhere (Take).
   Read through the run's fold of buffer contents (FoldBase, FoldLayer0 … FoldLayer3, FoldEnd) the kernel program's result
   is the reference network of the launch arguments, and the reference's composed result is that network by unfolding
   (RefWhole).  The three frames are the generated ones; the idealization rewrote nothing, so `preserves` is trivial. -/
import proofs.«424308_j12910671692012_1_alg».proof.Defs
import proofs.«424308_j12910671692012_1_alg».proof.Proof.Gen.Kernel
import proofs.«424308_j12910671692012_1_alg».proof.Proof.Gen.Kernel.Frame
import proofs.«424308_j12910671692012_1_alg».proof.Proof.Gen.KernelIdeal
import proofs.«424308_j12910671692012_1_alg».proof.Proof.Gen.KernelIdeal.Frame
import proofs.«424308_j12910671692012_1_alg».proof.Proof.Gen.ReferenceIdeal
import proofs.«424308_j12910671692012_1_alg».proof.Proof.Gen.ReferenceIdeal.Run
import proofs.«424308_j12910671692012_1_alg».proof.Proof.Gen.Pre_finite_inputs
import proofs.«424308_j12910671692012_1_alg».proof.Proof.KernelRun
import proofs.«424308_j12910671692012_1_alg».proof.Proof.RefWhole
import proofs.«424308_j12910671692012_1_alg».proof.Proof.Take
import proofs.«424308_j12910671692012_1_alg».proof.Proof.FoldEnd
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference network of the (agreeing) arguments in their result arrays. -/
theorem algebraic : Cert.algebraic_KernelIdeal_ReferenceIdeal := by
  intro m ρ m' ρ' hpre hagree
  refine ⟨fun c => Cert.Hand.Ref.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.Hand.Fold.result m ρ c (Cert.Hand.Take.src_inRange m hpre c)), (h c).2⟩)
      (Cert.Hand.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.Hand.Ref.whole_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
